-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S512x512 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x28x28 : Shape := ⟨4, ![64, 512, 28, 28]⟩
abbrev S200x262144 : Shape := ⟨2, ![200, 262144]⟩
abbrev S200 : Shape := ⟨1, ![200]⟩
abbrev S_ : Shape := ⟨0, ![]⟩

class Facts : Prop where
  bcast_S_S64x512x28x28 : S_.BroadcastsInDim S64x512x28x28 (![] : Fin 0 → Fin S64x512x28x28.rank)
  reducesTo_S64x512x28x28_S_d0_1_2_3 : S64x512x28x28.ReducesTo [0, 1, 2, 3] S_
  h_S_ : 0 < S_.numel
  bcast_S_S200x262144 : S_.BroadcastsInDim S200x262144 (![] : Fin 0 → Fin S200x262144.rank)
  reducesTo_S200x262144_S_d0_1 : S200x262144.ReducesTo [0, 1] S_
  bcast_S_S200 : S_.BroadcastsInDim S200 (![] : Fin 0 → Fin S200.rank)
  reducesTo_S200_S_d0 : S200.ReducesTo [0] S_

variable [Facts]

def fn {F : FTy → Type} [FloatOps F] (main_arg0 : FVec F S64x512x28x28 .f32) (main_arg1 : FVec F S200x262144 .f32) (main_arg2 : FVec F S200 .f32) : IVec S_ 1 :=
  let main_v0 : FVec F S64x512x28x28 .f32 := Host.absf main_arg0
  let main_cst : FVec F S_ .f32 := constant S_ .f32 0x7F800000#32
  let main_v1 : FVec F S64x512x28x28 .f32 := broadcastInDim S64x512x28x28 ![] bcast_S_S64x512x28x28 main_cst
  let main_v2 : IVec S64x512x28x28 1 := cmpf .olt main_v0 main_v1
  let main_c : IVec S_ 1 := constantI S_ 1 1#1
  let main_v3 : IVec S_ 1 := (fun x v => Host.reduce IntOp.andi x v reducesTo_S64x512x28x28_S_d0_1_2_3 h_S_) main_v2 main_c
  let main_v4 : FVec F S200x262144 .f32 := Host.absf main_arg1
  let main_cst_0 : FVec F S_ .f32 := constant S_ .f32 0x7F800000#32
  let main_v5 : FVec F S200x262144 .f32 := broadcastInDim S200x262144 ![] bcast_S_S200x262144 main_cst_0
  let main_v6 : IVec S200x262144 1 := cmpf .olt main_v4 main_v5
  let main_c_1 : IVec S_ 1 := constantI S_ 1 1#1
  let main_v7 : IVec S_ 1 := (fun x v => Host.reduce IntOp.andi x v reducesTo_S200x262144_S_d0_1 h_S_) main_v6 main_c_1
  let main_v8 : IVec S_ 1 := andi main_v3 main_v7
  let main_v9 : FVec F S200 .f32 := Host.absf main_arg2
  let main_cst_2 : FVec F S_ .f32 := constant S_ .f32 0x7F800000#32
  let main_v10 : FVec F S200 .f32 := broadcastInDim S200 ![] bcast_S_S200 main_cst_2
  let main_v11 : IVec S200 1 := cmpf .olt main_v9 main_v10
  let main_c_3 : IVec S_ 1 := constantI S_ 1 1#1
  let main_v12 : IVec S_ 1 := (fun x v => Host.reduce IntOp.andi x v reducesTo_S200_S_d0 h_S_) main_v11 main_c_3
  let main_v13 : IVec S_ 1 := andi main_v8 main_v12
  main_v13
-- ==== Kernel.lean ====
abbrev S64x512x28x28 : Shape := ⟨4, ![64, 512, 28, 28]⟩
abbrev S200x262144 : Shape := ⟨2, ![200, 262144]⟩
abbrev S200 : Shape := ⟨1, ![200]⟩
abbrev S64x512x784 : Shape := ⟨3, ![64, 512, 784]⟩
abbrev S64x512x512 : Shape := ⟨3, ![64, 512, 512]⟩
abbrev S1x512x784 : Shape := ⟨3, ![1, 512, 784]⟩
abbrev S1x512x512 : Shape := ⟨3, ![1, 512, 512]⟩
abbrev S512x784 : Shape := ⟨2, ![512, 784]⟩
abbrev S784x512 : Shape := ⟨2, ![784, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x262144 : Shape := ⟨2, ![64, 262144]⟩
abbrev S1x200 : Shape := ⟨2, ![1, 200]⟩
abbrev S64x200 : Shape := ⟨2, ![64, 200]⟩
abbrev S64x8192 : Shape := ⟨2, ![64, 8192]⟩
abbrev S200x8192 : Shape := ⟨2, ![200, 8192]⟩
abbrev S8192x200 : Shape := ⟨2, ![8192, 200]⟩

abbrev nBuf : Space → Nat
  | .hbm => 8
  | .vmem => 11
  | .smem => 0
  | _ => 0

abbrev bufTy : (tb : Table) → Fin (tcTables nBuf tb) → BufTy
  | .hbm, ⟨0, _⟩ => ⟨S64x512x28x28, .f32⟩
  | .hbm, ⟨1, _⟩ => ⟨S200x262144, .f32⟩
  | .hbm, ⟨2, _⟩ => ⟨S200, .f32⟩
  | .hbm, ⟨3, _⟩ => ⟨S64x512x784, .f32⟩
  | .hbm, ⟨4, _⟩ => ⟨S64x512x512, .f32⟩
  | .hbm, ⟨5, _⟩ => ⟨S64x262144, .f32⟩
  | .hbm, ⟨6, _⟩ => ⟨S1x200, .f32⟩
  | .hbm, ⟨7, _⟩ => ⟨S64x200, .f32⟩
  | .local _ .vmem, ⟨0, _⟩ => ⟨S1x512x784, .f32⟩
  | .local _ .vmem, ⟨1, _⟩ => ⟨S1x512x784, .f32⟩
  | .local _ .vmem, ⟨2, _⟩ => ⟨S1x512x512, .f32⟩
  | .local _ .vmem, ⟨3, _⟩ => ⟨S1x512x512, .f32⟩
  | .local _ .vmem, ⟨4, _⟩ => ⟨S64x8192, .f32⟩
  | .local _ .vmem, ⟨5, _⟩ => ⟨S64x8192, .f32⟩
  | .local _ .vmem, ⟨6, _⟩ => ⟨S200x8192, .f32⟩
  | .local _ .vmem, ⟨7, _⟩ => ⟨S200x8192, .f32⟩
  | .local _ .vmem, ⟨8, _⟩ => ⟨S1x200, .f32⟩
  | .local _ .vmem, ⟨9, _⟩ => ⟨S64x200, .f32⟩
  | .local _ .vmem, ⟨10, _⟩ => ⟨S64x200, .f32⟩
  | _, _ => ⟨S64x512x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![32], ![false]⟩

def k1_cond2 (i : grid1.Coords) : BitVec 1 :=
  let arg0 : BitVec 32 := BitVec.ofNat 32 (i 0).val
  let c31_i32 : BitVec 32 := 31#32
  let v15 : BitVec 1 := Scalar.cmpi .eq arg0 c31_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x200 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x200 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  shapeCasts_S64x512x28x28_S64x512x784 : S64x512x28x28.ShapeCasts S64x512x784
  inb_S1x512x784_S1x512x784_0_0_0 : ∀ a, (![0, 0, 0] : Fin 3 → Nat) a + S1x512x784.size a ≤ S1x512x784.size a
  h_S1x512x784 : 0 < S1x512x784.numel
  shapeCasts_S1x512x784_S512x784 : S1x512x784.ShapeCasts S512x784
  bitsLt_bf16_f32 : FTy.bits .bf16 < FTy.bits .f32
  transposes_S512x784_p1_0_S784x512 : S512x784.Transposes [1, 0] S784x512
  iota_S512x512_d0_w32 : S512x512.Iotas .tc 32 [0]
  iota_S512x512_d1_w32 : S512x512.Iotas .tc 32 [1]
  natLt_1_32 : 1 < 32
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  shapeCasts_S64x512x512_S64x262144 : S64x512x512.ShapeCasts S64x262144
  shapeCasts_S200_S1x200 : S200.ShapeCasts S1x200
  inb_S64x200_S64x200_0_0 : ∀ a, (![0, 0] : Fin 2 → Nat) a + S64x200.size a ≤ S64x200.size a
  h_S64x200 : 0 < S64x200.numel
  shapeCasts_S64x200_S64x200 : S64x200.ShapeCasts S64x200
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S200x8192_S200x8192_0_0 : ∀ a, (![0, 0] : Fin 2 → Nat) a + S200x8192.size a ≤ S200x8192.size a
  h_S200x8192 : 0 < S200x8192.numel
  transposes_S200x8192_p1_0_S8192x200 : S200x8192.Transposes [1, 0] S8192x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S64x200 : S1x200.Broadcasts S64x200
  dot_S512x784_S784x512_S512x512_1_0_0_1_n_n_wf : DotDims.WF S512x784 S784x512 S512x512 [1] [0] [0] [1] [] []
  dot_S512x512_S512x512_S512x512_1_0_0_1_n_n_wf : DotDims.WF S512x512 S512x512 S512x512 [1] [0] [0] [1] [] []
  dot_S64x8192_S8192x200_S64x200_1_0_0_1_n_n_wf : DotDims.WF S64x8192 S8192x200 S64x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x784.size a ≤ S64x512x784.size a
  hwx0_0 : ∀ i : grid0.Coords, EltTy.bits .f32 = 32 ∨ (Rect.block (s := S64x512x784) S1x512x784.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x8192.size a ≤ S64x262144.size a
  hwx1_0 : ∀ i : grid1.Coords, EltTy.bits .f32 = 32 ∨ (Rect.block (s := S64x262144) S64x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x8192.size a ≤ S200x262144.size a
  hwx1_1 : ∀ i : grid1.Coords, EltTy.bits .f32 = 32 ∨ (Rect.block (s := S200x262144) S200x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x200.size a ≤ S1x200.size a
  hwx1_2 : ∀ i : grid1.Coords, EltTy.bits .f32 = 32 ∨ (Rect.block (s := S1x200) S1x200.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x200.size a ≤ S64x200.size a
  hwx1_3 : ∀ i : grid1.Coords, EltTy.bits .f32 = 32 ∨ (Rect.block (s := S64x200) S64x200.size (cc1_transform_3 i) (hinb1_3 i)).WholeWords (EltTy.packing .f32)

variable [Facts₀]

def dot_S512x784_S784x512_S512x512_1_0_0_1_n_n : DotDims S512x784 S784x512 S512x512 where
  lhsContracting := [1]
  rhsContracting := [0]
  lhsNonContracting := [0]
  rhsNonContracting := [1]
  lhsBatch := []
  rhsBatch := []
  wf := dot_S512x784_S784x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S64x8192_S8192x200_S64x200_1_0_0_1_n_n : DotDims S64x8192 S8192x200 S64x200 where
  lhsContracting := [1]
  rhsContracting := [0]
  lhsNonContracting := [0]
  rhsNonContracting := [1]
  lhsBatch := []
  rhsBatch := []
  wf := dot_S64x8192_S8192x200_S64x200_1_0_0_1_n_n_wf

abbrev win0_0 : Pipeline.Window sig grid0 :=
  Pipeline.Window.ofSpec (Memref.whole main_v0) S1x512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S64x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S200x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x200.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x200.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S64x512x28x28 : Shape := ⟨4, ![64, 512, 28, 28]⟩
abbrev S200x262144 : Shape := ⟨2, ![200, 262144]⟩
abbrev S200 : Shape := ⟨1, ![200]⟩
abbrev S64x512x784 : Shape := ⟨3, ![64, 512, 784]⟩
abbrev S64x512x512 : Shape := ⟨3, ![64, 512, 512]⟩
abbrev S_ : Shape := ⟨0, ![]⟩
abbrev S64 : Shape := ⟨1, ![64]⟩
abbrev S64x1x1 : Shape := ⟨3, ![64, 1, 1]⟩
abbrev S512x512 : Shape := ⟨2, ![512, 512]⟩
abbrev S64x262144 : Shape := ⟨2, ![64, 262144]⟩
abbrev S64x1 : Shape := ⟨2, ![64, 1]⟩
abbrev S262144x200 : Shape := ⟨2, ![262144, 200]⟩
abbrev S64x200 : Shape := ⟨2, ![64, 200]⟩
abbrev S1x200 : Shape := ⟨2, ![1, 200]⟩

abbrev nBuf : Space → Nat
  | .hbm => 150
  | .vmem => 0
  | .smem => 0
  | _ => 0

abbrev hbmTy0_0 (i : Nat) : BufTy := match i % 128 with
  | 0 => ⟨S64x512x28x28, .f32⟩
  | 1 => ⟨S200x262144, .f32⟩
  | 2 => ⟨S200, .f32⟩
  | 3 => ⟨S64x512x784, .f32⟩
  | 4 => ⟨S64x512x512, .f32⟩
  | 5 => ⟨S_, .f32⟩
  | 6 => ⟨S64x512x512, .f32⟩
  | 7 => ⟨S64x512x512, .f32⟩
  | 8 => ⟨S64x512x512, .f32⟩
  | 9 => ⟨S_, .f32⟩
  | 10 => ⟨S64, .f32⟩
  | 11 => ⟨S64, .f32⟩
  | 12 => ⟨S64x1x1, .f32⟩
  | 13 => ⟨S64x512x512, .f32⟩
  | 14 => ⟨S64x512x512, .f32⟩
  | 15 => ⟨S512x512, .i32⟩
  | 16 => ⟨S512x512, .i32⟩
  | 17 => ⟨S_, .i32⟩
  | 18 => ⟨S512x512, .i32⟩
  | 19 => ⟨S512x512, .i32⟩
  | 20 => ⟨S512x512, .i1⟩
  | 21 => ⟨S512x512, .f32⟩
  | 22 => ⟨S64x512x512, .f32⟩
  | 23 => ⟨S_, .f32⟩
  | 24 => ⟨S64x512x512, .f32⟩
  | 25 => ⟨S64x512x512, .f32⟩
  | 26 => ⟨S64x512x512, .f32⟩
  | 27 => ⟨S64x512x512, .f32⟩
  | 28 => ⟨S_, .f32⟩
  | 29 => ⟨S64x512x512, .f32⟩
  | 30 => ⟨S64x512x512, .f32⟩
  | 31 => ⟨S64x512x512, .f32⟩
  | 32 => ⟨S64x512x512, .f32⟩
  | 33 => ⟨S_, .f32⟩
  | 34 => ⟨S64x512x512, .f32⟩
  | 35 => ⟨S64x512x512, .f32⟩
  | 36 => ⟨S64x512x512, .f32⟩
  | 37 => ⟨S64x512x512, .f32⟩
  | 38 => ⟨S_, .f32⟩
  | 39 => ⟨S64x512x512, .f32⟩
  | 40 => ⟨S64x512x512, .f32⟩
  | 41 => ⟨S64x512x512, .f32⟩
  | 42 => ⟨S64x512x512, .f32⟩
  | 43 => ⟨S_, .f32⟩
  | 44 => ⟨S64x512x512, .f32⟩
  | 45 => ⟨S64x512x512, .f32⟩
  | 46 => ⟨S64x512x512, .f32⟩
  | 47 => ⟨S64x512x512, .f32⟩
  | 48 => ⟨S_, .f32⟩
  | 49 => ⟨S64x512x512, .f32⟩
  | 50 => ⟨S64x512x512, .f32⟩
  | 51 => ⟨S64x512x512, .f32⟩
  | 52 => ⟨S64x512x512, .f32⟩
  | 53 => ⟨S_, .f32⟩
  | 54 => ⟨S64x512x512, .f32⟩
  | 55 => ⟨S64x512x512, .f32⟩
  | 56 => ⟨S64x512x512, .f32⟩
  | 57 => ⟨S64x512x512, .f32⟩
  | 58 => ⟨S_, .f32⟩
  | 59 => ⟨S64x512x512, .f32⟩
  | 60 => ⟨S64x512x512, .f32⟩
  | 61 => ⟨S64x512x512, .f32⟩
  | 62 => ⟨S64x512x512, .f32⟩
  | 63 => ⟨S_, .f32⟩
  | 64 => ⟨S64x512x512, .f32⟩
  | 65 => ⟨S64x512x512, .f32⟩
  | 66 => ⟨S64x512x512, .f32⟩
  | 67 => ⟨S64x512x512, .f32⟩
  | 68 => ⟨S_, .f32⟩
  | 69 => ⟨S64x512x512, .f32⟩
  | 70 => ⟨S64x512x512, .f32⟩
  | 71 => ⟨S64x512x512, .f32⟩
  | 72 => ⟨S64x512x512, .f32⟩
  | 73 => ⟨S_, .f32⟩
  | 74 => ⟨S64x512x512, .f32⟩
  | 75 => ⟨S64x512x512, .f32⟩
  | 76 => ⟨S64x512x512, .f32⟩
  | 77 => ⟨S64x512x512, .f32⟩
  | 78 => ⟨S_, .f32⟩
  | 79 => ⟨S64x512x512, .f32⟩
  | 80 => ⟨S64x512x512, .f32⟩
  | 81 => ⟨S64x512x512, .f32⟩
  | 82 => ⟨S64x512x512, .f32⟩
  | 83 => ⟨S_, .f32⟩
  | 84 => ⟨S64x512x512, .f32⟩
  | 85 => ⟨S64x512x512, .f32⟩
  | 86 => ⟨S64x512x512, .f32⟩
  | 87 => ⟨S64x512x512, .f32⟩
  | 88 => ⟨S_, .f32⟩
  | 89 => ⟨S64x512x512, .f32⟩
  | 90 => ⟨S64x512x512, .f32⟩
  | 91 => ⟨S64x512x512, .f32⟩
  | 92 => ⟨S64x512x512, .f32⟩
  | 93 => ⟨S_, .f32⟩
  | 94 => ⟨S64x512x512, .f32⟩
  | 95 => ⟨S64x512x512, .f32⟩
  | 96 => ⟨S64x512x512, .f32⟩
  | 97 => ⟨S64x512x512, .f32⟩
  | 98 => ⟨S_, .f32⟩
  | 99 => ⟨S64x512x512, .f32⟩
  | 100 => ⟨S64x512x512, .f32⟩
  | 101 => ⟨S64x512x512, .f32⟩
  | 102 => ⟨S64x512x512, .f32⟩
  | 103 => ⟨S_, .f32⟩
  | 104 => ⟨S64x512x512, .f32⟩
  | 105 => ⟨S64x512x512, .f32⟩
  | 106 => ⟨S64x512x512, .f32⟩
  | 107 => ⟨S64x512x512, .f32⟩
  | 108 => ⟨S_, .f32⟩
  | 109 => ⟨S64x512x512, .f32⟩
  | 110 => ⟨S64x512x512, .f32⟩
  | 111 => ⟨S64x512x512, .f32⟩
  | 112 => ⟨S64x512x512, .f32⟩
  | 113 => ⟨S_, .f32⟩
  | 114 => ⟨S64x512x512, .f32⟩
  | 115 => ⟨S64x512x512, .f32⟩
  | 116 => ⟨S64x512x512, .f32⟩
  | 117 => ⟨S64x512x512, .f32⟩
  | 118 => ⟨S_, .f32⟩
  | 119 => ⟨S64x512x512, .f32⟩
  | 120 => ⟨S64x512x512, .f32⟩
  | 121 => ⟨S64x512x512, .f32⟩
  | 122 => ⟨S64x512x512, .f32⟩
  | 123 => ⟨S64, .f32⟩
  | 124 => ⟨S64x1x1, .f32⟩
  | 125 => ⟨S64x512x512, .f32⟩
  | 126 => ⟨S64x512x512, .f32⟩
  | 127 => ⟨S64x262144, .f32⟩
  | _ => ⟨S64x512x28x28, .f32⟩

abbrev hbmTy0_1 (i : Nat) : BufTy := match i % 128 with
  | 0 => ⟨S64x262144, .f32⟩
  | 1 => ⟨S64x262144, .f32⟩
  | 2 => ⟨S_, .f32⟩
  | 3 => ⟨S64x262144, .f32⟩
  | 4 => ⟨S64x262144, .f32⟩
  | 5 => ⟨S64x262144, .f32⟩
  | 6 => ⟨S64x262144, .f32⟩
  | 7 => ⟨S64x262144, .f32⟩
  | 8 => ⟨S_, .f32⟩
  | 9 => ⟨S64, .f32⟩
  | 10 => ⟨S64x1, .f32⟩
  | 11 => ⟨S64x1, .f32⟩
  | 12 => ⟨S_, .f32⟩
  | 13 => ⟨S64x1, .f32⟩
  | 14 => ⟨S64x1, .f32⟩
  | 15 => ⟨S64x262144, .f32⟩
  | 16 => ⟨S64x262144, .f32⟩
  | 17 => ⟨S262144x200, .f32⟩
  | 18 => ⟨S64x200, .f32⟩
  | 19 => ⟨S1x200, .f32⟩
  | 20 => ⟨S64x200, .f32⟩
  | 21 => ⟨S64x200, .f32⟩
  | _ => ⟨S64x512x28x28, .f32⟩

abbrev hbmTy (i : Nat) : BufTy := match i / 128 with
  | 0 => hbmTy0_0 i
  | 1 => hbmTy0_1 i
  | _ => ⟨S64x512x28x28, .f32⟩

abbrev bufTy : (tb : Table) → Fin (tcTables nBuf tb) → BufTy
  | .hbm, ⟨i, _⟩ => hbmTy i
  | _, _ => ⟨S64x512x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_5 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_9 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_10 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_13 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_17 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_18 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_19 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_20 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_21 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_cst_22 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_23 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩

abbrev nD : Nat := 1
abbrev τ : Topo := Topo.v7x

variable {F : FTy → Type} [FloatOps F]

class Facts₀ : Prop where
  shapeCasts_S64x512x28x28_S64x512x784 : S64x512x28x28.ShapeCasts S64x512x784
  bcast_S_S64x512x512 : S_.BroadcastsInDim S64x512x512 (![] : Fin 0 → Fin S64x512x512.rank)
  reducesTo_S64x512x512_S64_d1_2 : S64x512x512.ReducesTo [1, 2] S64
  h_S_ : 0 < S_.numel
  bcast_S64_S64x1x1_0 : S64.BroadcastsInDim S64x1x1 (![0] : Fin 1 → Fin S64x1x1.rank)
  bcast_S64x1x1_S64x512x512_0_1_2 : S64x1x1.BroadcastsInDim S64x512x512 (![0, 1, 2] : Fin 3 → Fin S64x512x512.rank)
  bcast_S_S512x512 : S_.BroadcastsInDim S512x512 (![] : Fin 0 → Fin S512x512.rank)
  bcast_S512x512_S64x512x512_1_2 : S512x512.BroadcastsInDim S64x512x512 (![1, 2] : Fin 2 → Fin S64x512x512.rank)
  shapeCasts_S64x512x512_S64x262144 : S64x512x512.ShapeCasts S64x262144
  bcast_S_S64x262144 : S_.BroadcastsInDim S64x262144 (![] : Fin 0 → Fin S64x262144.rank)
  reducesTo_S64x262144_S64_d1 : S64x262144.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x262144_0_1 : S64x1.BroadcastsInDim S64x262144 (![0, 1] : Fin 2 → Fin S64x262144.rank)
  transposes_S200x262144_S262144x200_1_0 : S200x262144.Transposes [1, 0] S262144x200
  bcast_S200_S1x200_1 : S200.BroadcastsInDim S1x200 (![1] : Fin 1 → Fin S1x200.rank)
  bcast_S1x200_S64x200_0_1 : S1x200.BroadcastsInDim S64x200 (![0, 1] : Fin 2 → Fin S64x200.rank)
  dot_S64x512x784_S64x512x784_S64x512x512_2_2_1_1_0_0_wf : DotDims.WF S64x512x784 S64x512x784 S64x512x512 [2] [2] [1] [1] [0] [0]
  dot_S64x512x512_S64x512x512_S64x512x512_2_1_1_2_0_0_wf : DotDims.WF S64x512x512 S64x512x512 S64x512x512 [2] [1] [1] [2] [0] [0]
  dot_S64x262144_S262144x200_S64x200_1_0_0_1_n_n_wf : DotDims.WF S64x262144 S262144x200 S64x200 [1] [0] [0] [1] [] []

variable [Facts₀]

def dot_S64x512x784_S64x512x784_S64x512x512_2_2_1_1_0_0 : DotDims S64x512x784 S64x512x784 S64x512x512 where
  lhsContracting := [2]
  rhsContracting := [2]
  lhsNonContracting := [1]
  rhsNonContracting := [1]
  lhsBatch := [0]
  rhsBatch := [0]
  wf := dot_S64x512x784_S64x512x784_S64x512x512_2_2_1_1_0_0_wf
def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def dot_S64x262144_S262144x200_S64x200_1_0_0_1_n_n : DotDims S64x262144 S262144x200 S64x200 where
  lhsContracting := [1]
  rhsContracting := [0]
  lhsNonContracting := [0]
  rhsNonContracting := [1]
  lhsBatch := []
  rhsBatch := []
  wf := dot_S64x262144_S262144x200_S64x200_1_0_0_1_n_n_wf

class Facts : Prop extends Facts₀ where

variable [Facts]
-- ==== Proof.KDefsBits.lean ====
/-
  Shared definitions for the two kernel regions, generic in the float instance.

  Region 0 (one grid point per batch element): the body loads its input block `v0` (one batch element's
  512 x 784 matrix), and stores ONE value into its output block: the normalised signed square root of the
  Newton-Schulz iterate. `pay0 v0` is that stored value as a function of the loaded block.

  Region 1 (32 grid points along the contraction axis): the body keeps a running sum in a scratch buffer,
  reset at the first point; `acc1` is the scratch after point `n`, and `outF1` the output block the last
  point stores (the running sum plus the bias row).
-/
import proofs.«119286_j70282844831999_1_alg».proof.Proof.Gen.Kernel.Skeleton
import proofs.«119286_j70282844831999_1_alg».proof.Proof.Gen.Kernel.Launch
import proofs.«119286_j70282844831999_1_alg».proof.Proof.Gen.Kernel.Points
import Idealize.ShloMosaic.Lib.Pipeline.FrameBody
import Idealize.ShloMosaic.Lib.ValueIdx

noncomputable section

namespace Cert.Kernel.Hand

open Idealize.ShloMosaic Idealize.ShloMosaic.TcCoe
open Idealize.SL Idealize.SL.Sem
open Cert.Kernel Cert.Kernel.Gen
open Idealize.ShloMosaic.Pipeline (Dat Cfg Window)

variable {F : FTy → Type} [BitOps F]

/-- The value region 0's body stores, from the block it loads: the body's four parts composed. -/
def pay0 (v0 : Vec F S1x512x784 .f32) : Vec F S1x512x512 .f32 :=
  k0_pay35 (k0_pay2 (F := F)) (k0_pay3 v0)
    (k0_pay32 (k0_pay2 (F := F)) (k0_pay20 (k0_pay2 (F := F)) (k0_pay8 v0) (k0_pay9 v0) (k0_pay10 v0)) (k0_pay21 (k0_pay2 (F := F)) (k0_pay8 v0) (k0_pay9 v0) (k0_pay10 v0)) (k0_pay22 (k0_pay2 (F := F)) (k0_pay8 v0) (k0_pay9 v0) (k0_pay10 v0)) (k0_pay23 (F := F)))
    (k0_pay33 (k0_pay2 (F := F)) (k0_pay20 (k0_pay2 (F := F)) (k0_pay8 v0) (k0_pay9 v0) (k0_pay10 v0)) (k0_pay21 (k0_pay2 (F := F)) (k0_pay8 v0) (k0_pay9 v0) (k0_pay10 v0)) (k0_pay22 (k0_pay2 (F := F)) (k0_pay8 v0) (k0_pay9 v0) (k0_pay10 v0)) (k0_pay23 (F := F)))
    (k0_pay34 (k0_pay2 (F := F)) (k0_pay20 (k0_pay2 (F := F)) (k0_pay8 v0) (k0_pay9 v0) (k0_pay10 v0)) (k0_pay21 (k0_pay2 (F := F)) (k0_pay8 v0) (k0_pay9 v0) (k0_pay10 v0)) (k0_pay22 (k0_pay2 (F := F)) (k0_pay8 v0) (k0_pay9 v0) (k0_pay10 v0)) (k0_pay23 (F := F)))
    (constant S512x512 .f32 0x00000000#32)

section AtV
-- the TensorCore's buffer contents when a region is entered
variable (V : (c : Dev nD) → (b : Ref sig .tc) → Buf (Elt F) ((c : Thread nD τ).loc b))

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1: the scratch accumulator after the body at point `n`: the zero block plus the first product at the
    first point, afterwards what the point before left plus this point's product. -/
def acc1 (c : Dev nD) : (n : ℕ) → n < cfg1.N → Vec F S64x200 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

/-- Region 1: what the last point stores into the output block: the finished sum plus the bias row. -/
def outF1 (c : Dev nD) (t : Fin cfg1.N) : Vec F S64x200 .f32 :=
  k1_pay3 (acc1 V c t.val t.isLt) (iblk1 V c 2 t)

end AtV

/-! ## The two regions' results as whole-array functions of the arrays they read -/

open Idealize.ShloMosaic.ValueIdx in
/-- Batch element `b`'s 512 x 784 matrix, laid out as the block region 0 loads at point `b`. -/
def xblk (x3 : Vec F S64x512x784 .f32) (b : Fin 64) : Vec F S1x512x784 .f32 :=
  fun y => x3 (ix3 b (y 1 : Fin 512) (y 2 : Fin 784))

open Idealize.ShloMosaic.ValueIdx in
/-- Region 0's output array: entry `(b, i, j)` is entry `(0, i, j)` of what the body stores from batch element `b`. -/
def G0 (x3 : Vec F S64x512x784 .f32) : Vec F S64x512x512 .f32 :=
  fun i => pay0 (xblk x3 (i 0 : Fin 64)) (ix3 (0 : Fin 1) (i 1 : Fin 512) (i 2 : Fin 512))

open Idealize.ShloMosaic.ValueIdx in
/-- Columns `8192 t … 8192 t + 8191` of the 64 x 262144 activations: the block region 1 loads at point `t`. -/
def vblk (v2 : Vec F S64x262144 .f32) (t : ℕ) (ht : t < 32) : Vec F S64x8192 .f32 :=
  fun y => v2 (ix2 (y 0 : Fin 64) (⟨t * 8192 + (y 1 : Fin 8192).val, by have h8 : (y 1 : Fin 8192).val < 8192 := (y 1 : Fin 8192).isLt; omega⟩ : Fin 262144))

open Idealize.ShloMosaic.ValueIdx in
/-- The same columns of the 200 x 262144 weights. -/
def wblk (w : Vec F S200x262144 .f32) (t : ℕ) (ht : t < 32) : Vec F S200x8192 .f32 :=
  fun y => w (ix2 (y 0 : Fin 200) (⟨t * 8192 + (y 1 : Fin 8192).val, by have h8 : (y 1 : Fin 8192).val < 8192 := (y 1 : Fin 8192).isLt; omega⟩ : Fin 262144))

/-- The running sum over the first `n + 1` column blocks. -/
def accM (v2 : Vec F S64x262144 .f32) (w : Vec F S200x262144 .f32) : (n : ℕ) → n < 32 → Vec F S64x200 .f32
  | 0, h => k1_pay2 (vblk v2 0 h) (wblk w 0 h) (k1_pay1 (F := F))
  | n + 1, h => k1_pay2 (vblk v2 (n + 1) h) (wblk w (n + 1) h) (accM v2 w n (Nat.lt_of_succ_lt h))

/-- Region 1's output array: the sum over all 32 column blocks plus the bias row. -/
def outM (v2 : Vec F S64x262144 .f32) (w : Vec F S200x262144 .f32) (b3 : Vec F S1x200 .f32) : Vec F S64x200 .f32 :=
  k1_pay3 (accM v2 w 31 (by decide)) b3

end Cert.Kernel.Hand

end
-- ==== Proof.FrameR0Bits.lean ====
/-
  Region 0 (the bilinear-pooling / Newton-Schulz kernel, one grid point per batch element), at any contents `V`
  of the TensorCore's buffers when the region is entered.

  The body loads its whole input block, computes, and stores ONE value over its whole output block, so after the
  body the output's staging buffer holds exactly `pay0` of the loaded block, whatever it held before. The proof
  data say so point by point; nothing is carried from one point to the next, so the region invariant is the
  untouched rest (the other scoped buffers and the generator register).
-/
import proofs.«119286_j70282844831999_1_alg».proof.Proof.KDefsBits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The input block is in the staging buffer at every point -/

/-- The input window's current staging buffer holds batch element `t`'s block at point `t`, for any proof data whose
    input array is `V`'s and whose body leaves the block in place: the window is fetched at every point. -/
theorem before0_in_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole input block, as the rectangle the body's load reads. -/
abbrev rIn0 : Rect S1x512x784 := Rect.unit (s := S1x512x784) ![0, 0, 0] S1x512x784.size inb_S1x512x784_S1x512x784_0_0_0
/-- The whole output block, as the rectangle the body's store writes. -/
abbrev rOut0 : Rect S1x512x512 := Rect.unit (s := S1x512x512) ![0, 0, 0] S1x512x512.size inb_S1x512x512_S1x512x512_0_0_0

/-- The output's staging buffer after the body: its one store, over the whole block. -/
def out0 (x0 : Vec F S1x512x784 .f32) : Vec F S1x512x512 .f32 :=
  View.canon [⟨rOut0, pay0 (View.ld x0 rIn0)⟩]

/-- The one store covers the block. -/
theorem cover0 (p0 : Vec F S1x512x512 .f32) (y : S1x512x512.Idx) :
    ∃ pc ∈ ([⟨rOut0, p0⟩] : List (View.Piece (Elt F) S1x512x512 .f32)), y ∈ pc.1.set :=
  View.cover_of_tiled [⟨rOut0, p0⟩] S1x512x512.size (by rfl) y

/-! ## The body's triple -/

set_option maxHeartbeats 4000000 in
/-- On whole staging memrefs, the input's at contents `x0` and the output's at anything, the body runs to the
    continuation with the input's as it was and the output's at `out0 x0`. -/
theorem sound_kernel0 (c : Dev nD) (E : Set ℕ) (i : grid0.Coords) (arg1 : Memref sig .tc .vmem S1x512x784 .f32) (harg1 : arg1.IsWhole) (arg2 : Memref sig .tc .vmem S1x512x512 .f32) (harg2 : arg2.IsWhole)
    (x0 : Vec F S1x512x784 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__bilinear_sqrt_kernel i arg1 harg1 arg2 harg2) K := by
  simp only [cc0__bilinear_sqrt_kernel_eq_skeleton]; unfold cc0__bilinear_sqrt_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-! ## The proof data -/

/-- Region 0's proof data on core `c`: the arrays as the region finds them; after the body at point `t` the input's
    buffer at its block and the output's at `out0` of it; the invariant the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]
theorem before0_0 (c : Dev nD) (t : Fin cfg0.N) (d) : (dat0 V c).before 0 t d = iblk0 V c 0 t :=
  before0_in_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameR1Bits.lean ====
/-
  Region 1 (the fully connected layer, 32 grid points along the contraction axis), at any contents `V` of the
  TensorCore's buffers when the region is entered.

  The body keeps a running sum in a scratch buffer of its own: at the first point it zeroes the scratch, at every
  point it adds the product of the point's activation and weight blocks, and at the last point it stores the sum
  plus the bias row into the output block (elsewhere it leaves the output block alone, and the pipeline does not
  write it back). So the region's invariant before point `n + 1` says what the scratch holds: `acc1 V c n`, the
  running sum over the first `n + 1` blocks. Before the first point the scratch holds anything.
-/
import proofs.«119286_j70282844831999_1_alg».proof.Proof.KDefsBits
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (V : (c : Dev nD) → (b : Ref sig .tc) → Buf (Elt F) ((c : Thread nD τ).loc b))

/-! ## The scratch and the rest of the scoped buffers -/

/-- The body's scratch operand: a whole scoped buffer of the kernel's own. -/
abbrev scM1 : Memref sig .tc .vmem S64x200 .f32 := Memref.whole cc1_scratch0

/-- Region 0's four staging buffers, which region 1 does not touch, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant before position `n`: before the first point every scoped buffer that is no staging buffer of this
    region at anything and the generator register at some state; afterwards the same with the scratch at the running
    sum the point before left. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (acc1 V c n hn) ∗ (∃ r, prngReg c r))

/-! ## The proof data -/

/-- Region 1's proof data on core `c`: the arrays as the region finds them; after the body at point `t` each input's
    buffer at its block and the output's at the running sum plus the bias row (what the last point stores: the only
    point that writes the block back); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outF1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outF1 V c t := by dsimp only [dat1]

/-! ## The body's two conditions, and where the output window is idle -/

/-- The first conditional's condition: the grid coordinate is zero. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition: the grid coordinate is the last. -/
abbrev cond1_1 (i : grid1.Coords) : Prop := k1_cond2 i = 1#1
/-- It holds at the last point only. -/
theorem hcond1_1 : ∀ t : Fin cfg1.N, cond1_1 (grid1.coords t) ↔ t.val = 31 :=
  (by decide +kernel : ∀ t : Fin grid1.N, cond1_1 (grid1.coords t) ↔ t.val = 31)

/-- The three input windows are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last point the output window is idle: the body stores nothing into its block, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- At the last point the output window is live. -/
theorem liveAt1_3 : ∀ t : Fin cfg1.N, cond1_1 (grid1.coords t) → cfg1.idle 3 (grid1.coords t) = false := by decide +kernel

/-! ## The inputs' blocks are in their staging buffers at every point -/

/-- The activations window's current staging buffer holds point `t`'s block at point `t`, for any proof data whose
    array is `V`'s and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weights window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window is fetched at the first point only, but its block index never moves: the buffer holds the one
    block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple, case by case

On whole memrefs. Every load and store of the body is through the whole block, so a load reads the buffer's
contents and a store leaves its payload whatever was there. -/

/-- Zero offsets, as the body's rectangles spell them. -/
private theorem hz2 : (![0, 0] : Fin 2 → Nat) = fun _ => 0 := funext fun a => by fin_cases a <;> rfl

/-- Stores the last of which is over the whole block cover the block. -/
private theorem cover_whole (p : Vec F S64x200 .f32) (L : List (View.Piece (Elt F) S64x200 .f32)) (y : S64x200.Idx) :
    ∃ pc ∈ ((⟨Rect.unit (s := S64x200) ![0, 0] S64x200.size inb_S64x200_S64x200_0_0, p⟩ : View.Piece (Elt F) S64x200 .f32) :: L),
      y ∈ pc.1.set :=
  ⟨_, List.mem_cons_self .., View.mem_set_unit_zero hz2 inb_S64x200_S64x200_0_0 y⟩

set_option maxHeartbeats 4000000 in
/-- THE FIRST POINT (the first conditional taken, the second not): the scratch, at anything, is zeroed and then gets
    the zero block plus the product of the two input blocks; the bias and output buffers are handed back as found. -/
theorem sound_kernel1_first (c : Dev nD) (E : Set ℕ) (i : grid1.Coords)
    (arg1 : Memref sig .tc .vmem S64x8192 .f32) (harg1 : arg1.IsWhole) (arg2 : Memref sig .tc .vmem S200x8192 .f32) (harg2 : arg2.IsWhole)
    (arg3 : Memref sig .tc .vmem S1x200 .f32) (harg3 : arg3.IsWhole) (arg4 : Memref sig .tc .vmem S64x200 .f32) (harg4 : arg4.IsWhole)
    (arg5 : Memref sig .tc .vmem S64x200 .f32) (harg5 : arg5.IsWhole) (hc0 : cond1_0 i) (hc1 : ¬cond1_1 i)
    (x0 : Vec F S64x8192 .f32) (x1 : Vec F S200x8192 .f32) (x2 : Vec F S1x200 .f32) (xi3 : Vec F S64x200 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x1 (k1_pay1 (F := F)))) -∗ K ⟨⟩))
      ⊢ wp frame (wpE (defs₀ (F := F)) Variants.none c none) E (cc1__fc_kernel i arg1 harg1 arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (cover_whole _ _),
    View.canon_cons_unit_zero (S := S64x200) hz2, View.readCov_unit_zero (S := S64x200) _ hz2]
  simp only [View.readAt_eq_ld, View.ld_unit_zero (S := S64x8192) hz2, View.ld_unit_zero (S := S200x8192) hz2]

set_option maxHeartbeats 4000000 in
/-- A MIDDLE POINT (neither conditional taken): the scratch, at `xs`, gets `xs` plus the product of the two input
    blocks; the bias and output buffers are handed back as found. -/
theorem sound_kernel1_mid (c : Dev nD) (E : Set ℕ) (i : grid1.Coords)
    (arg1 : Memref sig .tc .vmem S64x8192 .f32) (harg1 : arg1.IsWhole) (arg2 : Memref sig .tc .vmem S200x8192 .f32) (harg2 : arg2.IsWhole)
    (arg3 : Memref sig .tc .vmem S1x200 .f32) (harg3 : arg3.IsWhole) (arg4 : Memref sig .tc .vmem S64x200 .f32) (harg4 : arg4.IsWhole)
    (arg5 : Memref sig .tc .vmem S64x200 .f32) (harg5 : arg5.IsWhole) (hc0 : ¬cond1_0 i) (hc1 : ¬cond1_1 i)
    (x0 : Vec F S64x8192 .f32) (x1 : Vec F S200x8192 .f32) (x2 : Vec F S1x200 .f32) (xi3 : Vec F S64x200 .f32) (xs : Vec F S64x200 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x1 xs)) -∗ K ⟨⟩))
      ⊢ wp frame (wpE (defs₀ (F := F)) Variants.none c none) E (cc1__fc_kernel i arg1 harg1 arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (cover_whole _ _),
    View.canon_unit_zero (S := S64x200) hz2]
  simp only [View.readAt_eq_ld, View.ld_unit_zero (S := S64x8192) hz2, View.ld_unit_zero (S := S200x8192) hz2,
    View.ld_unit_zero (S := S64x200) hz2]

set_option maxHeartbeats 4000000 in
/-- THE LAST POINT (the second conditional taken, the first not): the scratch as at a middle point, and the output
    buffer, at anything, gets the new scratch plus the bias row. -/
theorem sound_kernel1_last (c : Dev nD) (E : Set ℕ) (i : grid1.Coords)
    (arg1 : Memref sig .tc .vmem S64x8192 .f32) (harg1 : arg1.IsWhole) (arg2 : Memref sig .tc .vmem S200x8192 .f32) (harg2 : arg2.IsWhole)
    (arg3 : Memref sig .tc .vmem S1x200 .f32) (harg3 : arg3.IsWhole) (arg4 : Memref sig .tc .vmem S64x200 .f32) (harg4 : arg4.IsWhole)
    (arg5 : Memref sig .tc .vmem S64x200 .f32) (harg5 : arg5.IsWhole) (hc0 : ¬cond1_0 i) (hc1 : cond1_1 i)
    (x0 : Vec F S64x8192 .f32) (x1 : Vec F S200x8192 .f32) (x2 : Vec F S1x200 .f32) (xs : Vec F S64x200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 (k1_pay2 x0 x1 xs) x2) ∗ owns (c : Thread nD τ) arg5 fullShare (k1_pay2 x0 x1 xs)) -∗ K ⟨⟩))
      ⊢ wp frame (wpE (defs₀ (F := F)) Variants.none c none) E (cc1__fc_kernel i arg1 harg1 arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_whole _ _),
      View.canon_unit_zero (S := S64x200) hz2, View.readCov_unit_zero (S := S64x200) _ hz2]
    simp only [View.readAt_eq_ld, View.ld_unit_zero (S := S64x8192) hz2, View.ld_unit_zero (S := S200x8192) hz2,
      View.ld_unit_zero (S := S64x200) hz2, View.ld_unit_zero (S := S1x200) hz2]
  iexists _; isplitr
  swap; · iexact H5
  ipureintro
  sl_unfold_words
  rw [View.read_writes_eq_canon _ _ _ (cover_whole _ _),
    View.canon_unit_zero (S := S64x200) hz2]
  simp only [View.readAt_eq_ld, View.ld_unit_zero (S := S64x8192) hz2, View.ld_unit_zero (S := S200x8192) hz2,
    View.ld_unit_zero (S := S64x200) hz2]

/-! ## The invariant's first form, with the scratch as a memref -/

/-- What the launch hands the region: region 0's staging buffers, the scratch at anything, and the generator
    register at some state. -/
theorem PhiA1_eq (c : Dev nD) :
    (Pipeline.ΦA spec1 c : sProp 𝕄)
      = iprop(rest1 (F := F) c ∗ (∃ d, owns (c : Thread nD τ) scM1 fullShare d) ∗ (∃ r, prngReg c r)) := by
  unfold Pipeline.ΦA; rw [scopedRest1_eq]; unfold rest1; simp only [scM1, owns_whole]
  have h₁ : (iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc1_scratch0), ((c : Thread nD τ).loc cc1_scratch0) ↦{fullShare} f)) ∗ (∃ r, prngReg c r)) : sProp 𝕄)
      ⊢ iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f))
        ∗ (∃ f : Buf (Elt F) ((c : Thread nD τ).loc cc1_scratch0), ((c : Thread nD τ).loc cc1_scratch0) ↦{fullShare} f) ∗ (∃ r, prngReg c r)) := by
    iintro ⟨⟨HA, HB, HC, HD, HE⟩, Hg⟩
    isplitl [HA HB HC HD]
    · isplitl [HA]; · iexact HA
      isplitl [HB]; · iexact HB
      isplitl [HC]; · iexact HC
      iexact HD
    isplitl [HE]; · iexact HE
    iexact Hg
  have h₂ : (iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f))
        ∗ (∃ f : Buf (Elt F) ((c : Thread nD τ).loc cc1_scratch0), ((c : Thread nD τ).loc cc1_scratch0) ↦{fullShare} f) ∗ (∃ r, prngReg c r)) : sProp 𝕄)
      ⊢ iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc1_scratch0), ((c : Thread nD τ).loc cc1_scratch0) ↦{fullShare} f)) ∗ (∃ r, prngReg c r)) := by
    iintro ⟨⟨HA, HB, HC, HD⟩, HE, Hg⟩
    isplitl [HA HB HC HD HE]
    · isplitl [HA]; · iexact HA
      isplitl [HB]; · iexact HB
      isplitl [HC]; · iexact HC
      isplitl [HD]; · iexact HD
      iexact HE
    iexact Hg
  exact equiv_iff.mp ⟨h₁, h₂⟩

/-! ## What the body leaves in each window's buffer -/

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- At the last point the output block is the finished sum plus the bias row. -/
theorem leaves1_3_last (c : Dev nD) (t : Fin cfg1.N) (hc1 : cond1_1 (grid1.coords t)) :
    (dat1 V c).leavesExact 3 t = owns (c : Thread nD τ) (st1_3 t) fullShare (outF1 V c t) := by
  unfold Dat.leavesExact; rw [liveAt1_3 t hc1, after1_3]

/-! ## The body obligation, point by point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The first point: the invariant hands over the scratch at anything and takes it back at `acc1 V c 0`. -/
theorem sound_body1_first (c : Dev nD) (h : 0 < cfg1.N) :
    bodyPre1 V c (⟨0, h⟩ : Fin cfg1.N) ⊢ wp frame (wpE (defs₀ (F := F)) Variants.none c none) Set.univ (bodyAt1 (⟨0, h⟩ : Fin cfg1.N)) (fun _ => bodyPost1 V c (⟨0, h⟩ : Fin cfg1.N)) := by
  have hc0 : cond1_0 (grid1.coords (⟨0, h⟩ : Fin cfg1.N)) := (hcond1_0 _).mpr rfl
  have hc1 : ¬cond1_1 (grid1.coords (⟨0, h⟩ : Fin cfg1.N)) := fun e => absurd ((hcond1_1 _).mp e) (show (0 : ℕ) ≠ 31 by decide)
  unfold bodyPre1 bodyPost1 bodyAt1
  simp only [before1_0, before1_1, before1_2]
  rw [show (dat1 V c).owesAt () (⟨0, h⟩ : Fin cfg1.N).succ = (dat1 V c).owesAt () (⟨0, h⟩ : Fin cfg1.N).castSucc from rfl,
    leaves1_0, leaves1_1, leaves1_2,
    Dat.leavesExact_idle (dat1 V c) 3 _ (idleAt1_3 _ hc1) (noFlush1_3 _ hc1),
    show (dat1 V c).Φ (⟨0, h⟩ : Fin cfg1.N).castSucc = Pipeline.ΦA spec1 c from rfl, PhiA1_eq,
    show (dat1 V c).Φ (⟨0, h⟩ : Fin cfg1.N).succ
      = iprop(rest1 (F := F) c ∗ owns (c : Thread nD τ) scM1 fullShare (acc1 V c 0 h) ∗ (∃ r, prngReg c r)) from rfl]
  iintro ⟨⟨Hr, HS, Hg⟩, Ho, ⟨%d0, H0⟩, ⟨%d1, H1⟩, ⟨%d2, H2⟩, ⟨%d3, H3⟩⟩
  iapply (sound_kernel1_first c Set.univ _ _ _ _ _ _ _ _ _ _ _ hc0 hc1 (iblk1 V c 0 (⟨0, h⟩ : Fin cfg1.N)) (iblk1 V c 1 (⟨0, h⟩ : Fin cfg1.N)) (iblk1 V c 2 (⟨0, h⟩ : Fin cfg1.N)) _ _)
  isplitl [H0]; · iexact H0
  isplitl [H1]; · iexact H1
  isplitl [H2]; · iexact H2
  isplitl [H3]; · iexact H3
  isplitl [HS]; · iexact HS
  iintro ⟨H0, H1, H2, H3, HS⟩
  isplitl [Hr HS Hg]
  · isplitl [Hr]; · iexact Hr
    isplitl [HS]; · iexact HS
    iexact Hg
  isplitl [Ho]; · iexact Ho
  isplitl [H0]; · iexact H0
  isplitl [H1]; · iexact H1
  isplitl [H2]; · iexact H2
  iexists d3; iexact H3

set_option maxHeartbeats 4000000 in
/-- A middle point: the invariant hands over the scratch at the running sum so far and takes it back one block on. -/
theorem sound_body1_mid (c : Dev nD) (n : ℕ) (h : n + 1 < cfg1.N) (hl : n + 1 ≠ 31) :
    bodyPre1 V c (⟨n + 1, h⟩ : Fin cfg1.N) ⊢ wp frame (wpE (defs₀ (F := F)) Variants.none c none) Set.univ (bodyAt1 (⟨n + 1, h⟩ : Fin cfg1.N)) (fun _ => bodyPost1 V c (⟨n + 1, h⟩ : Fin cfg1.N)) := by
  have hc0 : ¬cond1_0 (grid1.coords (⟨n + 1, h⟩ : Fin cfg1.N)) := fun e => absurd ((hcond1_0 _).mp e) (Nat.succ_ne_zero n)
  have hc1 : ¬cond1_1 (grid1.coords (⟨n + 1, h⟩ : Fin cfg1.N)) := fun e => hl ((hcond1_1 _).mp e)
  unfold bodyPre1 bodyPost1 bodyAt1
  simp only [before1_0, before1_1, before1_2]
  rw [show (dat1 V c).owesAt () (⟨n + 1, h⟩ : Fin cfg1.N).succ = (dat1 V c).owesAt () (⟨n + 1, h⟩ : Fin cfg1.N).castSucc from rfl,
    leaves1_0, leaves1_1, leaves1_2,
    Dat.leavesExact_idle (dat1 V c) 3 _ (idleAt1_3 _ hc1) (noFlush1_3 _ hc1),
    show (dat1 V c).Φ (⟨n + 1, h⟩ : Fin cfg1.N).castSucc
      = iprop(rest1 (F := F) c ∗ owns (c : Thread nD τ) scM1 fullShare (acc1 V c n (Nat.lt_of_succ_lt h)) ∗ (∃ r, prngReg c r)) from rfl,
    show (dat1 V c).Φ (⟨n + 1, h⟩ : Fin cfg1.N).succ
      = iprop(rest1 (F := F) c ∗ owns (c : Thread nD τ) scM1 fullShare (acc1 V c (n + 1) h) ∗ (∃ r, prngReg c r)) from rfl]
  iintro ⟨⟨Hr, HS, Hg⟩, Ho, ⟨%d0, H0⟩, ⟨%d1, H1⟩, ⟨%d2, H2⟩, ⟨%d3, H3⟩⟩
  iapply (sound_kernel1_mid c Set.univ _ _ _ _ _ _ _ _ _ _ _ hc0 hc1 (iblk1 V c 0 (⟨n + 1, h⟩ : Fin cfg1.N)) (iblk1 V c 1 (⟨n + 1, h⟩ : Fin cfg1.N)) (iblk1 V c 2 (⟨n + 1, h⟩ : Fin cfg1.N)) _ (acc1 V c n (Nat.lt_of_succ_lt h)) _)
  isplitl [H0]; · iexact H0
  isplitl [H1]; · iexact H1
  isplitl [H2]; · iexact H2
  isplitl [H3]; · iexact H3
  isplitl [HS]; · iexact HS
  iintro ⟨H0, H1, H2, H3, HS⟩
  isplitl [Hr HS Hg]
  · isplitl [Hr]; · iexact Hr
    isplitl [HS]; · iexact HS
    iexact Hg
  isplitl [Ho]; · iexact Ho
  isplitl [H0]; · iexact H0
  isplitl [H1]; · iexact H1
  isplitl [H2]; · iexact H2
  iexists d3; iexact H3

set_option maxHeartbeats 4000000 in
/-- The last point: the scratch as at a middle point, and the output block gets the finished sum plus the bias row. -/
theorem sound_body1_last (c : Dev nD) (n : ℕ) (h : n + 1 < cfg1.N) (hl : n + 1 = 31) :
    bodyPre1 V c (⟨n + 1, h⟩ : Fin cfg1.N) ⊢ wp frame (wpE (defs₀ (F := F)) Variants.none c none) Set.univ (bodyAt1 (⟨n + 1, h⟩ : Fin cfg1.N)) (fun _ => bodyPost1 V c (⟨n + 1, h⟩ : Fin cfg1.N)) := by
  have hc0 : ¬cond1_0 (grid1.coords (⟨n + 1, h⟩ : Fin cfg1.N)) := fun e => absurd ((hcond1_0 _).mp e) (Nat.succ_ne_zero n)
  have hc1 : cond1_1 (grid1.coords (⟨n + 1, h⟩ : Fin cfg1.N)) := (hcond1_1 _).mpr hl
  unfold bodyPre1 bodyPost1 bodyAt1
  simp only [before1_0, before1_1, before1_2]
  rw [show (dat1 V c).owesAt () (⟨n + 1, h⟩ : Fin cfg1.N).succ = (dat1 V c).owesAt () (⟨n + 1, h⟩ : Fin cfg1.N).castSucc from rfl,
    leaves1_0, leaves1_1, leaves1_2, leaves1_3_last V c _ hc1,
    show (dat1 V c).Φ (⟨n + 1, h⟩ : Fin cfg1.N).castSucc
      = iprop(rest1 (F := F) c ∗ owns (c : Thread nD τ) scM1 fullShare (acc1 V c n (Nat.lt_of_succ_lt h)) ∗ (∃ r, prngReg c r)) from rfl,
    show (dat1 V c).Φ (⟨n + 1, h⟩ : Fin cfg1.N).succ
      = iprop(rest1 (F := F) c ∗ owns (c : Thread nD τ) scM1 fullShare (acc1 V c (n + 1) h) ∗ (∃ r, prngReg c r)) from rfl]
  iintro ⟨⟨Hr, HS, Hg⟩, Ho, ⟨%d0, H0⟩, ⟨%d1, H1⟩, ⟨%d2, H2⟩, ⟨%d3, H3⟩⟩
  iapply (sound_kernel1_last c Set.univ _ _ _ _ _ _ _ _ _ _ _ hc0 hc1 (iblk1 V c 0 (⟨n + 1, h⟩ : Fin cfg1.N)) (iblk1 V c 1 (⟨n + 1, h⟩ : Fin cfg1.N)) (iblk1 V c 2 (⟨n + 1, h⟩ : Fin cfg1.N)) (acc1 V c n (Nat.lt_of_succ_lt h)) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [Hr HS Hg]
  · isplitl [Hr]; · iexact Hr
    isplitl [HS]; · iexact HS
    iexact Hg
  isplitl [Ho]; · iexact Ho
  isplitl [H0]; · iexact H0
  isplitl [H1]; · iexact H1
  isplitl [H2]; · iexact H2
  iexact H3

/-- The body at any point: the first, a middle one, or the last. -/
theorem sound_body1 (c : Dev nD) (t : Fin cfg1.N) :
    bodyPre1 V c t ⊢ wp frame (wpE (defs₀ (F := F)) Variants.none c none) Set.univ (bodyAt1 t) (fun _ => bodyPost1 V c t) := by
  obtain ⟨n, h⟩ := t
  cases n with
  | zero => exact sound_body1_first V c h
  | succ n =>
    by_cases hl : n + 1 = 31
    · exact sound_body1_last V c n h hl
    · exact sound_body1_mid V c n h hl

/-! ## The body obligation, and the invariant's two ends -/

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]

/-- After the last point the invariant gives the untouched rest back: what the scratch holds is forgotten. -/
theorem hout1 (c : Dev nD) : (dat1 V c).Φ (Fin.last cfg1.N) ⊢ Pipeline.ΦA spec1 c := by
  rw [show (dat1 V c).Φ (Fin.last cfg1.N)
      = iprop(rest1 (F := F) c ∗ owns (c : Thread nD τ) scM1 fullShare (acc1 V c 31 (by decide)) ∗ (∃ r, prngReg c r)) from rfl,
    PhiA1_eq]
  iintro ⟨Hr, HS, Hg⟩
  isplitl [Hr]; · iexact Hr
  isplitl [HS]; · iexists _; iexact HS
  iexact Hg

end Cert.Kernel.Hand

end
-- ==== Proof.FrameRunBits.lean ====
/-
  The program's run: a reshape, region 0, two reshapes, region 1.

  Between two items the TensorCore's unscoped buffers hold known contents: the launch memory, then what each
  stretch of host operations computes from what it finds, then — after a region — the region's arrays at what its
  write-backs leave and every other buffer as the region found it. Each region is entered from "every unscoped
  buffer at the boundary's contents, the generator register at some state, nothing owed" and left at the same
  with the next boundary's contents; its own arrays are split out of the unscoped buffers at entry and put back
  at exit. The run ends with every unscoped buffer at the last boundary's contents, from which the result array
  and the three argument arrays are read.
-/
import proofs.«119286_j70282844831999_1_alg».proof.Proof.FrameR0Bits
import proofs.«119286_j70282844831999_1_alg».proof.Proof.FrameR1Bits
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two reshapes (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The result array and the arguments at the last boundary -/

/-- The result array ends at what region 1's write-backs leave in its output window's array. -/
theorem W4_main_v4 (c : Dev nD) : W4 m c (Proc.devRef .tc main_v4) = (dat1 (V3 m) c).arrAt 3 cfg1.N :=
  W4_arr m c 3

/-- No host operation writes the input and no region has it among its arrays. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The weights are an input window's array of region 1: the pipeline leaves an input array as it finds it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (V3 m) c).arrAt_in 1 rfl _).trans (A_eq1 (V3 m) c 1))
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation writes the bias and no region has it among its arrays (region 1 reads its reshaped copy). -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0, entered from every unscoped buffer at `W1` and left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `W3` and left at `W4`: its invariant carries the scratch's
    contents from point to point, starts as the untouched rest (`hin1`) and ends as it (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The items in order, and the run -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, with the result array at what region 1's write-backs leave and the three arguments as launched. -/
theorem run_all : θ_run defs (onTc (τ := τ) (main (F := F))) ⟨m, fun _ => 0, ρ⟩ (fun r => ∀ c : Dev nD,
      r.2.mem ((c.tc : Thread nD τ).loc main_v4) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_main_v4 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.Kernel.Hand

end
-- ==== Proof.KDefs.lean ====
/-
  Shared definitions for the two kernel regions, generic in the float instance.

  Region 0 (one grid point per batch element): the body loads its input block `v0` (one batch element's
  512 x 784 matrix), and stores ONE value into its output block: the normalised signed square root of the
  Newton-Schulz iterate. `pay0 v0` is that stored value as a function of the loaded block.

  Region 1 (32 grid points along the contraction axis): the body keeps a running sum in a scratch buffer,
  reset at the first point; `acc1` is the scratch after point `n`, and `outF1` the output block the last
  point stores (the running sum plus the bias row).
-/
import proofs.«119286_j70282844831999_1_alg».proof.Proof.Gen.KernelIdeal.Skeleton
import proofs.«119286_j70282844831999_1_alg».proof.Proof.Gen.KernelIdeal.Launch
import proofs.«119286_j70282844831999_1_alg».proof.Proof.Gen.KernelIdeal.Points
import Idealize.ShloMosaic.Lib.Pipeline.FrameBody
import Idealize.ShloMosaic.Lib.ValueIdx

noncomputable section

namespace Cert.KernelIdeal.Hand

open Idealize.ShloMosaic Idealize.ShloMosaic.TcCoe
open Idealize.SL Idealize.SL.Sem
open Cert.KernelIdeal Cert.KernelIdeal.Gen
open Idealize.ShloMosaic.Pipeline (Dat Cfg Window)

variable {F : FTy → Type} [FloatOps F]

/-- The value region 0's body stores, from the block it loads: the body's four parts composed. -/
def pay0 (v0 : Vec F S1x512x784 .f32) : Vec F S1x512x512 .f32 :=
  k0_pay35 (k0_pay2 (F := F)) (k0_pay3 v0)
    (k0_pay32 (k0_pay2 (F := F)) (k0_pay20 (k0_pay2 (F := F)) (k0_pay8 v0) (k0_pay9 v0) (k0_pay10 v0)) (k0_pay21 (k0_pay2 (F := F)) (k0_pay8 v0) (k0_pay9 v0) (k0_pay10 v0)) (k0_pay22 (k0_pay2 (F := F)) (k0_pay8 v0) (k0_pay9 v0) (k0_pay10 v0)) (k0_pay23 (F := F)))
    (k0_pay33 (k0_pay2 (F := F)) (k0_pay20 (k0_pay2 (F := F)) (k0_pay8 v0) (k0_pay9 v0) (k0_pay10 v0)) (k0_pay21 (k0_pay2 (F := F)) (k0_pay8 v0) (k0_pay9 v0) (k0_pay10 v0)) (k0_pay22 (k0_pay2 (F := F)) (k0_pay8 v0) (k0_pay9 v0) (k0_pay10 v0)) (k0_pay23 (F := F)))
    (k0_pay34 (k0_pay2 (F := F)) (k0_pay20 (k0_pay2 (F := F)) (k0_pay8 v0) (k0_pay9 v0) (k0_pay10 v0)) (k0_pay21 (k0_pay2 (F := F)) (k0_pay8 v0) (k0_pay9 v0) (k0_pay10 v0)) (k0_pay22 (k0_pay2 (F := F)) (k0_pay8 v0) (k0_pay9 v0) (k0_pay10 v0)) (k0_pay23 (F := F)))
    (constant S512x512 .f32 0x00000000#32)

section AtV
-- the TensorCore's buffer contents when a region is entered
variable (V : (c : Dev nD) → (b : Ref sig .tc) → Buf (Elt F) ((c : Thread nD τ).loc b))

/-- Region 0: window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1: window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Region 1: the scratch accumulator after the body at point `n`: the zero block plus the first product at the
    first point, afterwards what the point before left plus this point's product. -/
def acc1 (c : Dev nD) : (n : ℕ) → n < cfg1.N → Vec F S64x200 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

/-- Region 1: what the last point stores into the output block: the finished sum plus the bias row. -/
def outF1 (c : Dev nD) (t : Fin cfg1.N) : Vec F S64x200 .f32 :=
  k1_pay3 (acc1 V c t.val t.isLt) (iblk1 V c 2 t)

end AtV

/-! ## The two regions' results as whole-array functions of the arrays they read -/

open Idealize.ShloMosaic.ValueIdx in
/-- Batch element `b`'s 512 x 784 matrix, laid out as the block region 0 loads at point `b`. -/
def xblk (x3 : Vec F S64x512x784 .f32) (b : Fin 64) : Vec F S1x512x784 .f32 :=
  fun y => x3 (ix3 b (y 1 : Fin 512) (y 2 : Fin 784))

open Idealize.ShloMosaic.ValueIdx in
/-- Region 0's output array: entry `(b, i, j)` is entry `(0, i, j)` of what the body stores from batch element `b`. -/
def G0 (x3 : Vec F S64x512x784 .f32) : Vec F S64x512x512 .f32 :=
  fun i => pay0 (xblk x3 (i 0 : Fin 64)) (ix3 (0 : Fin 1) (i 1 : Fin 512) (i 2 : Fin 512))

open Idealize.ShloMosaic.ValueIdx in
/-- Columns `8192 t … 8192 t + 8191` of the 64 x 262144 activations: the block region 1 loads at point `t`. -/
def vblk (v2 : Vec F S64x262144 .f32) (t : ℕ) (ht : t < 32) : Vec F S64x8192 .f32 :=
  fun y => v2 (ix2 (y 0 : Fin 64) (⟨t * 8192 + (y 1 : Fin 8192).val, by have h8 : (y 1 : Fin 8192).val < 8192 := (y 1 : Fin 8192).isLt; omega⟩ : Fin 262144))

open Idealize.ShloMosaic.ValueIdx in
/-- The same columns of the 200 x 262144 weights. -/
def wblk (w : Vec F S200x262144 .f32) (t : ℕ) (ht : t < 32) : Vec F S200x8192 .f32 :=
  fun y => w (ix2 (y 0 : Fin 200) (⟨t * 8192 + (y 1 : Fin 8192).val, by have h8 : (y 1 : Fin 8192).val < 8192 := (y 1 : Fin 8192).isLt; omega⟩ : Fin 262144))

/-- The running sum over the first `n + 1` column blocks. -/
def accM (v2 : Vec F S64x262144 .f32) (w : Vec F S200x262144 .f32) : (n : ℕ) → n < 32 → Vec F S64x200 .f32
  | 0, h => k1_pay2 (vblk v2 0 h) (wblk w 0 h) (k1_pay1 (F := F))
  | n + 1, h => k1_pay2 (vblk v2 (n + 1) h) (wblk w (n + 1) h) (accM v2 w n (Nat.lt_of_succ_lt h))

/-- Region 1's output array: the sum over all 32 column blocks plus the bias row. -/
def outM (v2 : Vec F S64x262144 .f32) (w : Vec F S200x262144 .f32) (b3 : Vec F S1x200 .f32) : Vec F S64x200 .f32 :=
  k1_pay3 (accM v2 w 31 (by decide)) b3

end Cert.KernelIdeal.Hand

end
-- ==== Proof.FrameR0.lean ====
/-
  Region 0 (the bilinear-pooling / Newton-Schulz kernel, one grid point per batch element), at any contents `V`
  of the TensorCore's buffers when the region is entered.

  The body loads its whole input block, computes, and stores ONE value over its whole output block, so after the
  body the output's staging buffer holds exactly `pay0` of the loaded block, whatever it held before. The proof
  data say so point by point; nothing is carried from one point to the next, so the region invariant is the
  untouched rest (the other scoped buffers and the generator register).
-/
import proofs.«119286_j70282844831999_1_alg».proof.Proof.KDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block is in the staging buffer at every point -/

/-- The input window's current staging buffer holds batch element `t`'s block at point `t`, for any proof data whose
    input array is `V`'s and whose body leaves the block in place: the window is fetched at every point. -/
theorem before0_in_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output block -/

/-- The whole input block, as the rectangle the body's load reads. -/
abbrev rIn0 : Rect S1x512x784 := Rect.unit (s := S1x512x784) ![0, 0, 0] S1x512x784.size inb_S1x512x784_S1x512x784_0_0_0
/-- The whole output block, as the rectangle the body's store writes. -/
abbrev rOut0 : Rect S1x512x512 := Rect.unit (s := S1x512x512) ![0, 0, 0] S1x512x512.size inb_S1x512x512_S1x512x512_0_0_0

/-- The output's staging buffer after the body: its one store, over the whole block. -/
def out0 (x0 : Vec F S1x512x784 .f32) : Vec F S1x512x512 .f32 :=
  View.canon [⟨rOut0, pay0 (View.ld x0 rIn0)⟩]

/-- The one store covers the block. -/
theorem cover0 (p0 : Vec F S1x512x512 .f32) (y : S1x512x512.Idx) :
    ∃ pc ∈ ([⟨rOut0, p0⟩] : List (View.Piece (Elt F) S1x512x512 .f32)), y ∈ pc.1.set :=
  View.cover_of_tiled [⟨rOut0, p0⟩] S1x512x512.size (by rfl) y

/-! ## The body's triple -/

set_option maxHeartbeats 4000000 in
/-- On whole staging memrefs, the input's at contents `x0` and the output's at anything, the body runs to the
    continuation with the input's as it was and the output's at `out0 x0`. -/
theorem sound_kernel0 (c : Dev nD) (E : Set ℕ) (i : grid0.Coords) (arg1 : Memref sig .tc .vmem S1x512x784 .f32) (harg1 : arg1.IsWhole) (arg2 : Memref sig .tc .vmem S1x512x512 .f32) (harg2 : arg2.IsWhole)
    (x0 : Vec F S1x512x784 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0 x0)) -∗ K ⟨⟩))
      ⊢ wp frame (wpE (defs₀ (F := F)) Variants.none c none) E (cc0__bilinear_sqrt_kernel i arg1 harg1 arg2 harg2) K := by
  simp only [cc0__bilinear_sqrt_kernel_eq_skeleton]; unfold cc0__bilinear_sqrt_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0 _)

/-! ## The proof data -/

/-- Region 0's proof data on core `c`: the arrays as the region finds them; after the body at point `t` the input's
    buffer at its block and the output's at `out0` of it; the invariant the untouched rest; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0 (iblk0 V c 0 t) := by dsimp only [dat0]
theorem before0_0 (c : Dev nD) (t : Fin cfg0.N) (d) : (dat0 V c).before 0 t d = iblk0 V c 0 t :=
  before0_in_of V (dat0 V c) (A_eq0 V c 0) (after0_0 V c) t d

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation for region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameR1.lean ====
/-
  Region 1 (the fully connected layer, 32 grid points along the contraction axis), at any contents `V` of the
  TensorCore's buffers when the region is entered.

  The body keeps a running sum in a scratch buffer of its own: at the first point it zeroes the scratch, at every
  point it adds the product of the point's activation and weight blocks, and at the last point it stores the sum
  plus the bias row into the output block (elsewhere it leaves the output block alone, and the pipeline does not
  write it back). So the region's invariant before point `n + 1` says what the scratch holds: `acc1 V c n`, the
  running sum over the first `n + 1` blocks. Before the first point the scratch holds anything.
-/
import proofs.«119286_j70282844831999_1_alg».proof.Proof.KDefs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The scratch and the rest of the scoped buffers -/

/-- The body's scratch operand: a whole scoped buffer of the kernel's own. -/
abbrev scM1 : Memref sig .tc .vmem S64x200 .f32 := Memref.whole cc1_scratch0

/-- Region 0's four staging buffers, which region 1 does not touch, each at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The invariant before position `n`: before the first point every scoped buffer that is no staging buffer of this
    region at anything and the generator register at some state; afterwards the same with the scratch at the running
    sum the point before left. -/
def PhiS1 (c : Dev nD) : (n : ℕ) → n ≤ cfg1.N → sProp 𝕄
  | 0, _ => Pipeline.ΦA spec1 c
  | n + 1, hn => iprop(rest1 (F := F) c ∗ owns (c : Thread nD τ) scM1 fullShare (acc1 V c n hn) ∗ (∃ r, prngReg c r))

/-! ## The proof data -/

/-- Region 1's proof data on core `c`: the arrays as the region finds them; after the body at point `t` each input's
    buffer at its block and the output's at the running sum plus the bias row (what the last point stores: the only
    point that writes the block back); the invariant above; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outF1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outF1 V c t := by dsimp only [dat1]

/-! ## The body's two conditions, and where the output window is idle -/

/-- The first conditional's condition: the grid coordinate is zero. -/
abbrev cond1_0 (i : grid1.Coords) : Prop :=
  (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The second conditional's condition: the grid coordinate is the last. -/
abbrev cond1_1 (i : grid1.Coords) : Prop := k1_cond2 i = 1#1
/-- It holds at the last point only. -/
theorem hcond1_1 : ∀ t : Fin cfg1.N, cond1_1 (grid1.coords t) ↔ t.val = 31 :=
  (by decide +kernel : ∀ t : Fin grid1.N, cond1_1 (grid1.coords t) ↔ t.val = 31)

/-- The three input windows are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last point the output window is idle: the body stores nothing into its block, -/
theorem idleAt1_3 : ∀ t : Fin cfg1.N, ¬cond1_1 (grid1.coords t) → cfg1.idle 3 (grid1.coords t) = true := by decide +kernel
/-- and the block is not written back there. -/
theorem noFlush1_3 : ∀ t : Fin cfg1.N, ¬cond1_1 (grid1.coords t) → (cfg1.win 3).flush t = false := by decide +kernel
/-- At the last point the output window is live. -/
theorem liveAt1_3 : ∀ t : Fin cfg1.N, cond1_1 (grid1.coords t) → cfg1.idle 3 (grid1.coords t) = false := by decide +kernel

/-! ## The inputs' blocks are in their staging buffers at every point -/

/-- The activations window's current staging buffer holds point `t`'s block at point `t`, for any proof data whose
    array is `V`'s and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the weights window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias window is fetched at the first point only, but its block index never moves: the buffer holds the one
    block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's triple, case by case

On whole memrefs. Every load and store of the body is through the whole block, so a load reads the buffer's
contents and a store leaves its payload whatever was there. -/

/-- Zero offsets, as the body's rectangles spell them. -/
private theorem hz2 : (![0, 0] : Fin 2 → Nat) = fun _ => 0 := funext fun a => by fin_cases a <;> rfl

/-- Stores the last of which is over the whole block cover the block. -/
private theorem cover_whole (p : Vec F S64x200 .f32) (L : List (View.Piece (Elt F) S64x200 .f32)) (y : S64x200.Idx) :
    ∃ pc ∈ ((⟨Rect.unit (s := S64x200) ![0, 0] S64x200.size inb_S64x200_S64x200_0_0, p⟩ : View.Piece (Elt F) S64x200 .f32) :: L),
      y ∈ pc.1.set :=
  ⟨_, List.mem_cons_self .., View.mem_set_unit_zero hz2 inb_S64x200_S64x200_0_0 y⟩

set_option maxHeartbeats 4000000 in
/-- THE FIRST POINT (the first conditional taken, the second not): the scratch, at anything, is zeroed and then gets
    the zero block plus the product of the two input blocks; the bias and output buffers are handed back as found. -/
theorem sound_kernel1_first (c : Dev nD) (E : Set ℕ) (i : grid1.Coords)
    (arg1 : Memref sig .tc .vmem S64x8192 .f32) (harg1 : arg1.IsWhole) (arg2 : Memref sig .tc .vmem S200x8192 .f32) (harg2 : arg2.IsWhole)
    (arg3 : Memref sig .tc .vmem S1x200 .f32) (harg3 : arg3.IsWhole) (arg4 : Memref sig .tc .vmem S64x200 .f32) (harg4 : arg4.IsWhole)
    (arg5 : Memref sig .tc .vmem S64x200 .f32) (harg5 : arg5.IsWhole) (hc0 : cond1_0 i) (hc1 : ¬cond1_1 i)
    (x0 : Vec F S64x8192 .f32) (x1 : Vec F S200x8192 .f32) (x2 : Vec F S1x200 .f32) (xi3 : Vec F S64x200 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x1 (k1_pay1 (F := F)))) -∗ K ⟨⟩))
      ⊢ wp frame (wpE (defs₀ (F := F)) Variants.none c none) E (cc1__fc_kernel i arg1 harg1 arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%d5, %f5, -, H5⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (cover_whole _ _),
    View.canon_cons_unit_zero (S := S64x200) hz2, View.readCov_unit_zero (S := S64x200) _ hz2]
  simp only [View.readAt_eq_ld, View.ld_unit_zero (S := S64x8192) hz2, View.ld_unit_zero (S := S200x8192) hz2]

set_option maxHeartbeats 4000000 in
/-- A MIDDLE POINT (neither conditional taken): the scratch, at `xs`, gets `xs` plus the product of the two input
    blocks; the bias and output buffers are handed back as found. -/
theorem sound_kernel1_mid (c : Dev nD) (E : Set ℕ) (i : grid1.Coords)
    (arg1 : Memref sig .tc .vmem S64x8192 .f32) (harg1 : arg1.IsWhole) (arg2 : Memref sig .tc .vmem S200x8192 .f32) (harg2 : arg2.IsWhole)
    (arg3 : Memref sig .tc .vmem S1x200 .f32) (harg3 : arg3.IsWhole) (arg4 : Memref sig .tc .vmem S64x200 .f32) (harg4 : arg4.IsWhole)
    (arg5 : Memref sig .tc .vmem S64x200 .f32) (harg5 : arg5.IsWhole) (hc0 : ¬cond1_0 i) (hc1 : ¬cond1_1 i)
    (x0 : Vec F S64x8192 .f32) (x1 : Vec F S200x8192 .f32) (x2 : Vec F S1x200 .f32) (xi3 : Vec F S64x200 .f32) (xs : Vec F S64x200 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare xi3 ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare xi3 ∗ owns (c : Thread nD τ) arg5 fullShare (k1_pay2 x0 x1 xs)) -∗ K ⟨⟩))
      ⊢ wp frame (wpE (defs₀ (F := F)) Variants.none c none) E (cc1__fc_kernel i arg1 harg1 arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%f3, %hf3, H3⟩, ⟨%f5, %hf5, H5⟩, Hk⟩
  subst hf0; subst hf1; subst hf2; subst hf3; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H5
  ipureintro
  sl_unfold_words
  rw [View.read_writes_eq_canon _ _ _ (cover_whole _ _),
    View.canon_unit_zero (S := S64x200) hz2]
  simp only [View.readAt_eq_ld, View.ld_unit_zero (S := S64x8192) hz2, View.ld_unit_zero (S := S200x8192) hz2,
    View.ld_unit_zero (S := S64x200) hz2]

set_option maxHeartbeats 4000000 in
/-- THE LAST POINT (the second conditional taken, the first not): the scratch as at a middle point, and the output
    buffer, at anything, gets the new scratch plus the bias row. -/
theorem sound_kernel1_last (c : Dev nD) (E : Set ℕ) (i : grid1.Coords)
    (arg1 : Memref sig .tc .vmem S64x8192 .f32) (harg1 : arg1.IsWhole) (arg2 : Memref sig .tc .vmem S200x8192 .f32) (harg2 : arg2.IsWhole)
    (arg3 : Memref sig .tc .vmem S1x200 .f32) (harg3 : arg3.IsWhole) (arg4 : Memref sig .tc .vmem S64x200 .f32) (harg4 : arg4.IsWhole)
    (arg5 : Memref sig .tc .vmem S64x200 .f32) (harg5 : arg5.IsWhole) (hc0 : ¬cond1_0 i) (hc1 : cond1_1 i)
    (x0 : Vec F S64x8192 .f32) (x1 : Vec F S200x8192 .f32) (x2 : Vec F S1x200 .f32) (xs : Vec F S64x200 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 (k1_pay2 x0 x1 xs) x2) ∗ owns (c : Thread nD τ) arg5 fullShare (k1_pay2 x0 x1 xs)) -∗ K ⟨⟩))
      ⊢ wp frame (wpE (defs₀ (F := F)) Variants.none c none) E (cc1__fc_kernel i arg1 harg1 arg2 harg2 arg3 harg3 arg4 harg4 arg5 harg5) K := by
  simp only [cc1__fc_kernel_eq_skeleton]; unfold cc1__fc_kernel_skel
  unfold owns
  iintro ⟨⟨%f0, %hf0, H0⟩, ⟨%f1, %hf1, H1⟩, ⟨%f2, %hf2, H2⟩, ⟨%d3, %f3, -, H3⟩, ⟨%f5, %hf5, H5⟩, Hk⟩
  subst hf0; subst hf1; subst hf2; subst hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_words
    rw [View.read_writes_eq_canon _ _ _ (cover_whole _ _),
      View.canon_unit_zero (S := S64x200) hz2, View.readCov_unit_zero (S := S64x200) _ hz2]
    simp only [View.readAt_eq_ld, View.ld_unit_zero (S := S64x8192) hz2, View.ld_unit_zero (S := S200x8192) hz2,
      View.ld_unit_zero (S := S64x200) hz2, View.ld_unit_zero (S := S1x200) hz2]
  iexists _; isplitr
  swap; · iexact H5
  ipureintro
  sl_unfold_words
  rw [View.read_writes_eq_canon _ _ _ (cover_whole _ _),
    View.canon_unit_zero (S := S64x200) hz2]
  simp only [View.readAt_eq_ld, View.ld_unit_zero (S := S64x8192) hz2, View.ld_unit_zero (S := S200x8192) hz2,
    View.ld_unit_zero (S := S64x200) hz2]

/-! ## The invariant's first form, with the scratch as a memref -/

/-- What the launch hands the region: region 0's staging buffers, the scratch at anything, and the generator
    register at some state. -/
theorem PhiA1_eq (c : Dev nD) :
    (Pipeline.ΦA spec1 c : sProp 𝕄)
      = iprop(rest1 (F := F) c ∗ (∃ d, owns (c : Thread nD τ) scM1 fullShare d) ∗ (∃ r, prngReg c r)) := by
  unfold Pipeline.ΦA; rw [scopedRest1_eq]; unfold rest1; simp only [scM1, owns_whole]
  have h₁ : (iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc1_scratch0), ((c : Thread nD τ).loc cc1_scratch0) ↦{fullShare} f)) ∗ (∃ r, prngReg c r)) : sProp 𝕄)
      ⊢ iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f))
        ∗ (∃ f : Buf (Elt F) ((c : Thread nD τ).loc cc1_scratch0), ((c : Thread nD τ).loc cc1_scratch0) ↦{fullShare} f) ∗ (∃ r, prngReg c r)) := by
    iintro ⟨⟨HA, HB, HC, HD, HE⟩, Hg⟩
    isplitl [HA HB HC HD]
    · isplitl [HA]; · iexact HA
      isplitl [HB]; · iexact HB
      isplitl [HC]; · iexact HC
      iexact HD
    isplitl [HE]; · iexact HE
    iexact Hg
  have h₂ : (iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f))
        ∗ (∃ f : Buf (Elt F) ((c : Thread nD τ).loc cc1_scratch0), ((c : Thread nD τ).loc cc1_scratch0) ↦{fullShare} f) ∗ (∃ r, prngReg c r)) : sProp 𝕄)
      ⊢ iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc1_scratch0), ((c : Thread nD τ).loc cc1_scratch0) ↦{fullShare} f)) ∗ (∃ r, prngReg c r)) := by
    iintro ⟨⟨HA, HB, HC, HD⟩, HE, Hg⟩
    isplitl [HA HB HC HD HE]
    · isplitl [HA]; · iexact HA
      isplitl [HB]; · iexact HB
      isplitl [HC]; · iexact HC
      isplitl [HD]; · iexact HD
      iexact HE
    iexact Hg
  exact equiv_iff.mp ⟨h₁, h₂⟩

/-! ## What the body leaves in each window's buffer -/

theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
/-- At the last point the output block is the finished sum plus the bias row. -/
theorem leaves1_3_last (c : Dev nD) (t : Fin cfg1.N) (hc1 : cond1_1 (grid1.coords t)) :
    (dat1 V c).leavesExact 3 t = owns (c : Thread nD τ) (st1_3 t) fullShare (outF1 V c t) := by
  unfold Dat.leavesExact; rw [liveAt1_3 t hc1, after1_3]

/-! ## The body obligation, point by point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The first point: the invariant hands over the scratch at anything and takes it back at `acc1 V c 0`. -/
theorem sound_body1_first (c : Dev nD) (h : 0 < cfg1.N) :
    bodyPre1 V c (⟨0, h⟩ : Fin cfg1.N) ⊢ wp frame (wpE (defs₀ (F := F)) Variants.none c none) Set.univ (bodyAt1 (⟨0, h⟩ : Fin cfg1.N)) (fun _ => bodyPost1 V c (⟨0, h⟩ : Fin cfg1.N)) := by
  have hc0 : cond1_0 (grid1.coords (⟨0, h⟩ : Fin cfg1.N)) := (hcond1_0 _).mpr rfl
  have hc1 : ¬cond1_1 (grid1.coords (⟨0, h⟩ : Fin cfg1.N)) := fun e => absurd ((hcond1_1 _).mp e) (show (0 : ℕ) ≠ 31 by decide)
  unfold bodyPre1 bodyPost1 bodyAt1
  simp only [before1_0, before1_1, before1_2]
  rw [show (dat1 V c).owesAt () (⟨0, h⟩ : Fin cfg1.N).succ = (dat1 V c).owesAt () (⟨0, h⟩ : Fin cfg1.N).castSucc from rfl,
    leaves1_0, leaves1_1, leaves1_2,
    Dat.leavesExact_idle (dat1 V c) 3 _ (idleAt1_3 _ hc1) (noFlush1_3 _ hc1),
    show (dat1 V c).Φ (⟨0, h⟩ : Fin cfg1.N).castSucc = Pipeline.ΦA spec1 c from rfl, PhiA1_eq,
    show (dat1 V c).Φ (⟨0, h⟩ : Fin cfg1.N).succ
      = iprop(rest1 (F := F) c ∗ owns (c : Thread nD τ) scM1 fullShare (acc1 V c 0 h) ∗ (∃ r, prngReg c r)) from rfl]
  iintro ⟨⟨Hr, HS, Hg⟩, Ho, ⟨%d0, H0⟩, ⟨%d1, H1⟩, ⟨%d2, H2⟩, ⟨%d3, H3⟩⟩
  iapply (sound_kernel1_first c Set.univ _ _ _ _ _ _ _ _ _ _ _ hc0 hc1 (iblk1 V c 0 (⟨0, h⟩ : Fin cfg1.N)) (iblk1 V c 1 (⟨0, h⟩ : Fin cfg1.N)) (iblk1 V c 2 (⟨0, h⟩ : Fin cfg1.N)) _ _)
  isplitl [H0]; · iexact H0
  isplitl [H1]; · iexact H1
  isplitl [H2]; · iexact H2
  isplitl [H3]; · iexact H3
  isplitl [HS]; · iexact HS
  iintro ⟨H0, H1, H2, H3, HS⟩
  isplitl [Hr HS Hg]
  · isplitl [Hr]; · iexact Hr
    isplitl [HS]; · iexact HS
    iexact Hg
  isplitl [Ho]; · iexact Ho
  isplitl [H0]; · iexact H0
  isplitl [H1]; · iexact H1
  isplitl [H2]; · iexact H2
  iexists d3; iexact H3

set_option maxHeartbeats 4000000 in
/-- A middle point: the invariant hands over the scratch at the running sum so far and takes it back one block on. -/
theorem sound_body1_mid (c : Dev nD) (n : ℕ) (h : n + 1 < cfg1.N) (hl : n + 1 ≠ 31) :
    bodyPre1 V c (⟨n + 1, h⟩ : Fin cfg1.N) ⊢ wp frame (wpE (defs₀ (F := F)) Variants.none c none) Set.univ (bodyAt1 (⟨n + 1, h⟩ : Fin cfg1.N)) (fun _ => bodyPost1 V c (⟨n + 1, h⟩ : Fin cfg1.N)) := by
  have hc0 : ¬cond1_0 (grid1.coords (⟨n + 1, h⟩ : Fin cfg1.N)) := fun e => absurd ((hcond1_0 _).mp e) (Nat.succ_ne_zero n)
  have hc1 : ¬cond1_1 (grid1.coords (⟨n + 1, h⟩ : Fin cfg1.N)) := fun e => hl ((hcond1_1 _).mp e)
  unfold bodyPre1 bodyPost1 bodyAt1
  simp only [before1_0, before1_1, before1_2]
  rw [show (dat1 V c).owesAt () (⟨n + 1, h⟩ : Fin cfg1.N).succ = (dat1 V c).owesAt () (⟨n + 1, h⟩ : Fin cfg1.N).castSucc from rfl,
    leaves1_0, leaves1_1, leaves1_2,
    Dat.leavesExact_idle (dat1 V c) 3 _ (idleAt1_3 _ hc1) (noFlush1_3 _ hc1),
    show (dat1 V c).Φ (⟨n + 1, h⟩ : Fin cfg1.N).castSucc
      = iprop(rest1 (F := F) c ∗ owns (c : Thread nD τ) scM1 fullShare (acc1 V c n (Nat.lt_of_succ_lt h)) ∗ (∃ r, prngReg c r)) from rfl,
    show (dat1 V c).Φ (⟨n + 1, h⟩ : Fin cfg1.N).succ
      = iprop(rest1 (F := F) c ∗ owns (c : Thread nD τ) scM1 fullShare (acc1 V c (n + 1) h) ∗ (∃ r, prngReg c r)) from rfl]
  iintro ⟨⟨Hr, HS, Hg⟩, Ho, ⟨%d0, H0⟩, ⟨%d1, H1⟩, ⟨%d2, H2⟩, ⟨%d3, H3⟩⟩
  iapply (sound_kernel1_mid c Set.univ _ _ _ _ _ _ _ _ _ _ _ hc0 hc1 (iblk1 V c 0 (⟨n + 1, h⟩ : Fin cfg1.N)) (iblk1 V c 1 (⟨n + 1, h⟩ : Fin cfg1.N)) (iblk1 V c 2 (⟨n + 1, h⟩ : Fin cfg1.N)) _ (acc1 V c n (Nat.lt_of_succ_lt h)) _)
  isplitl [H0]; · iexact H0
  isplitl [H1]; · iexact H1
  isplitl [H2]; · iexact H2
  isplitl [H3]; · iexact H3
  isplitl [HS]; · iexact HS
  iintro ⟨H0, H1, H2, H3, HS⟩
  isplitl [Hr HS Hg]
  · isplitl [Hr]; · iexact Hr
    isplitl [HS]; · iexact HS
    iexact Hg
  isplitl [Ho]; · iexact Ho
  isplitl [H0]; · iexact H0
  isplitl [H1]; · iexact H1
  isplitl [H2]; · iexact H2
  iexists d3; iexact H3

set_option maxHeartbeats 4000000 in
/-- The last point: the scratch as at a middle point, and the output block gets the finished sum plus the bias row. -/
theorem sound_body1_last (c : Dev nD) (n : ℕ) (h : n + 1 < cfg1.N) (hl : n + 1 = 31) :
    bodyPre1 V c (⟨n + 1, h⟩ : Fin cfg1.N) ⊢ wp frame (wpE (defs₀ (F := F)) Variants.none c none) Set.univ (bodyAt1 (⟨n + 1, h⟩ : Fin cfg1.N)) (fun _ => bodyPost1 V c (⟨n + 1, h⟩ : Fin cfg1.N)) := by
  have hc0 : ¬cond1_0 (grid1.coords (⟨n + 1, h⟩ : Fin cfg1.N)) := fun e => absurd ((hcond1_0 _).mp e) (Nat.succ_ne_zero n)
  have hc1 : cond1_1 (grid1.coords (⟨n + 1, h⟩ : Fin cfg1.N)) := (hcond1_1 _).mpr hl
  unfold bodyPre1 bodyPost1 bodyAt1
  simp only [before1_0, before1_1, before1_2]
  rw [show (dat1 V c).owesAt () (⟨n + 1, h⟩ : Fin cfg1.N).succ = (dat1 V c).owesAt () (⟨n + 1, h⟩ : Fin cfg1.N).castSucc from rfl,
    leaves1_0, leaves1_1, leaves1_2, leaves1_3_last V c _ hc1,
    show (dat1 V c).Φ (⟨n + 1, h⟩ : Fin cfg1.N).castSucc
      = iprop(rest1 (F := F) c ∗ owns (c : Thread nD τ) scM1 fullShare (acc1 V c n (Nat.lt_of_succ_lt h)) ∗ (∃ r, prngReg c r)) from rfl,
    show (dat1 V c).Φ (⟨n + 1, h⟩ : Fin cfg1.N).succ
      = iprop(rest1 (F := F) c ∗ owns (c : Thread nD τ) scM1 fullShare (acc1 V c (n + 1) h) ∗ (∃ r, prngReg c r)) from rfl]
  iintro ⟨⟨Hr, HS, Hg⟩, Ho, ⟨%d0, H0⟩, ⟨%d1, H1⟩, ⟨%d2, H2⟩, ⟨%d3, H3⟩⟩
  iapply (sound_kernel1_last c Set.univ _ _ _ _ _ _ _ _ _ _ _ hc0 hc1 (iblk1 V c 0 (⟨n + 1, h⟩ : Fin cfg1.N)) (iblk1 V c 1 (⟨n + 1, h⟩ : Fin cfg1.N)) (iblk1 V c 2 (⟨n + 1, h⟩ : Fin cfg1.N)) (acc1 V c n (Nat.lt_of_succ_lt h)) _)
  isplitl [H0]; · iexact H0
  isplitl [H1]; · iexact H1
  isplitl [H2]; · iexact H2
  isplitl [H3]; · iexists _; iexact H3
  isplitl [HS]; · iexact HS
  iintro ⟨H0, H1, H2, H3, HS⟩
  isplitl [Hr HS Hg]
  · isplitl [Hr]; · iexact Hr
    isplitl [HS]; · iexact HS
    iexact Hg
  isplitl [Ho]; · iexact Ho
  isplitl [H0]; · iexact H0
  isplitl [H1]; · iexact H1
  isplitl [H2]; · iexact H2
  iexact H3

/-- The body at any point: the first, a middle one, or the last. -/
theorem sound_body1 (c : Dev nD) (t : Fin cfg1.N) :
    bodyPre1 V c t ⊢ wp frame (wpE (defs₀ (F := F)) Variants.none c none) Set.univ (bodyAt1 t) (fun _ => bodyPost1 V c t) := by
  obtain ⟨n, h⟩ := t
  cases n with
  | zero => exact sound_body1_first V c h
  | succ n =>
    by_cases hl : n + 1 = 31
    · exact sound_body1_last V c n h hl
    · exact sound_body1_mid V c n h hl

/-! ## The body obligation, and the invariant's two ends -/

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]

/-- After the last point the invariant gives the untouched rest back: what the scratch holds is forgotten. -/
theorem hout1 (c : Dev nD) : (dat1 V c).Φ (Fin.last cfg1.N) ⊢ Pipeline.ΦA spec1 c := by
  rw [show (dat1 V c).Φ (Fin.last cfg1.N)
      = iprop(rest1 (F := F) c ∗ owns (c : Thread nD τ) scM1 fullShare (acc1 V c 31 (by decide)) ∗ (∃ r, prngReg c r)) from rfl,
    PhiA1_eq]
  iintro ⟨Hr, HS, Hg⟩
  isplitl [Hr]; · iexact Hr
  isplitl [HS]; · iexists _; iexact HS
  iexact Hg

end Cert.KernelIdeal.Hand

end
-- ==== Proof.FrameRun.lean ====
/-
  The program's run: a reshape, region 0, two reshapes, region 1.

  Between two items the TensorCore's unscoped buffers hold known contents: the launch memory, then what each
  stretch of host operations computes from what it finds, then — after a region — the region's arrays at what its
  write-backs leave and every other buffer as the region found it. Each region is entered from "every unscoped
  buffer at the boundary's contents, the generator register at some state, nothing owed" and left at the same
  with the next boundary's contents; its own arrays are split out of the unscoped buffers at entry and put back
  at exit. The run ends with every unscoped buffer at the last boundary's contents, from which the result array
  and the three argument arrays are read.
-/
import proofs.«119286_j70282844831999_1_alg».proof.Proof.FrameR0
import proofs.«119286_j70282844831999_1_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m ((c : Dev nD), b)
/-- After the first reshape (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two reshapes (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## The result array and the arguments at the last boundary -/

/-- The result array ends at what region 1's write-backs leave in its output window's array. -/
theorem W4_main_v4 (c : Dev nD) : W4 m c (Proc.devRef .tc main_v4) = (dat1 (V3 m) c).arrAt 3 cfg1.N :=
  W4_arr m c 3

/-- No host operation writes the input and no region has it among its arrays. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg0) := W2_of_ne m c main_arg0 (by decide)
    _ = W0 m c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The weights are an input window's array of region 1: the pipeline leaves an input array as it finds it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := (W4_arr m c 1).trans (((dat1 (V3 m) c).arrAt_in 1 rfl _).trans (A_eq1 (V3 m) c 1))
    _ = W2 m c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- No host operation writes the bias and no region has it among its arrays (region 1 reads its reshaped copy). -/
theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m c (Proc.devRef .tc main_arg2) := W2_of_ne m c main_arg2 (by decide)
    _ = W0 m c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-! ## The proof data family and the thread state -/

/-- No pipeline has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## The regions as items -/

set_option backward.isDefEq.respectTransparency.types false in
/-- Region 0, entered from every unscoped buffer at `W1` and left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1, entered from every unscoped buffer at `W3` and left at `W4`: its invariant carries the scratch's
    contents from point to point, starts as the untouched rest (`hin1`) and ends as it (`hout1`). -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m) c)
    unfold Pipeline.ΦA
    iintro ⟨Hp, -, Hr⟩
    isplitl [Hr]; · iexact Hr
    iexact Hp
  hout c := by
    rw [Pipeline.ownSems0_none]
    refine (hout1 (V3 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The items in order, and the run -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of the program terminates, nothing
    faulting, with the result array at what region 1's write-backs leave and the three arguments as launched. -/
theorem run_all : θ_run defs (onTc (τ := τ) (main (F := F))) ⟨m, fun _ => 0, ρ⟩ (fun r => ∀ c : Dev nD,
      r.2.mem ((c.tc : Thread nD τ).loc main_v4) = (dat1 (V3 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_main_v4 m c),
       (h c _ (mem_uc main_arg0 (by decide))).trans (W4_main_arg0 m c),
       (h c _ (mem_uc main_arg1 (by decide))).trans (W4_main_arg1 m c),
       (h c _ (mem_uc main_arg2 (by decide))).trans (W4_main_arg2 m c)⟩)

end Cert.KernelIdeal.Hand

end
-- ==== Proof.Value0.lean ====
/-
  Region 0's output array after the region, as one function of its input array.

  Point `b` of the grid loads batch element `b`'s block and writes back, as block `b` of the output array, the
  value the body stores from it. The 64 output blocks tile the array (block `b` is the slab `(b, ·, ·)`), so
  the array after the region is, at `(b, i, j)`, entry `(0, i, j)` of what the body stores from batch element `b`.
-/
import proofs.«119286_j70282844831999_1_alg».proof.Proof.FrameR0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole block, as the constant function. -/
private theorem hz3 : (![0, 0, 0] : Fin 3 → Nat) = fun _ => 0 := funext fun a => by fin_cases a <;> rfl

/-- The one store over the whole block leaves its value; the load of the whole block reads the block. -/
theorem out0_eq (x0 : Vec F S1x512x784 .f32) : out0 x0 = pay0 x0 := by
  unfold out0
  rw [View.canon_unit_zero hz3, View.ld_unit_zero (S := S1x512x784) hz3]

/-- The two index maps over the grid: at point `t` both windows are at block `(t, 0, 0)`. -/
private theorem idx_facts0 : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input window's block at point `t` is batch element `t` of the input array. -/
theorem iblk0_in (c : Dev nD) (t : Fin cfg0.N) :
    iblk0 V c 0 t = xblk (V c main_v0) (⟨t.val, lt_of_lt_of_eq t.isLt N_0⟩ : Fin 64) := by
  obtain ⟨e0, e1, e2, -, -, -⟩ := idx_facts0 t
  funext y
  unfold iblk0 xblk
  rw [View.read_apply]
  show V c main_v0 _ = V c main_v0 _
  congr 1
  funext a
  apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 512 + 1 * (y 1).val = (y 1).val; omega
  | ⟨2, _⟩ => show win0_0.index t (2 : Fin 3) * 784 + 1 * (y 2).val = (y 2).val; omega

open Idealize.ShloMosaic.ValueIdx in
/-- `G0` with any block function `P` in place of the body's: entry `(b, i, j)` is entry `(0, i, j)` of `P` of batch
    element `b`. The layout argument below never looks inside `P`. -/
private def GP (P : Vec F S1x512x784 .f32 → Vec F S1x512x512 .f32) (x3 : Vec F S64x512x784 .f32) : Vec F S64x512x512 .f32 :=
  fun i => P (xblk x3 (i 0 : Fin 64)) (ix3 (0 : Fin 1) (i 1 : Fin 512) (i 2 : Fin 512))

/-- `G0` is `GP` at the body's own block function. -/
private theorem G0_eq_GP (x3 : Vec F S64x512x784 .f32) : G0 x3 = GP pay0 x3 := rfl

/-- Block `t` of `GP P x3` is `P` of batch element `t`: the block sits at `(t, 0, 0)`, so its entry `(0, i, j)` is the
    array's entry `(t, i, j)`. -/
private theorem blk_GP (P : Vec F S1x512x784 .f32 → Vec F S1x512x512 .f32) (x3 : Vec F S64x512x784 .f32) (t : Fin cfg0.N) :
    (cfg0.win 1).cut (grid0.coords t) (P (xblk x3 (⟨t.val, lt_of_lt_of_eq t.isLt N_0⟩ : Fin 64)))
      = ((cfg0.win 1).blk t).view.read (Elt F) (GP P x3) := by
  obtain ⟨-, -, -, e0, e1, e2⟩ := idx_facts0 t
  funext j
  rw [View.read_apply]
  unfold GP
  show P (xblk x3 _) _ = P (xblk x3 _) _
  have hj : (j 0).val < 1 := (j 0).isLt
  congr 1
  · congr 1
    apply Fin.ext
    show t.val = win0_1.index t (0 : Fin 3) * 1 + 1 * (j 0).val
    omega
  · funext a
    apply Fin.ext
    match a with
    | ⟨0, _⟩ => show (j 0).val = 0; omega
    | ⟨1, _⟩ => show (j 1).val = win0_1.index t (1 : Fin 3) * 512 + 1 * (j 1).val; omega
    | ⟨2, _⟩ => show (j 2).val = win0_1.index t (2 : Fin 3) * 512 + 1 * (j 2).val; omega

/-- What point `t` writes back is block `t` of `G0` of the input array. -/
private theorem flushed0_eq (c : Dev nD) (t : Fin cfg0.N) :
    (dat0 V c).flushed 1 t = ((cfg0.win 1).blk t).view.read (Elt F) (G0 (V c main_v0)) := by
  show (cfg0.win 1).cut (grid0.coords t) ((dat0 V c).after 1 t) = _
  rw [after0_1, out0_eq, iblk0_in, G0_eq_GP]
  exact blk_GP pay0 (V c main_v0) t

/-- An index of the output array is in point `t`'s block iff each coordinate is in the block's range on its axis. -/
private theorem mem_blk0 (t : Fin cfg0.N) (i : S64x512x512.Idx) :
    i ∈ ((cfg0.win 1).blk t).view.set ↔ ∀ a : Fin 3, win0_1.index t a * S1x512x512.size a ≤ (i a).val ∧ (i a).val < win0_1.index t a * S1x512x512.size a + S1x512x512.size a := by
  show i ∈ ((View.whole main_v1).slice (win0_1.rect t)).set ↔ _
  rw [View.set_slice_whole, Rect.mem_set_unit]
  exact Iff.rfl

/-- The 64 slabs tile the output array: index `(b, i, j)` is in point `b`'s block, and every point writes back. -/
private theorem covered0 (i : S64x512x512.Idx) :
    ∃ t : Fin cfg0.N, (cfg0.win 1).flush t = true ∧ i ∈ ((cfg0.win 1).blk t).view.set := by
  have h0 : (i 0).val < 64 := (i 0).isLt
  have h1 : (i 1).val < 512 := (i 1).isLt
  have h2 : (i 2).val < 512 := (i 2).isLt
  obtain ⟨t, ht⟩ : ∃ t : Fin cfg0.N, t.val = (i 0).val := ⟨⟨(i 0).val, by rw [show cfg0.N = 64 from N_0]; exact h0⟩, rfl⟩
  obtain ⟨-, -, -, e0, e1, e2⟩ := idx_facts0 t
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 512 ≤ (i 1).val ∧ (i 1).val < win0_1.index t (1 : Fin 3) * 512 + 512; omega
  | ⟨2, _⟩ => show win0_1.index t (2 : Fin 3) * 512 ≤ (i 2).val ∧ (i 2).val < win0_1.index t (2 : Fin 3) * 512 + 512; omega

/-- The output array after region 0 is `G0` of the input array as the region finds it. -/
theorem arr0_final (c : Dev nD) : (dat0 V c).arrAt 1 cfg0.N = G0 (V c main_v0) :=
  (dat0 V c).arrAt_eq_of_cover 1 (G0 (V c main_v0)) (fun t _ => flushed0_eq V c t) covered0

end Cert.KernelIdeal.Hand

end
-- ==== Proof.Value1.lean ====
/-
  Region 1's output array after the region, as one function of the arrays it reads.

  The output window's block is the whole 64 x 200 array and is written back once, after the last point, so the
  array after the region is what the last point stores: the running sum over all 32 column blocks plus the bias
  row. The running sum the frame carries (`acc1`, over the windows' blocks as the pipeline cuts them) is the
  running sum over the column blocks of the arrays (`accM`): window 0's block at point `t` is columns
  `8192 t …` of the activations, window 1's the same columns of the weights, window 2's the whole bias row.
-/
import proofs.«119286_j70282844831999_1_alg».proof.Proof.FrameR1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The four index maps over the grid: windows 0 and 1 sit at block `(0, t)` at point `t`, windows 2 and 3 at
    block `(0, 0)` at every point. -/
private theorem idx1 : ∀ t : Fin cfg1.N, win1_0.index t (0 : Fin 2) = 0 ∧ win1_0.index t (1 : Fin 2) = t.val
    ∧ win1_1.index t (0 : Fin 2) = 0 ∧ win1_1.index t (1 : Fin 2) = t.val
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Window 0's block at point `t`: columns `8192 t …` of the activations. An element `(r, k)` of the block sits in
    the array at row `0 * 64 + r` and column `t * 8192 + k`. -/
theorem iblk1_0 (c : Dev nD) (t : Fin cfg1.N) :
    iblk1 V c 0 t = vblk (V c main_v2) t.val (lt_of_lt_of_eq t.isLt N_1) := by
  obtain ⟨e0, e1, -⟩ := idx1 t
  funext y
  unfold iblk1 vblk
  rw [View.read_apply]
  show V c main_v2 _ = V c main_v2 _
  congr 1
  funext a; apply Fin.ext
  match a with
  | ⟨0, _⟩ => show win1_0.index t (0 : Fin 2) * 64 + 1 * (y 0 : Fin 64).val = (y 0 : Fin 64).val; rw [e0, Nat.zero_mul, Nat.zero_add, Nat.one_mul]
  | ⟨1, _⟩ => show win1_0.index t (1 : Fin 2) * 8192 + 1 * (y 1 : Fin 8192).val = t.val * 8192 + (y 1 : Fin 8192).val; rw [e1, Nat.one_mul]

/-- Window 1's block at point `t`: the same columns of the weights. -/
theorem iblk1_1 (c : Dev nD) (t : Fin cfg1.N) :
    iblk1 V c 1 t = wblk (V c main_arg1) t.val (lt_of_lt_of_eq t.isLt N_1) := by
  obtain ⟨-, -, e0, e1, -⟩ := idx1 t
  funext y
  unfold iblk1 wblk
  rw [View.read_apply]
  show V c main_arg1 _ = V c main_arg1 _
  congr 1
  funext a; apply Fin.ext
  match a with
  | ⟨0, _⟩ => show win1_1.index t (0 : Fin 2) * 200 + 1 * (y 0 : Fin 200).val = (y 0 : Fin 200).val; rw [e0, Nat.zero_mul, Nat.zero_add, Nat.one_mul]
  | ⟨1, _⟩ => show win1_1.index t (1 : Fin 2) * 8192 + 1 * (y 1 : Fin 8192).val = t.val * 8192 + (y 1 : Fin 8192).val; rw [e1, Nat.one_mul]

/-- Window 2's block at any point: the whole bias row (block `(0, 0)` of a 1 x 200 array cut into 1 x 200 blocks). -/
theorem iblk1_2 (c : Dev nD) (t : Fin cfg1.N) : iblk1 V c 2 t = V c main_v3 := by
  obtain ⟨-, -, -, -, e0, e1, -⟩ := idx1 t
  funext y
  unfold iblk1
  rw [View.read_apply]
  show V c main_v3 _ = V c main_v3 _
  congr 1
  funext a; apply Fin.ext
  match a with
  | ⟨0, _⟩ => show win1_2.index t (0 : Fin 2) * 1 + 1 * (y 0 : Fin 1).val = (y 0 : Fin 1).val; rw [e0, Nat.zero_mul, Nat.zero_add, Nat.one_mul]
  | ⟨1, _⟩ => show win1_2.index t (1 : Fin 2) * 200 + 1 * (y 1 : Fin 200).val = (y 1 : Fin 200).val; rw [e1, Nat.zero_mul, Nat.zero_add, Nat.one_mul]

/-- The frame's running sum is the arrays' running sum: both start from the zero block plus the first product and
    add one product per point, and the factors agree point by point (`iblk1_0`, `iblk1_1`). -/
theorem acc1_eq (c : Dev nD) (n : ℕ) (hn : n < cfg1.N) :
    acc1 V c n hn = accM (V c main_v2) (V c main_arg1) n (lt_of_lt_of_eq hn N_1) := by
  induction n with
  | zero => rw [acc1, accM, iblk1_0, iblk1_1]
  | succ n ih => rw [acc1, accM, iblk1_0, iblk1_1, ih]

/-- The output window's block is the whole 64 x 200 array at block index `(0, 0)`: contents of the block, read
    back through the block's rectangle of the array, are themselves. -/
private theorem cut_whole3 (X : Vec F S64x200 .f32) (t : Fin cfg1.N) :
    (cfg1.win 3).cut (grid1.coords t) X = ((cfg1.win 3).blk t).view.read (Elt F) X := by
  obtain ⟨-, -, -, -, -, -, e0, e1⟩ := idx1 t
  funext y
  rw [View.read_apply]
  show X _ = X _
  refine congrArg X ?_
  funext a; apply Fin.ext
  match a with
  | ⟨0, _⟩ => show (y 0 : Fin 64).val = win1_3.index t (0 : Fin 2) * 64 + 1 * (y 0 : Fin 64).val; rw [e0, Nat.zero_mul, Nat.zero_add, Nat.one_mul]
  | ⟨1, _⟩ => show (y 1 : Fin 200).val = win1_3.index t (1 : Fin 2) * 200 + 1 * (y 1 : Fin 200).val; rw [e1, Nat.zero_mul, Nat.zero_add, Nat.one_mul]

/-- What the last point (point 31) stores: the sum over all 32 column blocks plus the bias row. -/
private theorem outF1_last (c : Dev nD) (t : Fin cfg1.N) (h31 : t.val = 31) :
    outF1 V c t = outM (V c main_v2) (V c main_arg1) (V c main_v3) := by
  have hacc : acc1 V c t.val t.isLt = accM (V c main_v2) (V c main_arg1) 31 (by decide) := by
    rw [acc1_eq]; congr 1
  unfold outF1 outM
  rw [iblk1_2, hacc]

/-- The output array after region 1. Only point 31 writes the block back, the block is the whole array, so every
    index of the array is covered by that one write-back and the array ends at what point 31 stores. -/
theorem arr1_final (c : Dev nD) : (dat1 V c).arrAt 3 cfg1.N = outM (V c main_v2) (V c main_arg1) (V c main_v3) := by
  have hN : cfg1.N = 32 := N_1
  refine (dat1 V c).arrAt_eq_of_cover 3 (outM (V c main_v2) (V c main_arg1) (V c main_v3)) (fun t hf => ?_) (fun i => ?_)
  · have h31 : t.val = 31 := by have h := (flush1_3 t).mp hf; have := t.isLt; omega
    show (cfg1.win 3).cut (grid1.coords t) ((dat1 V c).after 3 t) = _
    rw [after1_3, outF1_last V c t h31]
    exact cut_whole3 _ t
  · have h31 : 31 < cfg1.N := by omega
    refine ⟨⟨31, h31⟩, (flush1_3 _).mpr rfl, ?_⟩
    obtain ⟨-, -, -, -, -, -, e0, e1⟩ := idx1 ⟨31, h31⟩
    show i ∈ ((View.whole main_v4).slice (win1_3.rect ⟨31, h31⟩)).set
    rw [View.set_slice_whole, Rect.mem_set_unit]
    intro a
    have h0 : (i 0 : Nat) < 64 := (i 0).isLt
    have h1 : (i 1 : Nat) < 200 := (i 1).isLt
    match a with
    | ⟨0, _⟩ => show win1_3.index ⟨31, _⟩ (0 : Fin 2) * 64 ≤ (i 0 : Nat) ∧ (i 0 : Nat) < win1_3.index ⟨31, _⟩ (0 : Fin 2) * 64 + 64; rw [e0]; omega
    | ⟨1, _⟩ => show win1_3.index ⟨31, _⟩ (1 : Fin 2) * 200 ≤ (i 1 : Nat) ∧ (i 1 : Nat) < win1_3.index ⟨31, _⟩ (1 : Fin 2) * 200 + 200; rw [e1]; omega

end Cert.KernelIdeal.Hand

end
-- ==== Proof.KernelValue.lean ====
/-
  The kernel program's run with its result named: the fully connected layer's output array of region 0's output
  array, flattened, of the reshaped input.

  The three reshapes around the regions are read off the boundary contents: the input viewed as 64 x 512 x 784
  before region 0, region 0's output array viewed as 64 x 262144 and the bias as a 1 x 200 row before region 1;
  the weights reach region 1 as launched.
-/
import proofs.«119286_j70282844831999_1_alg».proof.Proof.FrameRun
import proofs.«119286_j70282844831999_1_alg».proof.Proof.Value0
import proofs.«119286_j70282844831999_1_alg».proof.Proof.Value1
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 finds the input viewed as 64 x 512 x 784. -/
theorem V1_main_v0 (c : Dev nD) :
    V1 m c main_v0 = shapeCast S64x512x784 (m ((c : Thread nD τ).loc main_arg0)) shapeCasts_S64x512x28x28_S64x512x784 := by
  show StableHlo.after hostOps0 (W0 m c) (Proc.devRef .tc main_v0) = _
  after_results <;> rfl

/-- Region 0 leaves its output array at what its write-backs make of it. -/
theorem V2_main_v1 (c : Dev nD) : V2 m c main_v1 = (dat0 (V1 m) c).arrAt 1 cfg0.N := W2_arr m c 1

/-- Region 1 finds region 0's output array viewed as 64 x 262144, -/
theorem V3_main_v2 (c : Dev nD) :
    V3 m c main_v2 = shapeCast S64x262144 (V2 m c main_v1) shapeCasts_S64x512x512_S64x262144 := by
  show StableHlo.after hostOps1 (W2 m c) (Proc.devRef .tc main_v2) = _
  after_results <;> rfl

/-- the bias viewed as a 1 x 200 row, -/
theorem V3_main_v3 (c : Dev nD) :
    V3 m c main_v3 = shapeCast S1x200 (m ((c : Thread nD τ).loc main_arg2)) shapeCasts_S200_S1x200 := by
  have e : W2 m c (Proc.devRef .tc main_arg2) = m ((c : Thread nD τ).loc main_arg2) :=
    (W2_of_ne m c main_arg2 (by decide)).trans (by
      show StableHlo.after hostOps0 (W0 m c) (Proc.devRef .tc main_arg2) = _
      after_results <;> rfl)
  rw [← e]
  show StableHlo.after hostOps1 (W2 m c) (Proc.devRef .tc main_v3) = _
  after_results <;> rfl

/-- and the weights as launched. -/
theorem V3_main_arg1 (c : Dev nD) : V3 m c main_arg1 = m ((c : Thread nD τ).loc main_arg1) := by
  have e : W2 m c (Proc.devRef .tc main_arg1) = m ((c : Thread nD τ).loc main_arg1) :=
    (W2_of_ne m c main_arg1 (by decide)).trans (by
      show StableHlo.after hostOps0 (W0 m c) (Proc.devRef .tc main_arg1) = _
      after_results <;> rfl)
  rw [← e]
  show StableHlo.after hostOps1 (W2 m c) (Proc.devRef .tc main_arg1) = _
  after_results <;> rfl

/-- The kernel program's result as a function of its three arguments. -/
def result (x : Vec F S64x512x28x28 .f32) (w : Vec F S200x262144 .f32) (bias : Vec F S200 .f32) : Vec F S64x200 .f32 :=
  outM (shapeCast S64x262144 (G0 (shapeCast S64x512x784 x shapeCasts_S64x512x28x28_S64x512x784)) shapeCasts_S64x512x512_S64x262144)
    w (shapeCast S1x200 bias shapeCasts_S200_S1x200)

/-- Every weakly fair execution of the kernel program terminates, nothing faulting, with the result array at
    `result` of the arguments and the arguments as launched. -/
theorem kernel_value : θ_run defs (onTc (τ := τ) (main (F := F))) ⟨m, fun _ => 0, ρ⟩ (fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (by
      rw [arr1_final, V3_main_v2, V2_main_v1, arr0_final, V1_main_v0, V3_main_arg1, V3_main_v3]; rfl), (h c).2⟩)
    (run_all m ρ)

end Cert.KernelIdeal.Hand

end
-- ==== Proof.RefNS.lean ====
/-
  The reference's Newton-Schulz chain, batch element by batch element, against the kernel's.

  The reference runs the iteration on all 64 batch elements at once, as 64 x 512 x 512 arrays; the kernel runs it
  on one batch element per grid point, as 512 x 512 matrices. `sl a b` is batch element `b` of a batched array.
  Every step of the chain commutes with `sl`: a pointwise operation trivially, a batched matrix product because
  its batch axis is not contracted, the Frobenius norm because the reference sums over exactly the two axes the
  kernel sums over one after the other. The theorems below state the result for the values the tail needs.
-/
import proofs.«119286_j70282844831999_1_alg».proof.Proof.KDefs
import proofs.«119286_j70282844831999_1_alg».proof.Proof.Gen.ReferenceIdeal.Run
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Cert.Bridge

open Idealize.ShloMosaic Idealize.ShloMosaic.TcCoe Idealize.ShloMosaic.ValueIdx
open Cert.KernelIdeal.Gen Cert.KernelIdeal.Hand

/-- Batch element `b` of a batched 64 x 512 x 512 array. -/
def sl (a : Vec Ideal Cert.ReferenceIdeal.S64x512x512 .f32) (b : Fin 64) : Vec Ideal Cert.KernelIdeal.S512x512 .f32 :=
  fun y => a (ix3 b (y 0 : Fin 512) (y 1 : Fin 512))

/-- A batched matrix product (batch axis 0 kept, axis 2 of the left operand contracted with axis 1 of the right), read
    at batch element `b`, is the kernel's plain matrix product of the two batch elements into the zero accumulator:
    both are the sum over the contracted coordinate of the products of entries. -/
theorem sl_dot (l r : FVec Ideal Cert.ReferenceIdeal.S64x512x512 .f32) (b : Fin 64) (y : Cert.KernelIdeal.S512x512.Idx) :
    sl (Host.dotGeneral (F := Ideal) (φ₁ := .f32) (φ₂ := .f32) Cert.ReferenceIdeal.dot_S64x512x512_S64x512x512_S64x512x512_2_1_1_2_0_0 none l r) b y
      = matmul (F := Ideal) (φ₁ := .f32) (φ₂ := .f32) Cert.KernelIdeal.dot_S512x512_S512x512_S512x512_1_0_0_1_n_n none (sl l b) (sl r b)
          (constant Cert.KernelIdeal.S512x512 .f32 0x00000000#32) y := by
  obtain ⟨p, q, rfl⟩ : ∃ (p q : Fin 512), y = ix2 p q := ⟨y 0, y 1, eq_ix2 y⟩
  -- the reference's side: the sum over the contracted coordinate, at batch element `b`
  refine (StackMember.dotGeneral_stack_apply (G := 64) (m := 512) (n := 512) (k := 512)
    Cert.ReferenceIdeal.Gen.dot_S64x512x512_S64x512x512_S64x512x512_2_1_1_2_0_0_wf none l r b p q).trans ?_
  -- the kernel's side: a product into the zero accumulator is the product, and that is the same sum
  rw [matmul_zero_eq_dotGeneral]
  exact (StackMember.dotGeneral_plain_apply (m := 512) (n := 512) (k := 512) none (sl l b) (sl r b) p q).symm

/-- The reference's reshaped input, as the kernel's region 0 reads it. -/
abbrev refX (V0 : Valuation Cert.ReferenceIdeal.τ Cert.ReferenceIdeal.sig (Elt Ideal)) : Vec Ideal Cert.KernelIdeal.S64x512x784 .f32 :=
  Cert.ReferenceIdeal.Value.res_main_v0 V0

/-! The kernel's values entering its last iteration, from a loaded block `v0` (the names are the printed body's). -/

/-- The identity matrix the kernel builds. -/
abbrev kI : FVec Ideal Cert.KernelIdeal.S512x512 .f32 := k0_pay2 (F := Ideal)
/-- The square root of the Frobenius norm's argument, i.e. the norm itself, as a 1 x 1 vector. -/
abbrev kNorm (v0 : Vec Ideal Cert.KernelIdeal.S1x512x784 .f32) : FVec Ideal Cert.KernelIdeal.S1x1 .f32 := k0_pay3 v0
abbrev kV75 (v0 : Vec Ideal Cert.KernelIdeal.S1x512x784 .f32) := k0_pay20 (F := Ideal) kI (k0_pay8 v0) (k0_pay9 v0) (k0_pay10 v0)
abbrev kV76 (v0 : Vec Ideal Cert.KernelIdeal.S1x512x784 .f32) := k0_pay21 (F := Ideal) kI (k0_pay8 v0) (k0_pay9 v0) (k0_pay10 v0)
abbrev kV77 (v0 : Vec Ideal Cert.KernelIdeal.S1x512x784 .f32) := k0_pay22 (F := Ideal) kI (k0_pay8 v0) (k0_pay9 v0) (k0_pay10 v0)
abbrev kV78 : FVec Ideal Cert.KernelIdeal.S512x512 .f32 := k0_pay23 (F := Ideal)
/-- `Z` after eight iterations (the printed `%109`). -/
abbrev kZ8 (v0 : Vec Ideal Cert.KernelIdeal.S1x512x784 .f32) := k0_pay32 (F := Ideal) kI (kV75 v0) (kV76 v0) (kV77 v0) kV78
/-- `T` of the ninth iteration (the printed `%116`). -/
abbrev kT9 (v0 : Vec Ideal Cert.KernelIdeal.S1x512x784 .f32) := k0_pay33 (F := Ideal) kI (kV75 v0) (kV76 v0) (kV77 v0) kV78
/-- `Y` after nine iterations (the printed `%117`). -/
abbrev kY9 (v0 : Vec Ideal Cert.KernelIdeal.S1x512x784 .f32) := k0_pay34 (F := Ideal) kI (kV75 v0) (kV76 v0) (kV77 v0) kV78

variable (V0 : Valuation Cert.ReferenceIdeal.τ Cert.ReferenceIdeal.sig (Elt Ideal)) (b : Fin 64)

/-! ## The first product: a batch element times its own transpose -/

/-- The product of two stacks over [G, m, k] and [G, n, k], matrix by matrix with the right matrix transposed (batch
    axes 0 and 0, contracting axes 2 and 2), read at an index: the sum over the contracted coordinate. -/
private theorem dotGeneral_stackT_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (c : Fin n) :
    Host.dotGeneral (⟨[2], [2], [1], [1], [0], [0], w⟩ : DotDims _ _ _) prec A B (ix3 g a c)
      = ∑ e : Fin k, A (ix3 g a e) * B (ix3 g c e) := by
  show FloatOps.dotGeneral _ prec _ A B (ix3 g a c) = _
  rw [Ideal.dotGeneral_apply,
    ← Equiv.sum_comp (contrEquiv1 (⟨[2], [2], [1], [1], [0], [0], w⟩ : DotDims _ _ _) k rfl rfl).symm]
  refine Finset.sum_congr rfl fun e _ => ?_
  have he := contrEquiv1_symm_val
    (⟨[2], [2], [1], [1], [0], [0], w⟩ : DotDims ⟨3, ![G, m, k]⟩ ⟨3, ![G, n, k]⟩ ⟨3, ![G, m, n]⟩) k rfl rfl e
  have hl : (⟨[2], [2], [1], [1], [0], [0], w⟩ : DotDims ⟨3, ![G, m, k]⟩ ⟨3, ![G, n, k]⟩ ⟨3, ![G, m, n]⟩).lhsIdx (ix3 g a c)
      ((contrEquiv1 _ k rfl rfl).symm e) = ix3 g a e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact he
  have hr : (⟨[2], [2], [1], [1], [0], [0], w⟩ : DotDims ⟨3, ![G, m, k]⟩ ⟨3, ![G, n, k]⟩ ⟨3, ![G, m, n]⟩).rhsIdx (ix3 g a c)
      ((contrEquiv1 _ k rfl rfl).symm e) = ix3 g c e := by
    funext ax; apply Fin.ext
    match ax with
    | ⟨0, _⟩ => simp [DotDims.rhsIdx]; rfl
    | ⟨1, _⟩ => simp [DotDims.rhsIdx]; rfl
    | ⟨2, _⟩ => simp [DotDims.rhsIdx]; exact he
  rw [hl, hr]

/-- The reference's first product at `(b, p, q)`: row `p` of batch element `b` against its row `q`. -/
private theorem gram_ref (X : FVec Ideal Cert.ReferenceIdeal.S64x512x784 .f32) (p q : Fin 512) :
    Host.dotGeneral (F := Ideal) (φ₁ := .f32) (φ₂ := .f32) Cert.ReferenceIdeal.dot_S64x512x784_S64x512x784_S64x512x512_2_2_1_1_0_0 none X X (ix3 b p q)
      = ∑ e : Fin 784, X (ix3 b p e) * X (ix3 b q e) :=
  dotGeneral_stackT_apply (G := 64) (m := 512) (n := 512) (k := 784)
    Cert.ReferenceIdeal.Gen.dot_S64x512x784_S64x512x784_S64x512x512_2_2_1_1_0_0_wf none X X b p q

/-- The kernel's first product at `(p, q)`: the loaded block, as a matrix, times its transpose. -/
private theorem gram_ker (v0 : Vec Ideal Cert.KernelIdeal.S1x512x784 .f32)
    (h1 : Cert.KernelIdeal.S1x512x784.ShapeCasts Cert.KernelIdeal.S512x784) (h2 : FTy.bits .bf16 < FTy.bits .f32)
    (h3 : Cert.KernelIdeal.S512x784.Transposes [1, 0] Cert.KernelIdeal.S784x512) (p q : Fin 512) :
    matmul (F := Ideal) Cert.KernelIdeal.dot_S512x784_S784x512_S512x512_1_0_0_1_n_n none
        (truncf .bf16 (shapeCast Cert.KernelIdeal.S512x784 v0 h1) h2)
        (transpose Cert.KernelIdeal.S784x512 [1, 0] (truncf .bf16 (shapeCast Cert.KernelIdeal.S512x784 v0 h1) h2) h3)
        (constant Cert.KernelIdeal.S512x512 .f32 0x00000000#32) (ix2 p q)
      = ∑ e : Fin 784, v0 (ix3 (0 : Fin 1) p e) * v0 (ix3 (0 : Fin 1) q e) := by
  rw [matmul_zero_eq_dotGeneral]
  refine (StackMember.dotGeneral_plain_apply (m := 512) (n := 512) (k := 784) none _ _ p q).trans ?_
  refine Finset.sum_congr rfl fun e _ => ?_
  rw [transpose_ix2_apply]
  show shapeCast Cert.KernelIdeal.S512x784 v0 h1 (ix2 p e) * shapeCast Cert.KernelIdeal.S512x784 v0 h1 (ix2 q e) = _
  rw [shapeCast_1ab_ab_apply, shapeCast_1ab_ab_apply]

/-- `A = x xᵀ / 784`: the reference's at batch element `b` is the kernel's from the block loaded at point `b`. -/
private theorem v3_eq : sl (Cert.ReferenceIdeal.Value.res_main_v3 V0) b = k0_pay1 (xblk (refX V0) b) := by
  funext y
  obtain ⟨p, q, rfl⟩ : ∃ (p q : Fin 512), y = ix2 p q := ⟨y 0, y 1, eq_ix2 y⟩
  unfold Cert.ReferenceIdeal.Value.res_main_v3 k0_pay1
  show Ideal.div (Host.dotGeneral (F := Ideal) (φ₁ := .f32) (φ₂ := .f32) Cert.ReferenceIdeal.dot_S64x512x784_S64x512x784_S64x512x512_2_2_1_1_0_0 none (refX V0) (refX V0) (ix3 b p q))
      (Ideal.ofBits .f32 0x44440000#32) = Ideal.div (matmul (F := Ideal) Cert.KernelIdeal.dot_S512x784_S784x512_S512x512_1_0_0_1_n_n none _ _ _ (ix2 p q)) (Ideal.ofBits .f32 0x44440000#32)
  rw [gram_ref, gram_ker]
  rfl

/-! ## The identity matrix -/

/-- The identity: the reference compares a row iota (plus a zero splat) with a column iota, converts the bit unsigned,
    and copies the matrix over the batch; the kernel compares the two iotas, widens the bit and converts it signed. -/
private theorem v16_eq : sl (Cert.ReferenceIdeal.Value.res_main_v16 V0) b = k0_pay2 (F := Ideal) := by
  funext y
  obtain ⟨p, q, rfl⟩ : ∃ (p q : Fin 512), y = ix2 p q := ⟨y 0, y 1, eq_ix2 y⟩
  unfold Cert.ReferenceIdeal.Value.res_main_v16 k0_pay2
  refine (broadcastInDim_apply _ _ _ (ix3 b p q) (ix2 p q) ?_).trans ?_
  · intro a
    match a with
    | ⟨0, _⟩ => rfl
    | ⟨1, _⟩ => rfl
  · refine Eq.trans ?_ (congrFun (sitofp_extui_eq_uitofp (φ := .f32) _ _) (ix2 p q)).symm
    show FloatOps.uitofp .f32 (IntOp.cmpi .eq (IntOp.addi (BitVec.ofNat 32 p.val) 0#32) (BitVec.ofNat 32 q.val))
      = FloatOps.uitofp .f32 (IntOp.cmpi .eq (iota .tc Cert.KernelIdeal.S512x512 32 [0] _ (ix2 p q)) (iota .tc Cert.KernelIdeal.S512x512 32 [1] _ (ix2 p q)))
    rw [iota_single_apply, iota_single_apply]
    show _ = FloatOps.uitofp .f32 (IntOp.cmpi .eq (BitVec.ofNat 32 p.val) (BitVec.ofNat 32 q.val))
    rw [show IntOp.addi (BitVec.ofNat 32 p.val) 0#32 = BitVec.ofNat 32 p.val from BitVec.add_zero _]

/-! ## The Frobenius norm -/

/-- The reference's sum over axes 1 and 2 of a batched array, from the zero word, at `b`: the double sum over the
    entries of batch element `b`. The indices that drop to `b` are exactly the `(b, r, c)`. -/
private theorem reduce12_apply (x : FVec Ideal Cert.ReferenceIdeal.S64x512x512 .f32)
    (h : Cert.ReferenceIdeal.S64x512x512.ReducesTo [1, 2] Cert.ReferenceIdeal.S64) (hu : 0 < Cert.ReferenceIdeal.S_.numel) :
    Host.reduceAdd (F := Ideal) x (constant Cert.ReferenceIdeal.S_ .f32 0x00000000#32) h hu (ix1 b)
      = ∑ r : Fin 512, ∑ c : Fin 512, x (ix3 b r c) := by
  show Ideal.hostReduceAdd h x (Ideal.ofBits .f32 0x00000000#32) (ix1 b) = _
  unfold Ideal.hostReduceAdd
  rw [Ideal.ofBits_zero_f32, zero_add]
  refine Eq.trans ?_ (Fintype.sum_prod_type' (fun (r : Fin 512) (c : Fin 512) => x (ix3 b r c)))
  -- an index that drops to `b` has first coordinate `b`
  have key : ∀ i : Cert.ReferenceIdeal.S64x512x512.Idx, h.drop i = ix1 b → i = ix3 b (i 1 : Fin 512) (i 2 : Fin 512) := by
    intro i hi
    have h0 : (i 0 : Fin 64) = b := by
      apply Fin.ext
      have e := congrArg (fun j : Cert.ReferenceIdeal.S64.Idx => (j 0).val) hi
      exact (h.drop_apply_val_of_eq i 0 0).symm.trans e
    have e := eq_ix3 i
    rw [h0] at e
    exact e
  refine Finset.sum_nbij' (fun i => ((i 1 : Fin 512), (i 2 : Fin 512))) (fun p => ix3 b p.1 p.2) ?_ ?_ ?_ ?_ ?_
  · intro i _; exact Finset.mem_univ _
  · intro p _
    refine Finset.mem_filter.mpr ⟨Finset.mem_univ _, ?_⟩
    funext a
    match a with
    | ⟨0, _⟩ => exact Fin.ext (h.drop_apply_val_of_eq (ix3 b p.1 p.2) 0 0)
  · intro i hi; exact (key i (Finset.mem_filter.mp hi).2).symm
  · intro p _; rfl
  · intro i hi; exact congrArg x (key i (Finset.mem_filter.mp hi).2)

/-- The kernel's sum of a matrix's entries: each row summed along the lanes, the column of row sums laid out as
    512 x 1 and summed along the sublanes, the one sum laid out as 1 x 1. -/
private theorem sum2_ker (A : FVec Ideal Cert.KernelIdeal.S512x512 .f32)
    (h1 : Cert.KernelIdeal.S512x512.Reduces [1] Cert.KernelIdeal.S512) (hφ : FKind.Formats .f32)
    (ha1 : (0x00000000#32 : BitVec 32) = 0x00000000#32)
    (hc1 : Cert.KernelIdeal.S512.ShapeCasts Cert.KernelIdeal.S512x1)
    (h2 : Cert.KernelIdeal.S512x1.Reduces [0] Cert.KernelIdeal.S1)
    (ha2 : (0x00000000#32 : BitVec 32) = 0x00000000#32)
    (hc2 : Cert.KernelIdeal.S1.ShapeCasts Cert.KernelIdeal.S1x1) :
    shapeCast Cert.KernelIdeal.S1x1 (multiReduction (F := Ideal) .add [0] Cert.KernelIdeal.S1
        (shapeCast Cert.KernelIdeal.S512x1 (multiReduction (F := Ideal) .add [1] Cert.KernelIdeal.S512 A 0x00000000#32 h1 hφ ha1) hc1)
        0x00000000#32 h2 hφ ha2) hc2 (ix2 (0 : Fin 1) (0 : Fin 1))
      = ∑ r : Fin 512, ∑ c : Fin 512, A (ix2 r c) := by
  refine (shapeCast_a_1a_apply _ hc2 (0 : Fin 1) (0 : Fin 1)).trans ?_
  refine (Ideal.multiReduction_add_single _ 0x00000000#32 h2 hφ ha2 (ix1 (0 : Fin 1))).trans ?_
  show ∑ r : Fin 512, shapeCast Cert.KernelIdeal.S512x1 _ hc1 (h2.lift (ix1 (0 : Fin 1)) r) = _
  refine Finset.sum_congr rfl fun r _ => ?_
  refine (shapeCast_apply _ hc1 _ (ix1 r) ?_).trans ?_
  · rw [Shape.rowMajor_val_one, Shape.rowMajor_val_two]
    show r.val = r.val * 1 + 0
    omega
  refine (Ideal.multiReduction_add_single A 0x00000000#32 h1 hφ ha1 (ix1 r)).trans ?_
  show ∑ c : Fin 512, A (h1.lift (ix1 r) c) = _
  refine Finset.sum_congr rfl fun c _ => congrArg A (funext fun ax => Fin.ext ?_)
  match ax with
  | ⟨0, _⟩ => rfl
  | ⟨1, _⟩ => rfl

/-- The Frobenius norm of `A`: the reference's at batch element `b` is the kernel's 1 x 1 vector's one entry. -/
private theorem v6_eq : Cert.ReferenceIdeal.Value.res_main_v6 V0 (ix1 b) = k0_pay3 (xblk (refX V0) b) (ix2 (0 : Fin 1) (0 : Fin 1)) := by
  unfold Cert.ReferenceIdeal.Value.res_main_v6 k0_pay3
  show Ideal.sqrt (Host.reduceAdd (F := Ideal) (mulf (Cert.ReferenceIdeal.Value.res_main_v3 V0) (Cert.ReferenceIdeal.Value.res_main_v3 V0))
        (constant Cert.ReferenceIdeal.S_ .f32 0x00000000#32) _ _ (ix1 b))
      = Ideal.sqrt (shapeCast Cert.KernelIdeal.S1x1 (multiReduction (F := Ideal) .add [0] Cert.KernelIdeal.S1
        (shapeCast Cert.KernelIdeal.S512x1 (multiReduction (F := Ideal) .add [1] Cert.KernelIdeal.S512
          (mulf (k0_pay1 (xblk (refX V0) b)) (k0_pay1 (xblk (refX V0) b))) 0x00000000#32 _ _ _) _)
        0x00000000#32 _ _ _) _ (ix2 (0 : Fin 1) (0 : Fin 1)))
  refine congrArg Ideal.sqrt ?_
  refine (reduce12_apply b _ _ _).trans (Eq.trans ?_ (sum2_ker _ _ _ _ _ _ _ _).symm)
  rw [← v3_eq V0 b]
  rfl

/-! ## The first iterate -/

/-- `Y₀ = A / ‖A‖`: the reference divides by the norm broadcast over the batch element, the kernel by its 1 x 1
    vector broadcast over the matrix. -/
private theorem v9_eq : sl (Cert.ReferenceIdeal.Value.res_main_v9 V0) b = k0_pay4 (xblk (refX V0) b) := by
  funext y
  obtain ⟨p, q, rfl⟩ : ∃ (p q : Fin 512), y = ix2 p q := ⟨y 0, y 1, eq_ix2 y⟩
  unfold Cert.ReferenceIdeal.Value.res_main_v9 k0_pay4
  show Ideal.div (Cert.ReferenceIdeal.Value.res_main_v3 V0 (ix3 b p q))
        (broadcastInDim Cert.ReferenceIdeal.S64x512x512 ![0, 1, 2] _ (broadcastInDim Cert.ReferenceIdeal.S64x1x1 ![0] _ (Cert.ReferenceIdeal.Value.res_main_v6 V0)) (ix3 b p q))
      = Ideal.div (k0_pay1 (xblk (refX V0) b) (ix2 p q)) (broadcastTo Cert.KernelIdeal.S512x512 (k0_pay3 (xblk (refX V0) b)) _ (ix2 p q))
  have e1 : broadcastInDim Cert.ReferenceIdeal.S64x512x512 ![0, 1, 2] Cert.ReferenceIdeal.Gen.bcast_S64x1x1_S64x512x512_0_1_2
      (broadcastInDim Cert.ReferenceIdeal.S64x1x1 ![0] Cert.ReferenceIdeal.Gen.bcast_S64_S64x1x1_0 (Cert.ReferenceIdeal.Value.res_main_v6 V0)) (ix3 b p q)
      = Cert.ReferenceIdeal.Value.res_main_v6 V0 (ix1 b) := by
    refine (broadcastInDim_apply _ _ _ (ix3 b p q) (ix3 b (0 : Fin 1) (0 : Fin 1)) ?_).trans ?_
    · intro a
      match a with
      | ⟨0, _⟩ => rfl
      | ⟨1, _⟩ => rfl
      | ⟨2, _⟩ => rfl
    · refine broadcastInDim_apply _ _ _ (ix3 b (0 : Fin 1) (0 : Fin 1)) (ix1 b) ?_
      intro a
      match a with
      | ⟨0, _⟩ => rfl
  have e2 : broadcastTo Cert.KernelIdeal.S512x512 (k0_pay3 (xblk (refX V0) b)) broadcasts_S1x1_S512x512 (ix2 p q)
      = k0_pay3 (xblk (refX V0) b) (ix2 (0 : Fin 1) (0 : Fin 1)) := by
    refine broadcastTo_apply _ _ (ix2 p q) (ix2 (0 : Fin 1) (0 : Fin 1)) ?_
    intro a
    match a with
    | ⟨0, _⟩ => rfl
    | ⟨1, _⟩ => rfl
  rw [e1, e2, v6_eq V0 b, ← v3_eq V0 b]
  rfl

/-! ## The steps of the iteration -/

/-- The reference's scalar constant `w` at every entry of a batched array. -/
private abbrev splatR (w : BitVec 32) : FVec Ideal Cert.ReferenceIdeal.S64x512x512 .f32 :=
  broadcastInDim Cert.ReferenceIdeal.S64x512x512 ![] Cert.ReferenceIdeal.Gen.bcast_S_S64x512x512 (constant (F := Ideal) Cert.ReferenceIdeal.S_ .f32 w)

/-- `T = ½ (3 I − P)` is computed entry by entry, so it commutes with taking a batch element. -/
private theorem sl_T (Ir Pr : FVec Ideal Cert.ReferenceIdeal.S64x512x512 .f32) (Ik Pk : FVec Ideal Cert.KernelIdeal.S512x512 .f32)
    (h : FTy.bits .bf16 < FTy.bits .f32) (hI : sl Ir b = Ik) (hP : sl Pr b = Pk) :
    sl (mulf (splatR 0x3F000000#32) (subf (mulf (splatR 0x40400000#32) Ir) Pr)) b
      = truncf .bf16 (mulf (broadcast Cert.KernelIdeal.S512x512 (Scalar.ofBits (F := Ideal) .f32 0x3F000000#32))
          (subf (mulf (broadcast Cert.KernelIdeal.S512x512 (Scalar.ofBits (F := Ideal) .f32 0x40400000#32)) Ik) Pk)) h := by
  subst hI hP
  rfl

/-- A batched product commutes with taking a batch element: `sl_dot`, with the factors named. -/
private theorem sl_mm (Lr Rr : FVec Ideal Cert.ReferenceIdeal.S64x512x512 .f32) (Lk Rk : FVec Ideal Cert.KernelIdeal.S512x512 .bf16)
    (hL : sl Lr b = Lk) (hR : sl Rr b = Rk) :
    sl (Host.dotGeneral (F := Ideal) (φ₁ := .f32) (φ₂ := .f32) Cert.ReferenceIdeal.dot_S64x512x512_S64x512x512_S64x512x512_2_1_1_2_0_0 none Lr Rr) b
      = matmul (F := Ideal) (φ₁ := .bf16) (φ₂ := .bf16) Cert.KernelIdeal.dot_S512x512_S512x512_S512x512_1_0_0_1_n_n none Lk Rk
          (constant Cert.KernelIdeal.S512x512 .f32 0x00000000#32) := by
  subst hL hR
  funext y
  exact sl_dot Lr Rr b y

/-- The same when the kernel rounds the product to the narrower format, which at the ideal values is the identity. -/
private theorem sl_mmT (Lr Rr : FVec Ideal Cert.ReferenceIdeal.S64x512x512 .f32) (Lk Rk : FVec Ideal Cert.KernelIdeal.S512x512 .bf16)
    (h : FTy.bits .bf16 < FTy.bits .f32) (hL : sl Lr b = Lk) (hR : sl Rr b = Rk) :
    sl (Host.dotGeneral (F := Ideal) (φ₁ := .f32) (φ₂ := .f32) Cert.ReferenceIdeal.dot_S64x512x512_S64x512x512_S64x512x512_2_1_1_2_0_0 none Lr Rr) b
      = truncf .bf16 (matmul (F := Ideal) (φ₁ := .bf16) (φ₂ := .bf16) Cert.KernelIdeal.dot_S512x512_S512x512_S512x512_1_0_0_1_n_n none Lk Rk
          (constant Cert.KernelIdeal.S512x512 .f32 0x00000000#32)) h :=
  sl_mm b Lr Rr Lk Rk hL hR

/-! ## The chain

`Z₀ = I`; then `Tₖ = ½ (3 I − Zₖ₋₁ Yₖ₋₁)`, `Yₖ = Yₖ₋₁ Tₖ`, `Zₖ = Tₖ Zₖ₋₁`. Each value of the reference, at batch element `b`,
is the kernel's value of the same name, by the step lemmas from the values before it. The kernel rounds its matrices
to a narrower format between the steps, which at the ideal values changes nothing. -/

/-- The kernel's `Z₀`: the identity in the narrower format. -/
private theorem v16_eq' : sl (Cert.ReferenceIdeal.Value.res_main_v16 V0) b = k0_pay5 (F := Ideal) := v16_eq V0 b

/-- `T₁`. -/
private theorem v22_eq : sl (Cert.ReferenceIdeal.Value.res_main_v22 V0) b = k0_pay6 (xblk (refX V0) b) := by
  unfold Cert.ReferenceIdeal.Value.res_main_v22 k0_pay6
  exact sl_T b _ _ _ _ _ (v16_eq V0 b) (sl_mm b _ _ _ _ (v16_eq' V0 b) (v9_eq V0 b))

/-- `Y₁`. -/
private theorem v23_eq : sl (Cert.ReferenceIdeal.Value.res_main_v23 V0) b = k0_pay7 (xblk (refX V0) b) := by
  unfold Cert.ReferenceIdeal.Value.res_main_v23 k0_pay7
  exact sl_mmT b _ _ _ _ _ (v9_eq V0 b) (v22_eq V0 b)

/-- `Z₁`. -/
private theorem v24_eq : sl (Cert.ReferenceIdeal.Value.res_main_v24 V0) b = k0_pay8 (xblk (refX V0) b) := by
  unfold Cert.ReferenceIdeal.Value.res_main_v24 k0_pay8
  exact sl_mmT b _ _ _ _ _ (v22_eq V0 b) (v16_eq' V0 b)

/-- `T₂`. -/
private theorem v30_eq : sl (Cert.ReferenceIdeal.Value.res_main_v30 V0) b = k0_pay9 (xblk (refX V0) b) := by
  unfold Cert.ReferenceIdeal.Value.res_main_v30 k0_pay9
  exact sl_T b _ _ _ _ _ (v16_eq V0 b) (sl_mm b _ _ _ _ (v24_eq V0 b) (v23_eq V0 b))

/-- `Y₂`, which the kernel keeps unrounded between two parts of its body. -/
private theorem v31_eq32 : sl (Cert.ReferenceIdeal.Value.res_main_v31 V0) b = k0_pay10 (xblk (refX V0) b) := by
  unfold Cert.ReferenceIdeal.Value.res_main_v31 k0_pay10
  exact sl_mm b _ _ _ _ (v23_eq V0 b) (v30_eq V0 b)

/-- `Y₂` as the next part of the body reads it. -/
private theorem v31_eq : sl (Cert.ReferenceIdeal.Value.res_main_v31 V0) b = k0_pay11 (k0_pay10 (xblk (refX V0) b)) := v31_eq32 V0 b

/-- `Z₂`. -/
private theorem v32_eq : sl (Cert.ReferenceIdeal.Value.res_main_v32 V0) b = k0_pay12 (k0_pay8 (xblk (refX V0) b)) (k0_pay9 (xblk (refX V0) b)) := by
  unfold Cert.ReferenceIdeal.Value.res_main_v32 k0_pay12
  exact sl_mmT b _ _ _ _ _ (v30_eq V0 b) (v24_eq V0 b)

/-- `T₃`. -/
private theorem v38_eq : sl (Cert.ReferenceIdeal.Value.res_main_v38 V0) b = k0_pay13 kI (k0_pay8 (xblk (refX V0) b)) (k0_pay9 (xblk (refX V0) b)) (k0_pay10 (xblk (refX V0) b)) := by
  unfold Cert.ReferenceIdeal.Value.res_main_v38 k0_pay13
  exact sl_T b _ _ _ _ _ (v16_eq V0 b) (sl_mm b _ _ _ _ (v32_eq V0 b) (v31_eq V0 b))

/-- `Y₃`. -/
private theorem v39_eq : sl (Cert.ReferenceIdeal.Value.res_main_v39 V0) b = k0_pay14 kI (k0_pay8 (xblk (refX V0) b)) (k0_pay9 (xblk (refX V0) b)) (k0_pay10 (xblk (refX V0) b)) := by
  unfold Cert.ReferenceIdeal.Value.res_main_v39 k0_pay14
  exact sl_mmT b _ _ _ _ _ (v31_eq V0 b) (v38_eq V0 b)

/-- `Z₃`. -/
private theorem v40_eq : sl (Cert.ReferenceIdeal.Value.res_main_v40 V0) b = k0_pay15 kI (k0_pay8 (xblk (refX V0) b)) (k0_pay9 (xblk (refX V0) b)) (k0_pay10 (xblk (refX V0) b)) := by
  unfold Cert.ReferenceIdeal.Value.res_main_v40 k0_pay15
  exact sl_mmT b _ _ _ _ _ (v38_eq V0 b) (v32_eq V0 b)

/-- `T₄`. -/
private theorem v46_eq : sl (Cert.ReferenceIdeal.Value.res_main_v46 V0) b = k0_pay16 kI (k0_pay8 (xblk (refX V0) b)) (k0_pay9 (xblk (refX V0) b)) (k0_pay10 (xblk (refX V0) b)) := by
  unfold Cert.ReferenceIdeal.Value.res_main_v46 k0_pay16
  exact sl_T b _ _ _ _ _ (v16_eq V0 b) (sl_mm b _ _ _ _ (v40_eq V0 b) (v39_eq V0 b))

/-- `Y₄`. -/
private theorem v47_eq : sl (Cert.ReferenceIdeal.Value.res_main_v47 V0) b = k0_pay17 kI (k0_pay8 (xblk (refX V0) b)) (k0_pay9 (xblk (refX V0) b)) (k0_pay10 (xblk (refX V0) b)) := by
  unfold Cert.ReferenceIdeal.Value.res_main_v47 k0_pay17
  exact sl_mmT b _ _ _ _ _ (v39_eq V0 b) (v46_eq V0 b)

/-- `Z₄`. -/
private theorem v48_eq : sl (Cert.ReferenceIdeal.Value.res_main_v48 V0) b = k0_pay18 kI (k0_pay8 (xblk (refX V0) b)) (k0_pay9 (xblk (refX V0) b)) (k0_pay10 (xblk (refX V0) b)) := by
  unfold Cert.ReferenceIdeal.Value.res_main_v48 k0_pay18
  exact sl_mmT b _ _ _ _ _ (v46_eq V0 b) (v40_eq V0 b)

/-- `T₅`. -/
private theorem v54_eq : sl (Cert.ReferenceIdeal.Value.res_main_v54 V0) b = k0_pay19 kI (k0_pay8 (xblk (refX V0) b)) (k0_pay9 (xblk (refX V0) b)) (k0_pay10 (xblk (refX V0) b)) := by
  unfold Cert.ReferenceIdeal.Value.res_main_v54 k0_pay19
  exact sl_T b _ _ _ _ _ (v16_eq V0 b) (sl_mm b _ _ _ _ (v48_eq V0 b) (v47_eq V0 b))

/-- `Y₅`. -/
private theorem v55_eq : sl (Cert.ReferenceIdeal.Value.res_main_v55 V0) b = k0_pay20 kI (k0_pay8 (xblk (refX V0) b)) (k0_pay9 (xblk (refX V0) b)) (k0_pay10 (xblk (refX V0) b)) := by
  unfold Cert.ReferenceIdeal.Value.res_main_v55 k0_pay20
  exact sl_mmT b _ _ _ _ _ (v47_eq V0 b) (v54_eq V0 b)

/-- `Z₅`. -/
private theorem v56_eq : sl (Cert.ReferenceIdeal.Value.res_main_v56 V0) b = k0_pay21 kI (k0_pay8 (xblk (refX V0) b)) (k0_pay9 (xblk (refX V0) b)) (k0_pay10 (xblk (refX V0) b)) := by
  unfold Cert.ReferenceIdeal.Value.res_main_v56 k0_pay21
  exact sl_mmT b _ _ _ _ _ (v54_eq V0 b) (v48_eq V0 b)

/-- The product `Z₅ Y₅`, which the kernel carries into the last part of its body. -/
private theorem zy5_eq : sl (Host.dotGeneral (F := Ideal) (φ₁ := .f32) (φ₂ := .f32) Cert.ReferenceIdeal.dot_S64x512x512_S64x512x512_S64x512x512_2_1_1_2_0_0 none
      (Cert.ReferenceIdeal.Value.res_main_v56 V0) (Cert.ReferenceIdeal.Value.res_main_v55 V0)) b = k0_pay22 kI (k0_pay8 (xblk (refX V0) b)) (k0_pay9 (xblk (refX V0) b)) (k0_pay10 (xblk (refX V0) b)) := by
  unfold k0_pay22
  exact sl_mm b _ _ _ _ (v56_eq V0 b) (v55_eq V0 b)

/-- `T₆`, from the carried product and the carried splat of 3. -/
private theorem v62_eq : sl (Cert.ReferenceIdeal.Value.res_main_v62 V0) b = k0_pay24 kI (kV77 (xblk (refX V0) b)) kV78 := by
  unfold Cert.ReferenceIdeal.Value.res_main_v62 k0_pay24
  exact sl_T b _ _ _ _ _ (v16_eq V0 b) (zy5_eq V0 b)

/-- `Y₆`. -/
private theorem v63_eq : sl (Cert.ReferenceIdeal.Value.res_main_v63 V0) b = k0_pay25 kI (kV75 (xblk (refX V0) b)) (kV77 (xblk (refX V0) b)) kV78 := by
  unfold Cert.ReferenceIdeal.Value.res_main_v63 k0_pay25
  exact sl_mmT b _ _ _ _ _ (v55_eq V0 b) (v62_eq V0 b)

/-- `Z₆`. -/
private theorem v64_eq : sl (Cert.ReferenceIdeal.Value.res_main_v64 V0) b = k0_pay26 kI (kV76 (xblk (refX V0) b)) (kV77 (xblk (refX V0) b)) kV78 := by
  unfold Cert.ReferenceIdeal.Value.res_main_v64 k0_pay26
  exact sl_mmT b _ _ _ _ _ (v62_eq V0 b) (v56_eq V0 b)

/-- `T₇`. -/
private theorem v70_eq : sl (Cert.ReferenceIdeal.Value.res_main_v70 V0) b = k0_pay27 kI (kV75 (xblk (refX V0) b)) (kV76 (xblk (refX V0) b)) (kV77 (xblk (refX V0) b)) kV78 := by
  unfold Cert.ReferenceIdeal.Value.res_main_v70 k0_pay27
  exact sl_T b _ _ _ _ _ (v16_eq V0 b) (sl_mm b _ _ _ _ (v64_eq V0 b) (v63_eq V0 b))

/-- `Y₇`. -/
private theorem v71_eq : sl (Cert.ReferenceIdeal.Value.res_main_v71 V0) b = k0_pay28 kI (kV75 (xblk (refX V0) b)) (kV76 (xblk (refX V0) b)) (kV77 (xblk (refX V0) b)) kV78 := by
  unfold Cert.ReferenceIdeal.Value.res_main_v71 k0_pay28
  exact sl_mmT b _ _ _ _ _ (v63_eq V0 b) (v70_eq V0 b)

/-- `Z₇`. -/
private theorem v72_eq : sl (Cert.ReferenceIdeal.Value.res_main_v72 V0) b = k0_pay29 kI (kV75 (xblk (refX V0) b)) (kV76 (xblk (refX V0) b)) (kV77 (xblk (refX V0) b)) kV78 := by
  unfold Cert.ReferenceIdeal.Value.res_main_v72 k0_pay29
  exact sl_mmT b _ _ _ _ _ (v70_eq V0 b) (v64_eq V0 b)

/-- `T₈`. -/
private theorem v78_eq : sl (Cert.ReferenceIdeal.Value.res_main_v78 V0) b = k0_pay30 kI (kV75 (xblk (refX V0) b)) (kV76 (xblk (refX V0) b)) (kV77 (xblk (refX V0) b)) kV78 := by
  unfold Cert.ReferenceIdeal.Value.res_main_v78 k0_pay30
  exact sl_T b _ _ _ _ _ (v16_eq V0 b) (sl_mm b _ _ _ _ (v72_eq V0 b) (v71_eq V0 b))

/-- `Y₈`. -/
private theorem v79_eq : sl (Cert.ReferenceIdeal.Value.res_main_v79 V0) b = k0_pay31 kI (kV75 (xblk (refX V0) b)) (kV76 (xblk (refX V0) b)) (kV77 (xblk (refX V0) b)) kV78 := by
  unfold Cert.ReferenceIdeal.Value.res_main_v79 k0_pay31
  exact sl_mmT b _ _ _ _ _ (v71_eq V0 b) (v78_eq V0 b)

/-- `Z₈`. -/
private theorem v80_eq : sl (Cert.ReferenceIdeal.Value.res_main_v80 V0) b = k0_pay32 kI (kV75 (xblk (refX V0) b)) (kV76 (xblk (refX V0) b)) (kV77 (xblk (refX V0) b)) kV78 := by
  unfold Cert.ReferenceIdeal.Value.res_main_v80 k0_pay32
  exact sl_mmT b _ _ _ _ _ (v78_eq V0 b) (v72_eq V0 b)

/-- `T₉`. -/
private theorem v86_eq : sl (Cert.ReferenceIdeal.Value.res_main_v86 V0) b = k0_pay33 kI (kV75 (xblk (refX V0) b)) (kV76 (xblk (refX V0) b)) (kV77 (xblk (refX V0) b)) kV78 := by
  unfold Cert.ReferenceIdeal.Value.res_main_v86 k0_pay33
  exact sl_T b _ _ _ _ _ (v16_eq V0 b) (sl_mm b _ _ _ _ (v80_eq V0 b) (v79_eq V0 b))

/-- `Y₉`, which the kernel keeps unrounded. -/
private theorem v87_eq : sl (Cert.ReferenceIdeal.Value.res_main_v87 V0) b = k0_pay34 kI (kV75 (xblk (refX V0) b)) (kV76 (xblk (refX V0) b)) (kV77 (xblk (refX V0) b)) kV78 := by
  unfold Cert.ReferenceIdeal.Value.res_main_v87 k0_pay34
  exact sl_mm b _ _ _ _ (v79_eq V0 b) (v86_eq V0 b)

/-! ## The statements the tail uses -/

/-- The reference's broadcast identity, at any batch element, is the kernel's identity matrix. -/
theorem ns_I (y : Cert.KernelIdeal.S512x512.Idx) : sl (Cert.ReferenceIdeal.Value.res_main_v16 V0) b y = kI y :=
  congrFun (v16_eq V0 b) y

/-- The reference's Frobenius norm of batch element `b` is the kernel's. -/
theorem ns_norm : Cert.ReferenceIdeal.Value.res_main_v6 V0 (ix1 b) = kNorm (xblk (refX V0) b) (ix2 (0 : Fin 1) (0 : Fin 1)) :=
  v6_eq V0 b

/-- `Y` after nine iterations. -/
theorem ns_Y9 (y : Cert.KernelIdeal.S512x512.Idx) : sl (Cert.ReferenceIdeal.Value.res_main_v87 V0) b y = kY9 (xblk (refX V0) b) y :=
  congrFun (v87_eq V0 b) y

/-- `T` of the ninth iteration. -/
theorem ns_T9 (y : Cert.KernelIdeal.S512x512.Idx) : sl (Cert.ReferenceIdeal.Value.res_main_v86 V0) b y = kT9 (xblk (refX V0) b) y :=
  congrFun (v86_eq V0 b) y

/-- `Z` after eight iterations. -/
theorem ns_Z8 (y : Cert.KernelIdeal.S512x512.Idx) : sl (Cert.ReferenceIdeal.Value.res_main_v80 V0) b y = kZ8 (xblk (refX V0) b) y :=
  congrFun (v80_eq V0 b) y

end Cert.Bridge

end
-- ==== Proof.RefTail.lean ====
/-
  The reference's normalised activations are the kernel's region-0 output, flattened.

  After the iteration both sides scale by the square root of the norm, take the signed square root entry by entry,
  and divide by the Euclidean norm of the batch element floored at 1e-12. The reference does this on the
  64 x 262144 flattening, the kernel on each 512 x 512 matrix; entry `(b, 512 i + j)` of the one is entry
  `(i, j)` of batch element `b` of the other, and the sum over the 262144 columns is the double sum over rows
  and columns.
-/
import proofs.«119286_j70282844831999_1_alg».proof.Proof.RefNS
import Idealize.ShloMosaic.Lib.IdealHost

noncomputable section

namespace Cert.Bridge

open Idealize.ShloMosaic Idealize.ShloMosaic.TcCoe Idealize.ShloMosaic.ValueIdx
open Cert.KernelIdeal.Gen Cert.KernelIdeal.Hand
open Cert.ReferenceIdeal Cert.ReferenceIdeal.Gen Cert.ReferenceIdeal.Value
open scoped BigOperators

/-- The reference's normalised activations (its value `%115`), as its run states them. -/
def refAct (V0 : Valuation τ sig (Elt Ideal)) : Vec Ideal S64x262144 .f32 :=
  Host.divf (res_main_v107 V0) (broadcastInDim S64x262144 ![0, 1] bcast_S64x1_S64x262144_0_1 (maximumf (Host.sqrt (broadcastInDim S64x1 ![0] bcast_S64_S64x1_0 (Host.reduceAdd (mulf (res_main_v107 V0) (res_main_v107 V0)) (constant S_ .f32 0x00000000#32) reducesTo_S64x262144_S64_d1 h_S_))) (broadcastInDim S64x1 ![] bcast_S_S64x1 (constant S_ .f32 0x2B8CBCCC#32))))

/-! ## Sums and products, generally -/

/-- A sum over the 262144 columns is the double sum over 512 rows and 512 columns, column `512 i + j` being `(i, j)`. -/
private theorem sum_flat {M : Type*} [AddCommMonoid M] (f : Fin 262144 → M) :
    ∑ k, f k = ∑ i : Fin 512, ∑ j : Fin 512, f ⟨512 * i.val + j.val, by have := i.isLt; have := j.isLt; omega⟩ := by
  rw [← Equiv.sum_comp (finProdFinEquiv : Fin 512 × Fin 512 ≃ Fin 262144) f, Fintype.sum_prod_type]
  refine Finset.sum_congr rfl fun i _ => Finset.sum_congr rfl fun j _ => congrArg f (Fin.ext ?_)
  show j.val + 512 * i.val = 512 * i.val + j.val
  omega

/-- A matrix product read at an index depends on its operands entry by entry only, whatever formats they carry. -/
private theorem matmul_congr {s₁ s₂ so : Shape} {φ₁ φ₂ ψ₁ ψ₂ : FTy} (D : DotDims s₁ s₂ so) (prec : Option ContractPrecision)
    (l : FVec Ideal s₁ φ₁) (r : FVec Ideal s₂ φ₂) (l' : FVec Ideal s₁ ψ₁) (r' : FVec Ideal s₂ ψ₂) (acc : FVec Ideal so .f32)
    (hl : ∀ i, l i = l' i) (hr : ∀ i, r i = r' i) (y : so.Idx) :
    matmul (F := Ideal) D prec l r acc y = matmul (F := Ideal) D prec l' r' acc y := by
  show FloatOps.matmul D prec l r acc y = FloatOps.matmul D prec l' r' acc y
  rw [Ideal.matmul_apply, Ideal.matmul_apply]
  exact congrArg (acc y + ·) (Finset.sum_congr rfl fun k _ => by rw [hl, hr])

/-! ## The kernel's last payload, named piece by piece -/

section KernelTail
variable (v0 : Vec Ideal Cert.KernelIdeal.S1x512x784 .f32)

/-- `Z` after nine iterations: `T9 * Z8`. -/
private def kZ9 : FVec Ideal Cert.KernelIdeal.S512x512 .f32 :=
  matmul (F := Ideal) Cert.KernelIdeal.dot_S512x512_S512x512_S512x512_1_0_0_1_n_n none (kT9 v0) (kZ8 v0)
    (constant Cert.KernelIdeal.S512x512 .f32 0x00000000#32)

/-- `T` of the tenth iteration: `(3 I - Z9 * Y9) / 2`. -/
private def kT10 : FVec Ideal Cert.KernelIdeal.S512x512 .f32 :=
  mulf (broadcast Cert.KernelIdeal.S512x512 (Scalar.ofBits (F := Ideal) .f32 0x3F000000#32))
    (subf (mulf (broadcast Cert.KernelIdeal.S512x512 (Scalar.ofBits (F := Ideal) .f32 0x40400000#32)) kI)
      (matmul (F := Ideal) Cert.KernelIdeal.dot_S512x512_S512x512_S512x512_1_0_0_1_n_n none
        (truncf .bf16 (kZ9 v0) bitsLt_bf16_f32) (truncf .bf16 (kY9 v0) bitsLt_bf16_f32)
        (constant Cert.KernelIdeal.S512x512 .f32 0x00000000#32)))

/-- `Y` after ten iterations: `Y9 * T10`. -/
private def kY10 : FVec Ideal Cert.KernelIdeal.S512x512 .f32 :=
  matmul (F := Ideal) Cert.KernelIdeal.dot_S512x512_S512x512_S512x512_1_0_0_1_n_n none
    (truncf .bf16 (kY9 v0) bitsLt_bf16_f32) (truncf .bf16 (kT10 v0) bitsLt_bf16_f32)
    (constant Cert.KernelIdeal.S512x512 .f32 0x00000000#32)

/-- The iterate scaled by the square root of the norm. -/
private def kPre : FVec Ideal Cert.KernelIdeal.S512x512 .f32 :=
  mulf (kY10 v0) (broadcastTo Cert.KernelIdeal.S512x512 (sqrt (kNorm v0)) broadcasts_S1x1_S512x512)

/-- Its signed square root, entry by entry. -/
private def kAct : FVec Ideal Cert.KernelIdeal.S512x512 .f32 :=
  mulf
    (select (cmpf .ogt (absf (kPre v0)) (broadcast Cert.KernelIdeal.S512x512 (Scalar.ofBits (F := Ideal) .f32 0x00000000#32)))
      (select (cmpf .olt (kPre v0) (constant Cert.KernelIdeal.S512x512 .f32 0x00000000#32))
        (constant Cert.KernelIdeal.S512x512 .f32 0xBF800000#32) (constant Cert.KernelIdeal.S512x512 .f32 0x3F800000#32))
      (kPre v0))
    (sqrt (addf (absf (kPre v0)) (broadcast Cert.KernelIdeal.S512x512 (Scalar.ofBits (F := Ideal) .f32 0x3727C5AC#32))))

/-- The sum of its squares: along the lanes first, then along the sublanes. -/
private def kSS : FVec Ideal Cert.KernelIdeal.S1x1 .f32 :=
  shapeCast Cert.KernelIdeal.S1x1
    (multiReduction .add [0] Cert.KernelIdeal.S1
      (shapeCast Cert.KernelIdeal.S512x1
        (multiReduction .add [1] Cert.KernelIdeal.S512 (mulf (kAct v0) (kAct v0)) 0x00000000#32 reduces_S512x512_S512 (.inl rfl) rfl)
        shapeCasts_S512_S512x1)
      0x00000000#32 reduces_S512x1_S1 (.inl rfl) rfl)
    shapeCasts_S1_S1x1

/-- What region 0 stores is the signed square root over its Euclidean norm floored at 1e-12. -/
private theorem pay0_eq : pay0 (F := Ideal) v0
    = shapeCast Cert.KernelIdeal.S1x512x512
        (divf (kAct v0)
          (broadcastTo Cert.KernelIdeal.S512x512
            (maximumf (sqrt (kSS v0)) (broadcast Cert.KernelIdeal.S1x1 (Scalar.ofBits (F := Ideal) .f32 0x2B8CBCCC#32)))
            broadcasts_S1x1_S512x512))
        shapeCasts_S512x512_S1x512x512 := rfl

end KernelTail

/-! ## The kernel's side read at an index -/

/-- The signed square root of an extended real: `sign x * sqrt (|x| + 1e-5)`. -/
private def ssq (x : EReal) : EReal := Ideal.sign x * Ideal.sqrt (max x (-x) + Ideal.ofBits .f32 0x3727C5AC#32)

/-- A vector `[a]` viewed as the column `[a, 1]`: at `(i, 0)` it is the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

section KernelTailIdx
variable (v0 : Vec Ideal Cert.KernelIdeal.S1x512x784 .f32)

/-- The kernel's spelling of the sign, a select on `|x| > 0` between the sign bit's `-1` or `1` and `x` itself, is the
    sign of every extended real; so its activation is the signed square root of the scaled iterate. -/
private theorem kAct_apply (y : Cert.KernelIdeal.S512x512.Idx) : kAct v0 y = ssq (kPre v0 y) := by
  unfold kAct ssq
  rw [mulf_apply]
  congr 1
  exact Ideal.jnp_sign_eq_sign_f32 (kPre v0 y)

/-- The lane sums summed over the sublanes are the double sum over rows and columns. -/
private theorem kSS_apply : kSS v0 (ix2 (0 : Fin 1) (0 : Fin 1))
    = ∑ i : Fin 512, ∑ j : Fin 512, kAct v0 (ix2 i j) * kAct v0 (ix2 i j) := by
  unfold kSS
  rw [shapeCast_a_1a_apply]
  refine (Ideal.multiReduction_add_single (s := Cert.KernelIdeal.S512x1) (t := Cert.KernelIdeal.S1) (a := 0) _ 0x00000000#32 reduces_S512x1_S1 (.inl rfl) rfl (ix1 (0 : Fin 1))).trans ?_
  show ∑ i : Fin 512, _ = _
  refine Finset.sum_congr rfl fun i _ => ?_
  have e : reduces_S512x1_S1.lift (ix1 (0 : Fin 1)) i = ix2 i (0 : Fin 1) := by
    funext ax; apply Fin.ext
    match ax with
    | ⟨0, _⟩ => rfl
    | ⟨1, _⟩ => rfl
  rw [e, shapeCast_a_a1_apply]
  refine (Ideal.multiReduction_add_single (s := Cert.KernelIdeal.S512x512) (t := Cert.KernelIdeal.S512) (a := 1) _ 0x00000000#32 reduces_S512x512_S512 (.inl rfl) rfl (ix1 i)).trans ?_
  show ∑ j : Fin 512, _ = _
  refine Finset.sum_congr rfl fun j _ => ?_
  have e2 : reduces_S512x512_S512.lift (ix1 i) j = ix2 i j := by
    funext ax; apply Fin.ext
    match ax with
    | ⟨0, _⟩ => rfl
    | ⟨1, _⟩ => rfl
  rw [e2]
  rfl

/-- Entry `(0, i, j)` of what region 0 stores. -/
private theorem pay0_apply (i j : Fin 512) : pay0 (F := Ideal) v0 (ix3 (0 : Fin 1) i j)
    = Ideal.div (kAct v0 (ix2 i j))
        (max (Ideal.sqrt (kSS v0 (ix2 (0 : Fin 1) (0 : Fin 1)))) (Ideal.ofBits .f32 0x2B8CBCCC#32)) := by
  rw [pay0_eq, shapeCast_ab_1ab_apply, divf_apply]
  rfl

end KernelTailIdx

/-! ## The tenth iteration and the scaling, batch element by batch element -/

/-- Batch element `b` of a product, a difference, a broadcast scalar of batched arrays. -/
private theorem sl_mulf (a c : FVec Ideal Cert.ReferenceIdeal.S64x512x512 .f32) (b : Fin 64) (y : Cert.KernelIdeal.S512x512.Idx) :
    sl (mulf a c) b y = sl a b y * sl c b y := rfl
private theorem sl_subf (a c : FVec Ideal Cert.ReferenceIdeal.S64x512x512 .f32) (b : Fin 64) (y : Cert.KernelIdeal.S512x512.Idx) :
    sl (subf a c) b y = sl a b y - sl c b y := rfl
private theorem sl_scalar (x : FVec Ideal Cert.ReferenceIdeal.S_ .f32) (b : Fin 64) (y : Cert.KernelIdeal.S512x512.Idx) :
    sl (broadcastInDim Cert.ReferenceIdeal.S64x512x512 ![] bcast_S_S64x512x512 x) b y = x ix0 :=
  broadcastInDim_scalar_apply _ _ _

section KernelIter
variable (v0 : Vec Ideal Cert.KernelIdeal.S1x512x784 .f32)

/-- The scaled iterate at an entry: the tenth `Y` there times the square root of the norm. -/
private theorem kPre_apply (y : Cert.KernelIdeal.S512x512.Idx) :
    kPre v0 y = kY10 v0 y * Ideal.sqrt (kNorm v0 (ix2 (0 : Fin 1) (0 : Fin 1))) := by
  obtain ⟨i, j, rfl⟩ : ∃ i j : Fin 512, y = ix2 i j := ⟨_, _, eq_ix2 y⟩
  unfold kPre
  rw [mulf_apply]
  refine congrArg (kY10 v0 (ix2 i j) * ·) ?_
  refine (broadcastTo_apply _ broadcasts_S1x1_S512x512 (ix2 i j) (ix2 (0 : Fin 1) (0 : Fin 1)) fun ax => ?_).trans rfl
  match ax with
  | ⟨0, _⟩ => rfl
  | ⟨1, _⟩ => rfl

end KernelIter

section RefIter
variable (V0 : Valuation τ sig (Elt Ideal)) (b : Fin 64)

/-- `Z` after nine iterations. -/
private theorem ns_Z9 (y : Cert.KernelIdeal.S512x512.Idx) :
    sl (res_main_v88 V0) b y = kZ9 (xblk (refX V0) b) y := by
  unfold res_main_v88 kZ9
  exact (sl_dot _ _ b y).trans (matmul_congr _ _ _ _ _ _ _ (ns_T9 V0 b) (ns_Z8 V0 b) y)

/-- `T` of the tenth iteration. -/
private theorem ns_T10 (y : Cert.KernelIdeal.S512x512.Idx) :
    sl (res_main_v94 V0) b y = kT10 (xblk (refX V0) b) y := by
  unfold res_main_v94 kT10
  rw [sl_mulf, sl_subf, sl_mulf, sl_scalar, sl_scalar, sl_dot, ns_I, mulf_apply, subf_apply, mulf_apply]
  rw [matmul_congr _ _ _ _ (truncf .bf16 (kZ9 (xblk (refX V0) b)) bitsLt_bf16_f32) (truncf .bf16 (kY9 (xblk (refX V0) b)) bitsLt_bf16_f32) _
    (ns_Z9 V0 b) (ns_Y9 V0 b) y]
  rfl

/-- The scaled tenth `Y`, entry `(b, i, j)` of the reference's batched array, is the kernel's at `(i, j)` of batch element `b`. -/
private theorem ns_pre (i j : Fin 512) :
    mulf (Host.dotGeneral (F := Ideal) (φ₁ := .f32) (φ₂ := .f32) dot_S64x512x512_S64x512x512_S64x512x512_2_1_1_2_0_0 none (res_main_v87 V0) (res_main_v94 V0))
        (broadcastInDim S64x512x512 ![0, 1, 2] bcast_S64x1x1_S64x512x512_0_1_2
          (broadcastInDim S64x1x1 ![0] bcast_S64_S64x1x1_0 (Host.sqrt (res_main_v6 V0)))) (ix3 b i j)
      = kPre (xblk (refX V0) b) (ix2 i j) := by
  rw [mulf_apply, kPre_apply]
  have h1 : Host.dotGeneral (F := Ideal) (φ₁ := .f32) (φ₂ := .f32) dot_S64x512x512_S64x512x512_S64x512x512_2_1_1_2_0_0 none (res_main_v87 V0) (res_main_v94 V0) (ix3 b i j)
      = kY10 (xblk (refX V0) b) (ix2 i j) := by
    unfold kY10
    exact (sl_dot _ _ b (ix2 i j)).trans
      (matmul_congr _ _ _ _ (truncf .bf16 (kY9 (xblk (refX V0) b)) bitsLt_bf16_f32) (truncf .bf16 (kT10 (xblk (refX V0) b)) bitsLt_bf16_f32) _
        (ns_Y9 V0 b) (ns_T10 V0 b) (ix2 i j))
  have h2 : broadcastInDim S64x512x512 ![0, 1, 2] bcast_S64x1x1_S64x512x512_0_1_2
        (broadcastInDim S64x1x1 ![0] bcast_S64_S64x1x1_0 (Host.sqrt (res_main_v6 V0))) (ix3 b i j)
      = Ideal.sqrt (kNorm (xblk (refX V0) b) (ix2 (0 : Fin 1) (0 : Fin 1))) := by
    refine (broadcastInDim_apply _ bcast_S64x1x1_S64x512x512_0_1_2 _ (ix3 b i j) (ix3 b (0 : Fin 1) (0 : Fin 1)) fun ax => ?_).trans ?_
    · match ax with
      | ⟨0, _⟩ => rfl
      | ⟨1, _⟩ => rfl
      | ⟨2, _⟩ => rfl
    refine (broadcastInDim_apply _ bcast_S64_S64x1x1_0 _ (ix3 b (0 : Fin 1) (0 : Fin 1)) (ix1 b) fun ax => ?_).trans ?_
    · match ax with
      | ⟨0, _⟩ => rfl
    show Ideal.sqrt (res_main_v6 V0 (ix1 b)) = _
    rw [ns_norm]
  rw [h1, h2]

end RefIter

/-! ## The signed square root and the normalisation on the host, for any array -/

/-- The host's `sign w * sqrt (|w| + 1e-5)` read at an entry is the signed square root of the entry. -/
private theorem ssq_host {s : Shape} (w : FVec Ideal s .f32) (h : S_.BroadcastsInDim s ![]) (idx : s.Idx) :
    mulf (Host.sign w) (Host.sqrt (addf (Host.absf w) (broadcastInDim s ![] h (constant (F := Ideal) S_ .f32 0x3727C5AC#32)))) idx
      = ssq (w idx) := by
  have hb : broadcastInDim s ![] h (constant (F := Ideal) S_ .f32 0x3727C5AC#32) idx = Ideal.ofBits .f32 0x3727C5AC#32 :=
    broadcastInDim_scalar_apply _ _ _
  show Ideal.sign (w idx) * Ideal.sqrt (max (w idx) (-(w idx)) + broadcastInDim s ![] h (constant (F := Ideal) S_ .f32 0x3727C5AC#32) idx) = _
  rw [hb]
  rfl

/-- The host's sum of squares along the 262144 columns of row `b`, from zero. -/
private theorem sumsq_host (w : FVec Ideal S64x262144 .f32) (b : Fin 64) :
    Host.reduceAdd (mulf w w) (constant (F := Ideal) S_ .f32 0x00000000#32) reducesTo_S64x262144_S64_d1 h_S_ (ix1 b)
      = ∑ k : Fin 262144, w (ix2 b k) * w (ix2 b k) := by
  have hR : S64x262144.Reduces [1] S64 := by decide
  rw [hostReduceAdd_apply]
  refine (Ideal.hostReduceAdd_single (s := S64x262144) (t := S64) (a := 1) reducesTo_S64x262144_S64_d1 hR _ _ (ix1 b)).trans ?_
  show Ideal.ofBits .f32 0x00000000#32 + ∑ k : Fin 262144, _ = _
  rw [Ideal.ofBits_zero_f32, zero_add]
  refine Finset.sum_congr rfl fun k _ => ?_
  have e : hR.lift (ix1 b) k = ix2 b k := by
    funext ax; apply Fin.ext
    match ax with
    | ⟨0, _⟩ => rfl
    | ⟨1, _⟩ => rfl
  rw [e]
  rfl

/-- The host's square root read at an entry. -/
private theorem hostSqrt_apply {s : Shape} {φ : FTy} (x : FVec Ideal s φ) (i : s.Idx) : Host.sqrt x i = Ideal.sqrt (x i) := rfl

/-- A column `[a, 1]` broadcast along `n` columns: at `(p, c)` it is the column at `(p, 0)`. -/
private theorem bcast_col_apply {α : Type} {a n : ℕ} (x : (⟨2, ![a, 1]⟩ : Shape).Idx → α)
    (h : (⟨2, ![a, 1]⟩ : Shape).BroadcastsInDim ⟨2, ![a, n]⟩ ![0, 1]) (p : Fin a) (c : Fin n) :
    broadcastInDim ⟨2, ![a, n]⟩ ![0, 1] h x (ix2 p c) = x (ix2 p (0 : Fin 1)) := by
  refine broadcastInDim_apply _ h x _ _ fun ax => ?_
  match ax with
  | ⟨0, _⟩ =>
    show p.val = if a = 1 then 0 else p.val
    split
    · have := p.isLt; omega
    · rfl
  | ⟨1, _⟩ => rfl

/-- A vector `[a]` laid out as the column `[a, 1]`: at `(p, 0)` it is the vector at `p`. -/
private theorem bcast_vec_col_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x _ _ fun ax => ?_
  match ax with
  | ⟨0, _⟩ =>
    show p.val = if a = 1 then 0 else p.val
    split
    · have := p.isLt; omega
    · rfl

/-- An array divided by its rows' Euclidean norms floored at 1e-12, as the host computes it. -/
private def normH (w : FVec Ideal S64x262144 .f32) : FVec Ideal S64x262144 .f32 :=
  Host.divf w (broadcastInDim S64x262144 ![0, 1] bcast_S64x1_S64x262144_0_1
    (maximumf (Host.sqrt (broadcastInDim S64x1 ![0] bcast_S64_S64x1_0
        (Host.reduceAdd (mulf w w) (constant (F := Ideal) S_ .f32 0x00000000#32) reducesTo_S64x262144_S64_d1 h_S_)))
      (broadcastInDim S64x1 ![] bcast_S_S64x1 (constant (F := Ideal) S_ .f32 0x2B8CBCCC#32))))

/-- Read at `(b, k)`: the entry over the square root of the row's sum of squares, floored. -/
private theorem normalize_host (w : FVec Ideal S64x262144 .f32) (b : Fin 64) (k : Fin 262144) :
    normH w (ix2 b k)
      = Ideal.div (w (ix2 b k))
          (max (Ideal.sqrt (∑ k' : Fin 262144, w (ix2 b k') * w (ix2 b k'))) (Ideal.ofBits .f32 0x2B8CBCCC#32)) := by
  unfold normH
  rw [hostDivf_apply, bcast_col_apply, maximumf_apply, hostSqrt_apply, bcast_vec_col_apply, sumsq_host,
    broadcastInDim_scalar_apply, constant_apply]

/-! ## The flattening, the signed square root and the norm on the reference's side -/

/-- The reference's activation (its value `%107`), as an array of extended reals. -/
private def rAct (V0 : Valuation τ sig (Elt Ideal)) : FVec Ideal S64x262144 .f32 := res_main_v107 V0

section RefTailIdx
variable (V0 : Valuation τ sig (Elt Ideal)) (b : Fin 64)

/-- Column `512 i + j` of row `b` of the flattened scaled iterate is the kernel's entry `(i, j)` of batch element `b`. -/
private theorem ref_v101 (i j : Fin 512) (k : Fin 262144) (hk : k.val = 512 * i.val + j.val) :
    res_main_v101 V0 (ix2 b k) = kPre (xblk (refX V0) b) (ix2 i j) := by
  unfold res_main_v101
  refine (shapeCast_apply _ Cert.ReferenceIdeal.Gen.shapeCasts_S64x512x512_S64x262144 (ix2 b k) (ix3 b i j) ?_).trans (ns_pre V0 b i j)
  rw [Shape.rowMajor_val_three, Shape.rowMajor_val_two]
  show (b.val * 512 + i.val) * 512 + j.val = b.val * 262144 + k.val
  omega

/-- The reference's activation is the signed square root of the flattened scaled iterate, entry by entry. -/
private theorem ref_v107 (idx : S64x262144.Idx) : res_main_v107 V0 idx = ssq (res_main_v101 V0 idx) := by
  unfold res_main_v107
  generalize res_main_v101 V0 = w
  exact ssq_host w _ idx

/-- So column `512 i + j` of row `b` of the reference's activation is the kernel's at `(i, j)` of batch element `b`. -/
private theorem ref_act (i j : Fin 512) (k : Fin 262144) (hk : k.val = 512 * i.val + j.val) :
    rAct V0 (ix2 b k) = kAct (xblk (refX V0) b) (ix2 i j) := by
  unfold rAct
  rw [ref_v107, ref_v101 V0 b i j k hk, kAct_apply]

/-- The two sums of squares agree: the columns of row `b` are the entries of batch element `b`, row by row. -/
private theorem ss_eq :
    ∑ k : Fin 262144, rAct V0 (ix2 b k) * rAct V0 (ix2 b k) = kSS (xblk (refX V0) b) (ix2 (0 : Fin 1) (0 : Fin 1)) := by
  rw [kSS_apply, sum_flat]
  refine Finset.sum_congr rfl fun i _ => Finset.sum_congr rfl fun j _ => ?_
  rw [ref_act V0 b i j _ rfl]

/-- The reference's normalised activations are its activation divided by its rows' floored norms. -/
private theorem refAct_eq_normH : refAct V0 = normH (rAct V0) := rfl

end RefTailIdx

/-- Entry `(b, i, j)` of region 0's output array is entry `(0, i, j)` of what the body stores from batch element `b`. -/
private theorem G0_apply (x : Vec Ideal Cert.KernelIdeal.S64x512x784 .f32) (b : Fin 64) (i j : Fin 512) :
    G0 (F := Ideal) x (ix3 b i j) = pay0 (F := Ideal) (xblk x b) (ix3 (0 : Fin 1) i j) := rfl

/-- They are region 0's output array of the reshaped input, flattened to 64 x 262144. -/
theorem refAct_eq (V0 : Valuation τ sig (Elt Ideal)) :
    refAct V0 = shapeCast Cert.KernelIdeal.S64x262144 (G0 (F := Ideal) (refX V0)) Cert.KernelIdeal.Gen.shapeCasts_S64x512x512_S64x262144 := by
  funext idx
  obtain ⟨b, k, rfl⟩ : ∃ (b : Fin 64) (k : Fin 262144), idx = ix2 b k := ⟨_, _, eq_ix2 idx⟩
  have hk := k.isLt
  -- the row and the column of the matrix entry that column `k` of the flattening holds
  obtain ⟨i, j, hkij⟩ : ∃ i j : Fin 512, k.val = 512 * i.val + j.val :=
    ⟨⟨k.val / 512, by omega⟩, ⟨k.val % 512, by omega⟩, by show k.val = 512 * (k.val / 512) + k.val % 512; omega⟩
  have hR : shapeCast Cert.KernelIdeal.S64x262144 (G0 (F := Ideal) (refX V0)) Cert.KernelIdeal.Gen.shapeCasts_S64x512x512_S64x262144 (ix2 b k)
      = pay0 (F := Ideal) (xblk (refX V0) b) (ix3 (0 : Fin 1) i j) := by
    refine (shapeCast_apply _ Cert.KernelIdeal.Gen.shapeCasts_S64x512x512_S64x262144 (ix2 b k) (ix3 b i j) ?_).trans (G0_apply _ b i j)
    rw [Shape.rowMajor_val_three, Shape.rowMajor_val_two]
    show (b.val * 512 + i.val) * 512 + j.val = b.val * 262144 + k.val
    omega
  rw [hR, pay0_apply, refAct_eq_normH, normalize_host, ss_eq, ref_act V0 b i j k hkij]

end Cert.Bridge

end
-- ==== Proof.FcSum.lean ====
/-
  The final fully connected layer: one product over all 262144 columns against 32 partial products.

  The reference contracts the 64 x 262144 activations with the transposed 200 x 262144 weights in one
  `dot_general` and adds the bias row. The kernel walks the columns in 32 blocks of 8192: it starts its running
  sum at zero, adds each block's product, and adds the bias row at the end. Over the extended reals a product into
  the zero accumulator is the plain sum of the products of entries, addition is commutative and associative, and
  zero is neutral, so the running sum after the last block is the sum over all columns: no finiteness is needed.
-/
import proofs.«119286_j70282844831999_1_alg».proof.Proof.KDefs
import proofs.«119286_j70282844831999_1_alg».proof.Proof.Gen.ReferenceIdeal
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.TcCoe Idealize.ShloMosaic.ValueIdx
open Cert.KernelIdeal.Gen Cert.KernelIdeal.Hand

/-! ## The two products' operand indices -/

/-- In the reference's product the left operand is read at the output's row … -/
private theorem lhsR_0 (j : Cert.ReferenceIdeal.S64x200.Idx) (k : Cert.ReferenceIdeal.dot_S64x262144_S262144x200_S64x200_1_0_0_1_n_n.contr.Idx) :
    (Cert.ReferenceIdeal.dot_S64x262144_S262144x200_S64x200_1_0_0_1_n_n.lhsIdx j k 0 : ℕ) = j 0 := by
  simp [DotDims.lhsIdx, Cert.ReferenceIdeal.dot_S64x262144_S262144x200_S64x200_1_0_0_1_n_n]; rfl
/-- … and at the contracted column; -/
private theorem lhsR_1 (j : Cert.ReferenceIdeal.S64x200.Idx) (k : Cert.ReferenceIdeal.dot_S64x262144_S262144x200_S64x200_1_0_0_1_n_n.contr.Idx) :
    (Cert.ReferenceIdeal.dot_S64x262144_S262144x200_S64x200_1_0_0_1_n_n.lhsIdx j k 1 : ℕ) = k ⟨0, by decide⟩ := by
  simp [DotDims.lhsIdx, Cert.ReferenceIdeal.dot_S64x262144_S262144x200_S64x200_1_0_0_1_n_n]; rfl
/-- the right operand is read at the contracted column as its row … -/
private theorem rhsR_0 (j : Cert.ReferenceIdeal.S64x200.Idx) (k : Cert.ReferenceIdeal.dot_S64x262144_S262144x200_S64x200_1_0_0_1_n_n.contr.Idx) :
    (Cert.ReferenceIdeal.dot_S64x262144_S262144x200_S64x200_1_0_0_1_n_n.rhsIdx j k 0 : ℕ) = k ⟨0, by decide⟩ := by
  simp [DotDims.rhsIdx, Cert.ReferenceIdeal.dot_S64x262144_S262144x200_S64x200_1_0_0_1_n_n]; rfl
/-- … and at the output's column. -/
private theorem rhsR_1 (j : Cert.ReferenceIdeal.S64x200.Idx) (k : Cert.ReferenceIdeal.dot_S64x262144_S262144x200_S64x200_1_0_0_1_n_n.contr.Idx) :
    (Cert.ReferenceIdeal.dot_S64x262144_S262144x200_S64x200_1_0_0_1_n_n.rhsIdx j k 1 : ℕ) = j 1 := by
  simp [DotDims.rhsIdx, Cert.ReferenceIdeal.dot_S64x262144_S262144x200_S64x200_1_0_0_1_n_n]; rfl

/-- The reference's product of a 64 x 262144 by a 262144 x 200 matrix at `(r, j)`: the sum over the 262144 contracted
    columns of the products of entries. -/
private theorem refDot_apply (A : FVec Ideal Cert.ReferenceIdeal.S64x262144 .f32) (B : FVec Ideal Cert.ReferenceIdeal.S262144x200 .f32)
    (r : Fin 64) (j : Fin 200) :
    Host.dotGeneral (F := Ideal) (φ₁ := .f32) (φ₂ := .f32) Cert.ReferenceIdeal.dot_S64x262144_S262144x200_S64x200_1_0_0_1_n_n none A B (ix2 r j)
      = ∑ c : Fin 262144, A (ix2 r c) * B (ix2 c j) := by
  show FloatOps.dotGeneral Cert.ReferenceIdeal.dot_S64x262144_S262144x200_S64x200_1_0_0_1_n_n none .single A B (ix2 r j) = _
  rw [Ideal.dotGeneral_apply,
    ← Equiv.sum_comp (contrEquiv1 Cert.ReferenceIdeal.dot_S64x262144_S262144x200_S64x200_1_0_0_1_n_n 262144 rfl rfl).symm]
  refine Finset.sum_congr rfl fun c _ => ?_
  have c2 := contrEquiv1_symm_val Cert.ReferenceIdeal.dot_S64x262144_S262144x200_S64x200_1_0_0_1_n_n 262144 rfl rfl c
  have l2 : Cert.ReferenceIdeal.dot_S64x262144_S262144x200_S64x200_1_0_0_1_n_n.lhsIdx (ix2 r j)
      ((contrEquiv1 Cert.ReferenceIdeal.dot_S64x262144_S262144x200_S64x200_1_0_0_1_n_n 262144 rfl rfl).symm c) = ix2 r c := by
    funext ax; apply Fin.ext
    match ax with
    | ⟨0, _⟩ => exact lhsR_0 _ _
    | ⟨1, _⟩ => exact (lhsR_1 _ _).trans c2
  have r2 : Cert.ReferenceIdeal.dot_S64x262144_S262144x200_S64x200_1_0_0_1_n_n.rhsIdx (ix2 r j)
      ((contrEquiv1 Cert.ReferenceIdeal.dot_S64x262144_S262144x200_S64x200_1_0_0_1_n_n 262144 rfl rfl).symm c) = ix2 c j := by
    funext ax; apply Fin.ext
    match ax with
    | ⟨0, _⟩ => exact (rhsR_0 _ _).trans c2
    | ⟨1, _⟩ => exact rhsR_1 _ _
  rw [l2, r2]

/-- The same four readings for the kernel's block product: the left operand's row is the output's row … -/
private theorem lhsK_0 (j : Cert.KernelIdeal.S64x200.Idx) (k : Cert.KernelIdeal.dot_S64x8192_S8192x200_S64x200_1_0_0_1_n_n.contr.Idx) :
    (Cert.KernelIdeal.dot_S64x8192_S8192x200_S64x200_1_0_0_1_n_n.lhsIdx j k 0 : ℕ) = j 0 := by
  simp [DotDims.lhsIdx, Cert.KernelIdeal.dot_S64x8192_S8192x200_S64x200_1_0_0_1_n_n]; rfl
/-- … its column the contracted one; -/
private theorem lhsK_1 (j : Cert.KernelIdeal.S64x200.Idx) (k : Cert.KernelIdeal.dot_S64x8192_S8192x200_S64x200_1_0_0_1_n_n.contr.Idx) :
    (Cert.KernelIdeal.dot_S64x8192_S8192x200_S64x200_1_0_0_1_n_n.lhsIdx j k 1 : ℕ) = k ⟨0, by decide⟩ := by
  simp [DotDims.lhsIdx, Cert.KernelIdeal.dot_S64x8192_S8192x200_S64x200_1_0_0_1_n_n]; rfl
/-- the right operand's row is the contracted column … -/
private theorem rhsK_0 (j : Cert.KernelIdeal.S64x200.Idx) (k : Cert.KernelIdeal.dot_S64x8192_S8192x200_S64x200_1_0_0_1_n_n.contr.Idx) :
    (Cert.KernelIdeal.dot_S64x8192_S8192x200_S64x200_1_0_0_1_n_n.rhsIdx j k 0 : ℕ) = k ⟨0, by decide⟩ := by
  simp [DotDims.rhsIdx, Cert.KernelIdeal.dot_S64x8192_S8192x200_S64x200_1_0_0_1_n_n]; rfl
/-- … and its column the output's column. -/
private theorem rhsK_1 (j : Cert.KernelIdeal.S64x200.Idx) (k : Cert.KernelIdeal.dot_S64x8192_S8192x200_S64x200_1_0_0_1_n_n.contr.Idx) :
    (Cert.KernelIdeal.dot_S64x8192_S8192x200_S64x200_1_0_0_1_n_n.rhsIdx j k 1 : ℕ) = j 1 := by
  simp [DotDims.rhsIdx, Cert.KernelIdeal.dot_S64x8192_S8192x200_S64x200_1_0_0_1_n_n]; rfl

/-- A block product of a 64 x 8192 by an 8192 x 200 matrix into the zero accumulator, at `(r, j)`: the sum over the 8192
    contracted columns of the products of entries (zero is neutral, so nothing of the accumulator is left). -/
private theorem blkDot_apply (A : FVec Ideal Cert.KernelIdeal.S64x8192 .bf16) (B : FVec Ideal Cert.KernelIdeal.S8192x200 .bf16)
    (r : Fin 64) (j : Fin 200) :
    matmul (F := Ideal) Cert.KernelIdeal.dot_S64x8192_S8192x200_S64x200_1_0_0_1_n_n none A B
        (constant (F := Ideal) Cert.KernelIdeal.S64x200 .f32 0x00000000#32) (ix2 r j)
      = ∑ c : Fin 8192, A (ix2 r c) * B (ix2 c j) := by
  show FloatOps.matmul Cert.KernelIdeal.dot_S64x8192_S8192x200_S64x200_1_0_0_1_n_n none A B (constant _ .f32 0x00000000#32) (ix2 r j) = _
  rw [Ideal.matmul_constant_zero_apply,
    ← Equiv.sum_comp (contrEquiv1 Cert.KernelIdeal.dot_S64x8192_S8192x200_S64x200_1_0_0_1_n_n 8192 rfl rfl).symm]
  refine Finset.sum_congr rfl fun c _ => ?_
  have c2 := contrEquiv1_symm_val Cert.KernelIdeal.dot_S64x8192_S8192x200_S64x200_1_0_0_1_n_n 8192 rfl rfl c
  have l2 : Cert.KernelIdeal.dot_S64x8192_S8192x200_S64x200_1_0_0_1_n_n.lhsIdx (ix2 r j)
      ((contrEquiv1 Cert.KernelIdeal.dot_S64x8192_S8192x200_S64x200_1_0_0_1_n_n 8192 rfl rfl).symm c) = ix2 r c := by
    funext ax; apply Fin.ext
    match ax with
    | ⟨0, _⟩ => exact lhsK_0 _ _
    | ⟨1, _⟩ => exact (lhsK_1 _ _).trans c2
  have r2 : Cert.KernelIdeal.dot_S64x8192_S8192x200_S64x200_1_0_0_1_n_n.rhsIdx (ix2 r j)
      ((contrEquiv1 Cert.KernelIdeal.dot_S64x8192_S8192x200_S64x200_1_0_0_1_n_n 8192 rfl rfl).symm c) = ix2 c j := by
    funext ax; apply Fin.ext
    match ax with
    | ⟨0, _⟩ => exact (rhsK_0 _ _).trans c2
    | ⟨1, _⟩ => exact rhsK_1 _ _
  rw [l2, r2]

/-! ## The kernel's three stored values at an index -/

/-- The value the running sum starts from is zero at every entry. -/
private theorem pay1_apply (r : Fin 64) (j : Fin 200) : k1_pay1 (F := Ideal) (ix2 r j) = 0 := by
  unfold k1_pay1
  show shapeCast Cert.KernelIdeal.S64x200 (broadcast Cert.KernelIdeal.S64x200 (Scalar.ofBits (F := Ideal) .f32 0x00000000#32))
    shapeCasts_S64x200_S64x200 (ix2 r j) = 0
  rw [shapeCast_self]
  exact Ideal.ofBits_zero_f32

/-- One step of the running sum at `(r, j)`: the sum so far plus the block's sum of products of the activations' row `r`
    and the weights' row `j` (the weights enter transposed; over the extended reals the change of format is the identity). -/
private theorem pay2_apply (v3 : Vec Ideal Cert.KernelIdeal.S64x8192 .f32) (v6 : Vec Ideal Cert.KernelIdeal.S200x8192 .f32)
    (v8 : Vec Ideal Cert.KernelIdeal.S64x200 .f32) (r : Fin 64) (j : Fin 200) :
    k1_pay2 (F := Ideal) v3 v6 v8 (ix2 r j) = v8 (ix2 r j) + ∑ c : Fin 8192, v3 (ix2 r c) * v6 (ix2 j c) := by
  unfold k1_pay2
  show shapeCast Cert.KernelIdeal.S64x200 (addf (F := Ideal) v8
      (matmul (F := Ideal) Cert.KernelIdeal.dot_S64x8192_S8192x200_S64x200_1_0_0_1_n_n none
        (truncf .bf16 (shapeCast Cert.KernelIdeal.S64x8192 v3 shapeCasts_S64x8192_S64x8192) bitsLt_bf16_f32)
        (transpose Cert.KernelIdeal.S8192x200 [1, 0] (truncf .bf16 v6 bitsLt_bf16_f32) transposes_S200x8192_p1_0_S8192x200)
        (constant (F := Ideal) Cert.KernelIdeal.S64x200 .f32 0x00000000#32))) shapeCasts_S64x200_S64x200 (ix2 r j) = _
  rw [shapeCast_self, shapeCast_self, addf_apply, blkDot_apply]
  refine congrArg (v8 (ix2 r j) + ·) (Finset.sum_congr rfl fun c _ => ?_)
  rw [transpose_ix2_apply]
  rfl

/-- The last step at `(r, j)`: the finished sum plus the bias row's entry `j`. -/
private theorem pay3_apply (v18 : Vec Ideal Cert.KernelIdeal.S64x200 .f32) (v19 : Vec Ideal Cert.KernelIdeal.S1x200 .f32) (r : Fin 64) (j : Fin 200) :
    k1_pay3 (F := Ideal) v18 v19 (ix2 r j) = v18 (ix2 r j) + v19 (ix2 (0 : Fin 1) j) := by
  unfold k1_pay3
  show addf (F := Ideal) v18 (broadcastTo Cert.KernelIdeal.S64x200
      (shapeCast Cert.KernelIdeal.S1x200 (shapeCast Cert.KernelIdeal.S1x200 v19 shapeCasts_S1x200_S1x200) shapeCasts_S1x200_S1x200)
      broadcasts_S1x200_S64x200) (ix2 r j) = _
  rw [shapeCast_self, shapeCast_self, addf_apply, broadcastTo_1b_ab_apply]

/-! ## The running sum over column blocks is the sum over the columns passed so far -/

/-- The product of the activations' entry `(r, k)` and the weights' entry `(j, k)`, as a function of any natural
    number `k`: zero from column 262144 on, so that sums over ranges of columns can be split and joined freely. -/
private def colTerm (v2 : FVec Ideal Cert.ReferenceIdeal.S64x262144 .f32) (w : FVec Ideal Cert.ReferenceIdeal.S200x262144 .f32)
    (r : Fin 64) (j : Fin 200) (k : ℕ) : EReal :=
  if hk : k < 262144 then v2 (ix2 r ⟨k, hk⟩) * w (ix2 j ⟨k, hk⟩) else 0

/-- Block `t`'s sum of products is the sum of the column terms over columns `8192 t … 8192 t + 8191`. -/
private theorem blockSum_eq (v2 : FVec Ideal Cert.ReferenceIdeal.S64x262144 .f32) (w : FVec Ideal Cert.ReferenceIdeal.S200x262144 .f32)
    (r : Fin 64) (j : Fin 200) (t : ℕ) (ht : t < 32) :
    ∑ c : Fin 8192, vblk (F := Ideal) v2 t ht (ix2 r c) * wblk (F := Ideal) w t ht (ix2 j c)
      = ∑ x ∈ Finset.range 8192, colTerm v2 w r j (t * 8192 + x) := by
  rw [← Fin.sum_univ_eq_sum_range (fun x => colTerm v2 w r j (t * 8192 + x)) 8192]
  refine Finset.sum_congr rfl fun c _ => ?_
  have hk : t * 8192 + c.val < 262144 := by have := c.isLt; omega
  show _ = colTerm v2 w r j (t * 8192 + c.val)
  rw [colTerm, dif_pos hk]
  rfl

/-- After block `n` the running sum at `(r, j)` is the sum of the column terms over the first `8192 (n + 1)` columns. -/
private theorem accM_apply (v2 : FVec Ideal Cert.ReferenceIdeal.S64x262144 .f32) (w : FVec Ideal Cert.ReferenceIdeal.S200x262144 .f32)
    (r : Fin 64) (j : Fin 200) : ∀ (n : ℕ) (h : n < 32),
    accM (F := Ideal) v2 w n h (ix2 r j) = ∑ k ∈ Finset.range ((n + 1) * 8192), colTerm v2 w r j k
  | 0, h => by
    rw [accM, pay2_apply, pay1_apply, zero_add, blockSum_eq]
    refine Finset.sum_congr rfl fun x _ => ?_
    rw [Nat.zero_mul, Nat.zero_add]
  | n + 1, h => by
    rw [accM, pay2_apply, accM_apply v2 w r j n (Nat.lt_of_succ_lt h), blockSum_eq,
      show (n + 1 + 1) * 8192 = (n + 1) * 8192 + 8192 from by omega, Finset.sum_range_add]

/-! ## The bias row, and the assembly -/

/-- The bias laid out as a row and broadcast down the 64 rows reads, at `(r, j)`, the bias at `j`. -/
private theorem biasRows_apply (bias : FVec Ideal Cert.ReferenceIdeal.S200 .f32) (r : Fin 64) (j : Fin 200) :
    broadcastInDim Cert.ReferenceIdeal.S64x200 ![0, 1] Cert.ReferenceIdeal.Gen.bcast_S1x200_S64x200_0_1
        (broadcastInDim Cert.ReferenceIdeal.S1x200 ![1] Cert.ReferenceIdeal.Gen.bcast_S200_S1x200_1 bias) (ix2 r j) = bias (ix1 j) := by
  refine (broadcastInDim_apply ![0, 1] _ _ (ix2 r j) (ix2 (0 : Fin 1) j) fun a => ?_).trans
    (broadcastInDim_apply ![1] _ bias (ix2 (0 : Fin 1) j) (ix1 j) fun a => ?_)
  · match a with
    | ⟨0, _⟩ => rfl
    | ⟨1, _⟩ => rfl
  · match a with
    | ⟨0, _⟩ => rfl

/-- The reference's last three operations on any activations `v2`, weights `w` and bias `bias` are the kernel's
    region-1 output array of the same activations and weights and the bias laid out as a row. -/
theorem fc_eq (v2 : FVec Ideal Cert.ReferenceIdeal.S64x262144 .f32) (w : FVec Ideal Cert.ReferenceIdeal.S200x262144 .f32)
    (bias : FVec Ideal Cert.ReferenceIdeal.S200 .f32) :
    (addf (F := Ideal) (Host.dotGeneral (F := Ideal) (φ₁ := .f32) (φ₂ := .f32) Cert.ReferenceIdeal.dot_S64x262144_S262144x200_S64x200_1_0_0_1_n_n none v2
        (transpose Cert.ReferenceIdeal.S262144x200 [1, 0] w Cert.ReferenceIdeal.Gen.transposes_S200x262144_S262144x200_1_0))
      (broadcastInDim Cert.ReferenceIdeal.S64x200 ![0, 1] Cert.ReferenceIdeal.Gen.bcast_S1x200_S64x200_0_1
        (broadcastInDim Cert.ReferenceIdeal.S1x200 ![1] Cert.ReferenceIdeal.Gen.bcast_S200_S1x200_1 bias)) : Vec Ideal Cert.KernelIdeal.S64x200 .f32)
    = outM (F := Ideal) v2 w (shapeCast Cert.KernelIdeal.S1x200 bias Cert.KernelIdeal.Gen.shapeCasts_S200_S1x200) := by
  funext i
  obtain ⟨r, j, rfl⟩ : ∃ (r : Fin 64) (j : Fin 200), i = ix2 r j := ⟨i 0, i 1, eq_ix2 i⟩
  rw [addf_apply, refDot_apply, biasRows_apply, outM, pay3_apply, accM_apply, shapeCast_a_1a_apply]
  refine congrArg (· + bias (ix1 j)) ?_
  rw [show (31 + 1) * 8192 = 262144 from rfl, ← Fin.sum_univ_eq_sum_range (colTerm v2 w r j) 262144]
  refine Finset.sum_congr rfl fun c _ => ?_
  rw [transpose_ix2_apply, colTerm, dif_pos c.isLt]

end Cert.Bridge

end
-- ==== Proof.lean ====
/-
  The certificate's five claims for the bilinear-pooling kernel with a Newton-Schulz matrix square root and a
  fully connected layer, against its plain reference.

  Frames. The kernel program is a reshape, a first kernel region (one grid point per batch element: the pooled
  matrix, ten Newton-Schulz steps, the signed square root, the normalisation), two reshapes, and a second region
  (32 grid points along the contraction axis of the fully connected layer, the running sum carried in a scratch
  buffer). Its run is assembled region by region; the arguments are never written. The same text serves the
  word-level program and its idealization. The reference is host operations only: its frame is its run with the
  result dropped.

  The idealization replaced one window: "1.0 with the sign bit of x" by "x < 0 ? -1 : 1". That is the sign-bit
  rule's statement at the window's shape.

  Values, over the extended reals. Region 0's output array is, batch element by batch element, what the reference
  computes on the whole batch: every step is pointwise, a matrix product whose batch axis is kept, or a norm
  summed over the same entries; the kernel's "sign" (x where |x| is not positive, else -1 or 1 by x < 0) is the
  reference's on every extended real. Region 1's 32 partial products summed from zero are the reference's one
  product over all columns, because addition of extended reals is commutative and associative with zero neutral;
  both then add the bias row. No step needs the inputs finite.
-/
import proofs.«119286_j70282844831999_1_alg».proof.Defs
import proofs.«119286_j70282844831999_1_alg».proof.Proof.Gen.Kernel
import proofs.«119286_j70282844831999_1_alg».proof.Proof.Gen.KernelIdeal
import proofs.«119286_j70282844831999_1_alg».proof.Proof.Gen.ReferenceIdeal
import proofs.«119286_j70282844831999_1_alg».proof.Proof.Gen.ReferenceIdeal.Run
import proofs.«119286_j70282844831999_1_alg».proof.Proof.Gen.Pre_finite_inputs
import proofs.«119286_j70282844831999_1_alg».proof.Proof.FrameRunBits
import proofs.«119286_j70282844831999_1_alg».proof.Proof.KernelValue
import proofs.«119286_j70282844831999_1_alg».proof.Proof.RefTail
import proofs.«119286_j70282844831999_1_alg».proof.Proof.FcSum
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k : Cert.frame_Kernel := fun m ρ _ =>
  (θ_run Cert.Kernel.defs _ _).mono (fun _ h c => (h c).2) (Cert.Kernel.Hand.run_all (F := Bits) m ρ)

/-- So does its idealization. -/
theorem frame_ki : Cert.frame_KernelIdeal := fun m ρ _ =>
  (θ_run Cert.KernelIdeal.defs _ _).mono (fun _ h c => (h c).2) (Cert.KernelIdeal.Hand.run_all (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the sign-bit window at the 512 x 512 shape. -/
theorem preserves : Cert.preserves_Kernel_KernelIdeal :=
  IdealRules.sign_bit.statement Cert.KernelIdeal.S512x512 .f32

/-- Both idealized programs end with the same result array: the fully connected layer's output of region 0's
    output array of the reshaped input. -/
theorem algebraic : Cert.algebraic_KernelIdeal_ReferenceIdeal := by
  intro m ρ m' ρ' _ hagree
  refine ⟨fun c => Cert.KernelIdeal.Hand.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.kernel_value (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Hand.result (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
  rw [← (hagree c).1, ← (hagree c).2.1, ← (hagree c).2.2]
  have hfc := Cert.Bridge.fc_eq (Cert.Bridge.refAct (StableHlo.launchContents m' c))
    (StableHlo.launchContents m' c (Proc.devRef .tc Cert.ReferenceIdeal.main_arg1))
    (StableHlo.launchContents m' c (Proc.devRef .tc Cert.ReferenceIdeal.main_arg2))
  refine hfc.trans ?_
  rw [Cert.Bridge.refAct_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
